-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64 .f32) (main_arg4 : FVec F S64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S5000x64 : Shape := ⟨2, ![5000, 64]⟩

abbrev nBuf : Space → Nat
  | .hbm => 41
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S100000x64, .f32⟩
  | .hbm, ⟨30, _⟩ => ⟨S1x64, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S_, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v31 : BitVec 1 := Scalar.cmpi .eq arg0 c19_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S5000x64 : S1x64.Broadcasts S5000x64
  reduces_S5000x64_S64 : S5000x64.Reduces [0] S64
  bcast_S_S1x64 : S_.BroadcastsInDim S1x64 (![] : Fin 0 → Fin S1x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v18_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .i32⟩
  | .hbm, ⟨36, _⟩ => ⟨S_, .f32⟩
  | .hbm, ⟨37, _⟩ => ⟨S64, .f32⟩
  | .hbm, ⟨38, _⟩ => ⟨S1x64, .f32⟩
  | .hbm, ⟨39, _⟩ => ⟨S_, .f32⟩
  | .hbm, ⟨40, _⟩ => ⟨S1x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_call1_cst : Ref sig .tc := ⟨.hbm, 74, rfl⟩
abbrev main_call1_v0 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call2_cst : Ref sig .tc := ⟨.hbm, 81, rfl⟩
abbrev main_call2_v0 : Ref sig .tc := ⟨.hbm, 82, rfl⟩
abbrev main_v43 : Ref sig .tc := ⟨.hbm, 83, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KReg0.lean ====
/-
  The first kernel region: at each of the 20 grid points a block of 5000 rows of x + agg is multiplied by W1 and
  shifted by b1; the block of h is written whole, and two rows of scratch accumulate, over the points, the column
  sums of h and of h squared (reset at the first point, copied to the two row outputs at the last).  This module
  states what the region's windows and the two scratch rows hold at each point and that the kernel body, run on
  them, leaves exactly that.
-/
import proofs.«108197_j55783035240590_1_alg».proof.Proof.Gen.Kernel.Launch
import proofs.«108197_j55783035240590_1_alg».proof.Proof.Gen.Kernel.Skeleton
import proofs.«108197_j55783035240590_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of h the body stores at point `t`: the blocks of x and agg there against W1, plus b1. -/
def hblk (c : Dev nD) (t : Fin cfg0.N) : Vec F S5000x64 .f32 :=
  k0_pay3 (iblk0 V c 0 t) (iblk0 V c 1 t) (iblk0 V c 2 t) (iblk0 V c 3 t)

/-- The two scratch rows after the body at position `n`: the running column sums of h and of h squared — from the zero
    rows at the first point, from what the point before left afterwards. -/
def acc (c : Dev nD) : (n : ℕ) → n < cfg0.N → Vec F S1x64 .f32 × Vec F S1x64 .f32
  | 0, hn => (k0_pay4 (iblk0 V c 0 ⟨0, hn⟩) (iblk0 V c 1 ⟨0, hn⟩) (iblk0 V c 2 ⟨0, hn⟩) (iblk0 V c 3 ⟨0, hn⟩) (k0_pay1 (F := F)), k0_pay5 (iblk0 V c 0 ⟨0, hn⟩) (iblk0 V c 1 ⟨0, hn⟩) (iblk0 V c 2 ⟨0, hn⟩) (iblk0 V c 3 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (iblk0 V c 3 ⟨n + 1, hn⟩) (acc c n (Nat.lt_of_succ_lt hn)).1,
      k0_pay5 (iblk0 V c 0 ⟨n + 1, hn⟩) (iblk0 V c 1 ⟨n + 1, hn⟩) (iblk0 V c 2 ⟨n + 1, hn⟩) (iblk0 V c 3 ⟨n + 1, hn⟩) (acc c n (Nat.lt_of_succ_lt hn)).2)

abbrev scM0 : Memref sig .tc .vmem S1x64 .f32 := Memref.whole cc0_scratch0
abbrev scM1 : Memref sig .tc .vmem S1x64 .f32 := Memref.whole cc0_scratch1

/-- The core's scoped buffers that are neither a staging buffer of this region nor one of its two scratch rows (the
    second region's staging buffers), each whole at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region's invariant before position `n`: before the first point every scoped buffer no window stages at anything
    and the generator register at some state; afterwards the two scratch rows at the running sums the point before left. -/
def PhiS (c : Dev nD) : (n : ℕ) → n ≤ cfg0.N → sProp 𝕄
  | 0, _ => Pipeline.ΦA spec0 c
  | n + 1, hn => iprop(owns (c : Thread nD τ) scM0 fullShare (acc V c n hn).1 ∗ owns (c : Thread nD τ) scM1 fullShare (acc V c n hn).2
      ∗ restS (F := F) c ∗ (∃ r, prngReg c r))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => hblk V c t
    | ⟨5, _⟩ => (acc V c t.val t.isLt).1
    | ⟨6, _⟩ => (acc V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = hblk V c t := by dsimp only [dat0]
theorem after0_5 (c : Dev nD) (t : Fin cfg0.N) : (dat0 V c).after 5 t = (acc V c t.val t.isLt).1 := by dsimp only [dat0]
theorem after0_6 (c : Dev nD) (t : Fin cfg0.N) : (dat0 V c).after 6 t = (acc V c t.val t.isLt).2 := by dsimp only [dat0]

/-! ## The two conditions of the body, in closed form over the grid -/

/-- The first conditional's test, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The second conditional's test. -/
abbrev cond0_1 (i : grid0.Coords) : Prop := k0_cond2 i = 1#1
/-- It holds at the last point only. -/
theorem hcond0_1 : ∀ t : Fin cfg0.N, cond0_1 (grid0.coords t) ↔ t.val = 19 :=
  (by decide +kernel : ∀ t : Fin grid0.N, cond0_1 (grid0.coords t) ↔ t.val = 19)

/-- The windows that are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the two row outputs are idle and not written back; at the last point they are live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The body on any whole memrefs, one run per control case -/

theorem hz : (![0, 0] : Fin 2 → Nat) = fun _ => 0 := funext fun a => by fin_cases a <;> rfl

/-- A store through the whole-shape rectangle, made last, leaves its payload, whatever the buffer held and whatever was stored before. -/
theorem read_store_whole {S : Shape} {e : EltTy} (v : View sig .tc .vmem S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

set_option maxHeartbeats 4000000 in
/-- The first point: both scratch rows are reset to the zero rows and then updated; the block of h is stored whole; the two
    row outputs are not touched. -/
theorem run_first (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x a : Vec F S5000x64 .f32) (w : Vec F S64x64 .f32) (b : Vec F S1x64 .f32) (x6 x7 : Vec F S1x64 .f32) (E : Set ℕ) (K : PUnit → sProp 𝕄) :
    iprop(owns (c : Thread nD τ) arg1 fullShare x ∗ owns (c : Thread nD τ) arg2 fullShare a ∗ owns (c : Thread nD τ) arg3 fullShare w ∗ owns (c : Thread nD τ) arg4 fullShare b
        ∗ (∃ d, owns (c : Thread nD τ) arg5 fullShare d) ∗ owns (c : Thread nD τ) arg6 fullShare x6 ∗ owns (c : Thread nD τ) arg7 fullShare x7
        ∗ (∃ s, owns (c : Thread nD τ) arg8 fullShare s) ∗ (∃ q, owns (c : Thread nD τ) arg9 fullShare q)
        ∗ (iprop(owns (c : Thread nD τ) arg1 fullShare x ∗ owns (c : Thread nD τ) arg2 fullShare a ∗ owns (c : Thread nD τ) arg3 fullShare w ∗ owns (c : Thread nD τ) arg4 fullShare b
            ∗ owns (c : Thread nD τ) arg5 fullShare (k0_pay3 x a w b) ∗ owns (c : Thread nD τ) arg6 fullShare x6 ∗ owns (c : Thread nD τ) arg7 fullShare x7
            ∗ owns (c : Thread nD τ) arg8 fullShare (k0_pay4 x a w b (k0_pay1 (F := F))) ∗ owns (c : Thread nD τ) arg9 fullShare (k0_pay5 x a w b (k0_pay2 (F := F)))) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9) K := by
  simp only [cc0__stage1_kernel_eq_skeleton]; unfold cc0__stage1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, ⟨%f7, %hf7, H7⟩, ⟨%s, %f8, %hf8, H8⟩, ⟨%q, %f9, %hf9, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8; obtain rfl := harg9.eq_unread hf9
  sl_exec (disch := first | exact hc0 | exact hc1)
  sl_unfold_words
  sl_step
  iapply Hk
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    refine (read_store_whole (S := S5000x64) _ _ hz _ _ _).trans ?_
    simp only [View.readAt_eq_ld, hf1, hf2, hf3, hf4, View.ld_unit_zero (S := S5000x64) hz, View.ld_unit_zero (S := S64x64) hz, View.ld_unit_zero (S := S1x64) hz]
  isplitl [H6]
  · iexists _; isplitr
    · ipureintro; exact hf6
    iexact H6
  isplitl [H7]
  · iexists _; isplitr
    · ipureintro; exact hf7
    iexact H7
  isplitl [H8]
  · iexists _; isplitr
    swap; · iexact H8
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, View.readCov_unit_zero (S := S1x64) _ hz]
  · iexists _; isplitr
    swap; · iexact H9
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, View.readCov_unit_zero (S := S1x64) _ hz]

set_option maxHeartbeats 4000000 in
/-- A middle point: the block of h is stored whole and each scratch row goes from what it held to its update; the two row
    outputs are not touched. -/
theorem run_mid (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x a : Vec F S5000x64 .f32) (w : Vec F S64x64 .f32) (b : Vec F S1x64 .f32) (x6 x7 s q : Vec F S1x64 .f32) (E : Set ℕ) (K : PUnit → sProp 𝕄) :
    iprop(owns (c : Thread nD τ) arg1 fullShare x ∗ owns (c : Thread nD τ) arg2 fullShare a ∗ owns (c : Thread nD τ) arg3 fullShare w ∗ owns (c : Thread nD τ) arg4 fullShare b
        ∗ (∃ d, owns (c : Thread nD τ) arg5 fullShare d) ∗ owns (c : Thread nD τ) arg6 fullShare x6 ∗ owns (c : Thread nD τ) arg7 fullShare x7
        ∗ owns (c : Thread nD τ) arg8 fullShare s ∗ owns (c : Thread nD τ) arg9 fullShare q
        ∗ (iprop(owns (c : Thread nD τ) arg1 fullShare x ∗ owns (c : Thread nD τ) arg2 fullShare a ∗ owns (c : Thread nD τ) arg3 fullShare w ∗ owns (c : Thread nD τ) arg4 fullShare b
            ∗ owns (c : Thread nD τ) arg5 fullShare (k0_pay3 x a w b) ∗ owns (c : Thread nD τ) arg6 fullShare x6 ∗ owns (c : Thread nD τ) arg7 fullShare x7
            ∗ owns (c : Thread nD τ) arg8 fullShare (k0_pay4 x a w b s) ∗ owns (c : Thread nD τ) arg9 fullShare (k0_pay5 x a w b q)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9) K := by
  simp only [cc0__stage1_kernel_eq_skeleton]; unfold cc0__stage1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8; obtain rfl := harg9.eq_unread hf9
  sl_exec (disch := first | exact hc0 | exact hc1)
  sl_step
  iapply Hk
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    refine (read_store_whole (S := S5000x64) _ _ hz _ _ _).trans ?_
    simp only [View.readAt_eq_ld, hf1, hf2, hf3, hf4, View.ld_unit_zero (S := S5000x64) hz, View.ld_unit_zero (S := S64x64) hz, View.ld_unit_zero (S := S1x64) hz]
  isplitl [H6]
  · iexists _; isplitr
    · ipureintro; exact hf6
    iexact H6
  isplitl [H7]
  · iexists _; isplitr
    · ipureintro; exact hf7
    iexact H7
  isplitl [H8]
  · iexists _; isplitr
    swap; · iexact H8
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, hf8]
  · iexists _; isplitr
    swap; · iexact H9
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, hf9]

set_option maxHeartbeats 4000000 in
/-- The last point: as a middle point, and then each scratch row, as just updated, is copied over its row output. -/
theorem run_last (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x a : Vec F S5000x64 .f32) (w : Vec F S64x64 .f32) (b : Vec F S1x64 .f32) (s q : Vec F S1x64 .f32) (E : Set ℕ) (K : PUnit → sProp 𝕄) :
    iprop(owns (c : Thread nD τ) arg1 fullShare x ∗ owns (c : Thread nD τ) arg2 fullShare a ∗ owns (c : Thread nD τ) arg3 fullShare w ∗ owns (c : Thread nD τ) arg4 fullShare b
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x ∗ owns (c : Thread nD τ) arg2 fullShare a ∗ owns (c : Thread nD τ) arg3 fullShare w ∗ owns (c : Thread nD τ) arg4 fullShare b
            ∗ owns (c : Thread nD τ) arg5 fullShare (k0_pay3 x a w b) ∗ owns (c : Thread nD τ) arg6 fullShare (k0_pay4 x a w b s) ∗ owns (c : Thread nD τ) arg7 fullShare (k0_pay5 x a w b q)
            ∗ owns (c : Thread nD τ) arg8 fullShare (k0_pay4 x a w b s) ∗ owns (c : Thread nD τ) arg9 fullShare (k0_pay5 x a w b q)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9) K := by
  simp only [cc0__stage1_kernel_eq_skeleton]; unfold cc0__stage1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, %hf5, H5⟩, ⟨%x6, %f6, %hf6, H6⟩, ⟨%x7, %f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8; obtain rfl := harg9.eq_unread hf9
  sl_exec (disch := first | exact hc0 | exact hc1)
  sl_unfold_words
  sl_step
  iapply Hk
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    refine (read_store_whole (S := S5000x64) _ _ hz _ _ _).trans ?_
    simp only [View.readAt_eq_ld, hf1, hf2, hf3, hf4, View.ld_unit_zero (S := S5000x64) hz, View.ld_unit_zero (S := S64x64) hz, View.ld_unit_zero (S := S1x64) hz]
  isplitl [H6]
  · iexists _; isplitr
    swap; · iexact H6
    ipureintro
    refine (read_store_whole (S := S1x64) _ _ hz _ _ _).trans ?_
    refine (View.readCov_unit_zero (S := S1x64) _ hz _ _).trans ?_
    simp only [View.readAt_eq_ld, hf1, hf2, hf3, hf4, View.ld_unit_zero (S := S5000x64) hz, View.ld_unit_zero (S := S64x64) hz, View.ld_unit_zero (S := S1x64) hz, hf8]
  isplitl [H7]
  · iexists _; isplitr
    swap; · iexact H7
    ipureintro
    refine (read_store_whole (S := S1x64) _ _ hz _ _ _).trans ?_
    refine (View.readCov_unit_zero (S := S1x64) _ hz _ _).trans ?_
    simp only [View.readAt_eq_ld, hf1, hf2, hf3, hf4, View.ld_unit_zero (S := S5000x64) hz, View.ld_unit_zero (S := S64x64) hz, View.ld_unit_zero (S := S1x64) hz, hf9]
  isplitl [H8]
  · iexists _; isplitr
    swap; · iexact H8
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, hf8]
  · iexists _; isplitr
    swap; · iexact H9
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, hf9]

/-! ## The running sums, point by point -/

/-- At the first point the running sums start from the zero rows. -/
theorem acc_first (c : Dev nD) (t : Fin cfg0.N) (h0 : t.val = 0) :
    acc V c t.val t.isLt = (k0_pay4 (iblk0 V c 0 t) (iblk0 V c 1 t) (iblk0 V c 2 t) (iblk0 V c 3 t) (k0_pay1 (F := F)), k0_pay5 (iblk0 V c 0 t) (iblk0 V c 1 t) (iblk0 V c 2 t) (iblk0 V c 3 t) (k0_pay2 (F := F))) := by
  obtain ⟨n, hn⟩ := t
  cases n with
  | zero => rfl
  | succ n => exact absurd h0 (Nat.succ_ne_zero n)

/-- At a later point they continue from what the point before left. -/
theorem acc_later (c : Dev nD) (t : Fin cfg0.N) (h0 : t.val ≠ 0) :
    acc V c t.val t.isLt = (k0_pay4 (iblk0 V c 0 t) (iblk0 V c 1 t) (iblk0 V c 2 t) (iblk0 V c 3 t) (acc V c (t.val - 1) (Nat.lt_of_le_of_lt (Nat.sub_le _ _) t.isLt)).1, k0_pay5 (iblk0 V c 0 t) (iblk0 V c 1 t) (iblk0 V c 2 t) (iblk0 V c 3 t) (acc V c (t.val - 1) (Nat.lt_of_le_of_lt (Nat.sub_le _ _) t.isLt)).2) := by
  obtain ⟨n, hn⟩ := t
  cases n with
  | zero => exact absurd rfl h0
  | succ n => rfl

/-! ## The invariant, position by position -/

theorem PhiS_zero (c : Dev nD) (n : ℕ) (h : n ≤ cfg0.N) (hz : n = 0) : PhiS V c n h = Pipeline.ΦA spec0 c := by
  subst hz; rfl

/-- After point `n`: the two scratch rows at that point's running sums. -/
theorem PhiS_succ (c : Dev nD) (n : ℕ) (hn : n < cfg0.N) :
    PhiS V c (n + 1) hn = iprop(owns (c : Thread nD τ) scM0 fullShare (acc V c n hn).1 ∗ owns (c : Thread nD τ) scM1 fullShare (acc V c n hn).2
      ∗ restS (F := F) c ∗ (∃ r, prngReg c r)) := rfl

/-- Before a point that is not the first: the two scratch rows at what the point before left. -/
theorem PhiS_pos (c : Dev nD) (n : ℕ) (h : n ≤ cfg0.N) (hz : n ≠ 0) :
    PhiS V c n h = iprop(owns (c : Thread nD τ) scM0 fullShare (acc V c (n - 1) (by omega)).1 ∗ owns (c : Thread nD τ) scM1 fullShare (acc V c (n - 1) (by omega)).2
      ∗ restS (F := F) c ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- What the launch hands the region, with the two scratch rows as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ restS (F := F) c) ∗ (∃ r, prngReg c r)) := by
  unfold Pipeline.ΦA restS; rw [scopedRest0_eq]; simp only [scM0, scM1, owns_whole]; try rfl

/-! ## What the body finds in the input windows -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body obligation, at a generic point -/

/-- Each window's current staging memref at point `t`, at its literal shape, and its wholeness. -/
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The input windows hold their blocks; the point is the first, a middle one or the last. At the
    first the invariant hands over the two scratch rows at anything, afterwards at the running sums the point before left;
    the run of the point's case leaves them at this point's running sums, the block of h in its window, and the two row
    outputs untouched (idle) except at the last point, where they receive the running sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  unfold hblk
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 5 t (idleAt0_5 t hc1) (noFlush0_5 t hc1),
      Dat.leavesExact_idle (dat0 V c) 6 t (idleAt0_6 t hc1) (noFlush0_6 t hc1)]
    rw [acc_first V c t h0]; dsimp only
    rw [PhiS_castSucc V c t, PhiS_zero V c _ _ h0, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) hc0 hc1 (iblk0 V c 0 t) (iblk0 V c 1 t) (iblk0 V c 2 t) (iblk0 V c 3 t) ((dat0 V c).before 5 t d5) ((dat0 V c).before 6 t d6) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hc0 : ¬cond0_0 (grid0.coords t) := fun h => h0 ((hcond0_0 t).mp h)
    by_cases h1 : t.val = 19
    · have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_5]
      rw [show (dat0 V c).leavesExact 6 t = owns (c : Thread nD τ) (ms0_6 t) fullShare ((dat0 V c).after 6 t) from by
        unfold Dat.leavesExact; rw [liveAt0_6 t hc1], after0_6]
      rw [acc_later V c t h0]; dsimp only
      rw [PhiS_castSucc V c t, PhiS_pos V c _ _ h0]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) hc0 hc1 (iblk0 V c 0 t) (iblk0 V c 1 t) (iblk0 V c 2 t) (iblk0 V c 3 t) (acc V c (t.val - 1) (Nat.lt_of_le_of_lt (Nat.sub_le _ _) t.isLt)).1 (acc V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond0_1 (grid0.coords t) := fun h => h1 ((hcond0_1 t).mp h)
      rw [Dat.leavesExact_idle (dat0 V c) 5 t (idleAt0_5 t hc1) (noFlush0_5 t hc1),
        Dat.leavesExact_idle (dat0 V c) 6 t (idleAt0_6 t hc1) (noFlush0_6 t hc1)]
      rw [acc_later V c t h0]; dsimp only
      rw [PhiS_castSucc V c t, PhiS_pos V c _ _ h0]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) hc0 hc1 (iblk0 V c 0 t) (iblk0 V c 1 t) (iblk0 V c 2 t) (iblk0 V c 3 t) ((dat0 V c).before 5 t d5) ((dat0 V c).before 6 t d6) (acc V c (t.val - 1) (Nat.lt_of_le_of_lt (Nat.sub_le _ _) t.isLt)).1 (acc V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation of the first region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest and the generator register back, the scratch rows' contents forgotten. -/
theorem hout0 (c : Dev nD) : (dat0 V c).Φ (Fin.last cfg0.N) ⊢ Pipeline.ΦA spec0 c := by
  have hN : (Fin.last cfg0.N).val ≠ 0 := by rw [Fin.val_last]; have : cfg0.N = 20 := N_0; omega
  rw [show (dat0 V c).Φ (Fin.last cfg0.N) = PhiS V c (Fin.last cfg0.N).val (Nat.le_of_lt_succ (Fin.last cfg0.N).isLt) from rfl,
    PhiS_pos V c _ _ hN, PhiA0_eq]
  iintro ⟨HS0, HS1, Hr, Hg⟩
  isplitr [Hg]
  · isplitl [HS0]; · iexists _; iexact HS0
    isplitl [HS1]; · iexists _; iexact HS1
    iexact Hr
  iexact Hg

end Cert.Kernel.Reg0

end
-- ==== Proof.KReg1.lean ====
/-
  The second kernel region: at each of the 20 grid points a block of 5000 rows of h is normalised with the
  mean and variance rows, scaled and shifted, clipped at zero, multiplied by W2, shifted by b2 and clipped
  again; the result block is written whole.  This module states what the region's windows hold at each point
  and that the kernel body, run on them, leaves the output window's buffer at that block.
-/
import proofs.«108197_j55783035240590_1_alg».proof.Proof.Gen.Kernel.Launch
import proofs.«108197_j55783035240590_1_alg».proof.Proof.Gen.Kernel.Skeleton
import proofs.«108197_j55783035240590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBig : Rect S5000x64 := Rect.unit (s := S5000x64) ![0, 0] S5000x64.size inb_S5000x64_S5000x64_0_0
abbrev rRow : Rect S1x64 := Rect.unit (s := S1x64) ![0, 0] S1x64.size inb_S1x64_S1x64_0_0
abbrev rMat : Rect S64x64 := Rect.unit (s := S64x64) ![0, 0] S64x64.size inb_S64x64_S64x64_0_0

/-- The output window's staging buffer after the body, from the seven input blocks (h, γ, β, mean, var, W2, b2 in
    window order): its one store, of the whole block. -/
def out1_7 (x0 : Vec F S5000x64 .f32) (x1 x2 x3 x4 : Vec F S1x64 .f32) (x5 : Vec F S64x64 .f32) (x6 : Vec F S1x64 .f32) : Vec F S5000x64 .f32 :=
  View.canon [⟨rBig, k1_pay1 (View.ld x0 rBig) (View.ld x4 rRow) (View.ld x3 rRow) (View.ld x1 rRow) (View.ld x2 rRow) (View.ld x5 rMat) (View.ld x6 rRow)⟩]

/-- The proof data of the second region on core `c`: the arrays as the region finds them; after the body at point `t`
    each input's buffer at its block and the output's at `out1_7` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

/-! ## What the body finds in each input window's buffer -/

/-- Input window 0's current staging buffer holds its block at every point, fetched there or not: an input
    window that is uncut and never idle, whose body leaves the block in place, keeps the block whose index has
    not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: an input
    window that is uncut and never idle, whose body leaves the block in place, keeps the block whose index has
    not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: an input
    window that is uncut and never idle, whose body leaves the block in place, keeps the block whose index has
    not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not: an input
    window that is uncut and never idle, whose body leaves the block in place, keeps the block whose index has
    not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, fetched there or not: an input
    window that is uncut and never idle, whose body leaves the block in place, keeps the block whose index has
    not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_4 (c : Dev nD) (t : Fin cfg1.N) (d) : (dat1 V c).before 4 t d = iblk1 V c 4 t :=
  before1_4_of V (dat1 V c) (A_eq1 V c 4) (after1_4 V c) t d

/-- Input window 5's current staging buffer holds its block at every point, fetched there or not: an input
    window that is uncut and never idle, whose body leaves the block in place, keeps the block whose index has
    not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_5 (c : Dev nD) (t : Fin cfg1.N) (d) : (dat1 V c).before 5 t d = iblk1 V c 5 t :=
  before1_5_of V (dat1 V c) (A_eq1 V c 5) (after1_5 V c) t d

/-- Input window 6's current staging buffer holds its block at every point, fetched there or not: an input
    window that is uncut and never idle, whose body leaves the block in place, keeps the block whose index has
    not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_6 (c : Dev nD) (t : Fin cfg1.N) (d) : (dat1 V c).before 6 t d = iblk1 V c 6 t :=
  before1_6_of V (dat1 V c) (A_eq1 V c 6) (after1_6 V c) t d

/-! ## The body's one store covers the output buffer -/

/-- The one store is of the whole block, so it covers the buffer. -/
theorem cover1_7 (p0 : Vec F S5000x64 .f32) (y : S5000x64.Idx) :
    ∃ pc ∈ ([⟨rBig, p0⟩] : List (View.Piece (Elt F) S5000x64 .f32)), y ∈ pc.1.set :=
  View.cover_of_tiled [⟨rBig, p0⟩] S5000x64.size (by rfl) y

/-! ## The body's triple -/

set_option maxHeartbeats 1000000 in
/-- The kernel body on whole staging memrefs, the inputs' at read contents `x0 … x6` and the output's at anything, runs
    to the continuation holding the inputs' as they were and the output's at `out1_7` of the inputs'. -/
theorem sound_kernel1 (c : Dev nD) (E : Set ℕ) (i : grid1.Coords)
    (arg0 : Memref sig .tc .vmem S5000x64 .f32) (harg0 : arg0.IsWhole)
    (arg1 : Memref sig .tc .vmem S1x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S1x64 .f32) (harg6 : arg6.IsWhole)
    (arg7 : Memref sig .tc .vmem S5000x64 .f32) (harg7 : arg7.IsWhole)
    (x0 : Vec F S5000x64 .f32) (x1 x2 x3 x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out1_7 x0 x1 x2 x3 x4 x5 x6)) -∗ K ⟨⟩))
      ⊢ wp frame (wpE (defs₀ (F := F)) Variants.none c none) E
          (cc1__stage2_kernel i arg0 harg0 arg1 harg1 arg2 harg2 arg3 harg3 arg4 harg4 arg5 harg5 arg6 harg6 arg7 harg7) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's tally pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the second region, at every point. -/
theorem body_obligation1 (c : Dev nD) : BodyObligation (dat1 (F := F) V c) (defs₀ (F := F)) Variants.none () Set.univ := fun t => by
  rw [bigSep_W1, bigSep_W1]
  exact sound_body1 V c t

end Cert.Kernel.Reg1

end
-- ==== Proof.KRun.lean ====
/-
  The whole kernel program as a run: host operations (the neighbour sums and four reshapes), the first kernel region,
  eight host operations (mean and variance from the two sums), the second kernel region.  This module names the
  contents of every unscoped buffer at each of the four boundaries — a fold from the launch memory, a region's
  arrays at what its write-backs leave — and proves that every weakly fair execution of @main terminates with
  every unscoped buffer at the last boundary's contents; the arguments among them are as launched.
-/
import proofs.«108197_j55783035240590_1_alg».proof.Proof.KReg0
import proofs.«108197_j55783035240590_1_alg».proof.Proof.KReg1
import proofs.«108197_j55783035240590_1_alg».proof.Proof.Gen.Kernel.Regions

set_option maxRecDepth 16384

noncomputable section

namespace Cert.Kernel.Run

open Cert.Kernel Cert.Kernel.Gen Cert.Kernel.Reg0 Cert.Kernel.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (r := main_arg2) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := (W4_arr m c 5).trans (((dat1 (V3 m) c).arrAt_in 5 rfl _).trans (A_eq1 (V3 m) c 5))
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine BIBase.Entails.trans (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [show (pdats m 1 c).Φ (Fin.last _) = Pipeline.ΦA spec1 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c)⟩) (run_all m ρ)

end Cert.Kernel.Run

end
-- ==== Proof.KIReg0.lean ====
/-
  The first kernel region: at each of the 20 grid points a block of 5000 rows of x + agg is multiplied by W1 and
  shifted by b1; the block of h is written whole, and two rows of scratch accumulate, over the points, the column
  sums of h and of h squared (reset at the first point, copied to the two row outputs at the last).  This module
  states what the region's windows and the two scratch rows hold at each point and that the kernel body, run on
  them, leaves exactly that.
-/
import proofs.«108197_j55783035240590_1_alg».proof.Proof.Gen.KernelIdeal.Launch
import proofs.«108197_j55783035240590_1_alg».proof.Proof.Gen.KernelIdeal.Skeleton
import proofs.«108197_j55783035240590_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of h the body stores at point `t`: the blocks of x and agg there against W1, plus b1. -/
def hblk (c : Dev nD) (t : Fin cfg0.N) : Vec F S5000x64 .f32 :=
  k0_pay3 (iblk0 V c 0 t) (iblk0 V c 1 t) (iblk0 V c 2 t) (iblk0 V c 3 t)

/-- The two scratch rows after the body at position `n`: the running column sums of h and of h squared — from the zero
    rows at the first point, from what the point before left afterwards. -/
def acc (c : Dev nD) : (n : ℕ) → n < cfg0.N → Vec F S1x64 .f32 × Vec F S1x64 .f32
  | 0, hn => (k0_pay4 (iblk0 V c 0 ⟨0, hn⟩) (iblk0 V c 1 ⟨0, hn⟩) (iblk0 V c 2 ⟨0, hn⟩) (iblk0 V c 3 ⟨0, hn⟩) (k0_pay1 (F := F)), k0_pay5 (iblk0 V c 0 ⟨0, hn⟩) (iblk0 V c 1 ⟨0, hn⟩) (iblk0 V c 2 ⟨0, hn⟩) (iblk0 V c 3 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (iblk0 V c 3 ⟨n + 1, hn⟩) (acc c n (Nat.lt_of_succ_lt hn)).1,
      k0_pay5 (iblk0 V c 0 ⟨n + 1, hn⟩) (iblk0 V c 1 ⟨n + 1, hn⟩) (iblk0 V c 2 ⟨n + 1, hn⟩) (iblk0 V c 3 ⟨n + 1, hn⟩) (acc c n (Nat.lt_of_succ_lt hn)).2)

abbrev scM0 : Memref sig .tc .vmem S1x64 .f32 := Memref.whole cc0_scratch0
abbrev scM1 : Memref sig .tc .vmem S1x64 .f32 := Memref.whole cc0_scratch1

/-- The core's scoped buffers that are neither a staging buffer of this region nor one of its two scratch rows (the
    second region's staging buffers), each whole at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region's invariant before position `n`: before the first point every scoped buffer no window stages at anything
    and the generator register at some state; afterwards the two scratch rows at the running sums the point before left. -/
def PhiS (c : Dev nD) : (n : ℕ) → n ≤ cfg0.N → sProp 𝕄
  | 0, _ => Pipeline.ΦA spec0 c
  | n + 1, hn => iprop(owns (c : Thread nD τ) scM0 fullShare (acc V c n hn).1 ∗ owns (c : Thread nD τ) scM1 fullShare (acc V c n hn).2
      ∗ restS (F := F) c ∗ (∃ r, prngReg c r))

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => hblk V c t
    | ⟨5, _⟩ => (acc V c t.val t.isLt).1
    | ⟨6, _⟩ => (acc V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = hblk V c t := by dsimp only [dat0]
theorem after0_5 (c : Dev nD) (t : Fin cfg0.N) : (dat0 V c).after 5 t = (acc V c t.val t.isLt).1 := by dsimp only [dat0]
theorem after0_6 (c : Dev nD) (t : Fin cfg0.N) : (dat0 V c).after 6 t = (acc V c t.val t.isLt).2 := by dsimp only [dat0]

/-! ## The two conditions of the body, in closed form over the grid -/

/-- The first conditional's test, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The second conditional's test. -/
abbrev cond0_1 (i : grid0.Coords) : Prop := k0_cond2 i = 1#1
/-- It holds at the last point only. -/
theorem hcond0_1 : ∀ t : Fin cfg0.N, cond0_1 (grid0.coords t) ↔ t.val = 19 :=
  (by decide +kernel : ∀ t : Fin grid0.N, cond0_1 (grid0.coords t) ↔ t.val = 19)

/-- The windows that are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the two row outputs are idle and not written back; at the last point they are live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The body on any whole memrefs, one run per control case -/

theorem hz : (![0, 0] : Fin 2 → Nat) = fun _ => 0 := funext fun a => by fin_cases a <;> rfl

/-- A store through the whole-shape rectangle, made last, leaves its payload, whatever the buffer held and whatever was stored before. -/
theorem read_store_whole {S : Shape} {e : EltTy} (v : View sig .tc .vmem S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

set_option maxHeartbeats 4000000 in
/-- The first point: both scratch rows are reset to the zero rows and then updated; the block of h is stored whole; the two
    row outputs are not touched. -/
theorem run_first (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x a : Vec F S5000x64 .f32) (w : Vec F S64x64 .f32) (b : Vec F S1x64 .f32) (x6 x7 : Vec F S1x64 .f32) (E : Set ℕ) (K : PUnit → sProp 𝕄) :
    iprop(owns (c : Thread nD τ) arg1 fullShare x ∗ owns (c : Thread nD τ) arg2 fullShare a ∗ owns (c : Thread nD τ) arg3 fullShare w ∗ owns (c : Thread nD τ) arg4 fullShare b
        ∗ (∃ d, owns (c : Thread nD τ) arg5 fullShare d) ∗ owns (c : Thread nD τ) arg6 fullShare x6 ∗ owns (c : Thread nD τ) arg7 fullShare x7
        ∗ (∃ s, owns (c : Thread nD τ) arg8 fullShare s) ∗ (∃ q, owns (c : Thread nD τ) arg9 fullShare q)
        ∗ (iprop(owns (c : Thread nD τ) arg1 fullShare x ∗ owns (c : Thread nD τ) arg2 fullShare a ∗ owns (c : Thread nD τ) arg3 fullShare w ∗ owns (c : Thread nD τ) arg4 fullShare b
            ∗ owns (c : Thread nD τ) arg5 fullShare (k0_pay3 x a w b) ∗ owns (c : Thread nD τ) arg6 fullShare x6 ∗ owns (c : Thread nD τ) arg7 fullShare x7
            ∗ owns (c : Thread nD τ) arg8 fullShare (k0_pay4 x a w b (k0_pay1 (F := F))) ∗ owns (c : Thread nD τ) arg9 fullShare (k0_pay5 x a w b (k0_pay2 (F := F)))) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9) K := by
  simp only [cc0__stage1_kernel_eq_skeleton]; unfold cc0__stage1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, ⟨%f7, %hf7, H7⟩, ⟨%s, %f8, %hf8, H8⟩, ⟨%q, %f9, %hf9, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8; obtain rfl := harg9.eq_unread hf9
  sl_exec (disch := first | exact hc0 | exact hc1)
  sl_unfold_words
  sl_step
  iapply Hk
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    refine (read_store_whole (S := S5000x64) _ _ hz _ _ _).trans ?_
    simp only [View.readAt_eq_ld, hf1, hf2, hf3, hf4, View.ld_unit_zero (S := S5000x64) hz, View.ld_unit_zero (S := S64x64) hz, View.ld_unit_zero (S := S1x64) hz]
  isplitl [H6]
  · iexists _; isplitr
    · ipureintro; exact hf6
    iexact H6
  isplitl [H7]
  · iexists _; isplitr
    · ipureintro; exact hf7
    iexact H7
  isplitl [H8]
  · iexists _; isplitr
    swap; · iexact H8
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, View.readCov_unit_zero (S := S1x64) _ hz]
  · iexists _; isplitr
    swap; · iexact H9
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, View.readCov_unit_zero (S := S1x64) _ hz]

set_option maxHeartbeats 4000000 in
/-- A middle point: the block of h is stored whole and each scratch row goes from what it held to its update; the two row
    outputs are not touched. -/
theorem run_mid (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x a : Vec F S5000x64 .f32) (w : Vec F S64x64 .f32) (b : Vec F S1x64 .f32) (x6 x7 s q : Vec F S1x64 .f32) (E : Set ℕ) (K : PUnit → sProp 𝕄) :
    iprop(owns (c : Thread nD τ) arg1 fullShare x ∗ owns (c : Thread nD τ) arg2 fullShare a ∗ owns (c : Thread nD τ) arg3 fullShare w ∗ owns (c : Thread nD τ) arg4 fullShare b
        ∗ (∃ d, owns (c : Thread nD τ) arg5 fullShare d) ∗ owns (c : Thread nD τ) arg6 fullShare x6 ∗ owns (c : Thread nD τ) arg7 fullShare x7
        ∗ owns (c : Thread nD τ) arg8 fullShare s ∗ owns (c : Thread nD τ) arg9 fullShare q
        ∗ (iprop(owns (c : Thread nD τ) arg1 fullShare x ∗ owns (c : Thread nD τ) arg2 fullShare a ∗ owns (c : Thread nD τ) arg3 fullShare w ∗ owns (c : Thread nD τ) arg4 fullShare b
            ∗ owns (c : Thread nD τ) arg5 fullShare (k0_pay3 x a w b) ∗ owns (c : Thread nD τ) arg6 fullShare x6 ∗ owns (c : Thread nD τ) arg7 fullShare x7
            ∗ owns (c : Thread nD τ) arg8 fullShare (k0_pay4 x a w b s) ∗ owns (c : Thread nD τ) arg9 fullShare (k0_pay5 x a w b q)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9) K := by
  simp only [cc0__stage1_kernel_eq_skeleton]; unfold cc0__stage1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8; obtain rfl := harg9.eq_unread hf9
  sl_exec (disch := first | exact hc0 | exact hc1)
  sl_step
  iapply Hk
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    refine (read_store_whole (S := S5000x64) _ _ hz _ _ _).trans ?_
    simp only [View.readAt_eq_ld, hf1, hf2, hf3, hf4, View.ld_unit_zero (S := S5000x64) hz, View.ld_unit_zero (S := S64x64) hz, View.ld_unit_zero (S := S1x64) hz]
  isplitl [H6]
  · iexists _; isplitr
    · ipureintro; exact hf6
    iexact H6
  isplitl [H7]
  · iexists _; isplitr
    · ipureintro; exact hf7
    iexact H7
  isplitl [H8]
  · iexists _; isplitr
    swap; · iexact H8
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, hf8]
  · iexists _; isplitr
    swap; · iexact H9
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, hf9]

set_option maxHeartbeats 4000000 in
/-- The last point: as a middle point, and then each scratch row, as just updated, is copied over its row output. -/
theorem run_last (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x a : Vec F S5000x64 .f32) (w : Vec F S64x64 .f32) (b : Vec F S1x64 .f32) (s q : Vec F S1x64 .f32) (E : Set ℕ) (K : PUnit → sProp 𝕄) :
    iprop(owns (c : Thread nD τ) arg1 fullShare x ∗ owns (c : Thread nD τ) arg2 fullShare a ∗ owns (c : Thread nD τ) arg3 fullShare w ∗ owns (c : Thread nD τ) arg4 fullShare b
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x ∗ owns (c : Thread nD τ) arg2 fullShare a ∗ owns (c : Thread nD τ) arg3 fullShare w ∗ owns (c : Thread nD τ) arg4 fullShare b
            ∗ owns (c : Thread nD τ) arg5 fullShare (k0_pay3 x a w b) ∗ owns (c : Thread nD τ) arg6 fullShare (k0_pay4 x a w b s) ∗ owns (c : Thread nD τ) arg7 fullShare (k0_pay5 x a w b q)
            ∗ owns (c : Thread nD τ) arg8 fullShare (k0_pay4 x a w b s) ∗ owns (c : Thread nD τ) arg9 fullShare (k0_pay5 x a w b q)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9) K := by
  simp only [cc0__stage1_kernel_eq_skeleton]; unfold cc0__stage1_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, %hf5, H5⟩, ⟨%x6, %f6, %hf6, H6⟩, ⟨%x7, %f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8; obtain rfl := harg9.eq_unread hf9
  sl_exec (disch := first | exact hc0 | exact hc1)
  sl_unfold_words
  sl_step
  iapply Hk
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    refine (read_store_whole (S := S5000x64) _ _ hz _ _ _).trans ?_
    simp only [View.readAt_eq_ld, hf1, hf2, hf3, hf4, View.ld_unit_zero (S := S5000x64) hz, View.ld_unit_zero (S := S64x64) hz, View.ld_unit_zero (S := S1x64) hz]
  isplitl [H6]
  · iexists _; isplitr
    swap; · iexact H6
    ipureintro
    refine (read_store_whole (S := S1x64) _ _ hz _ _ _).trans ?_
    refine (View.readCov_unit_zero (S := S1x64) _ hz _ _).trans ?_
    simp only [View.readAt_eq_ld, hf1, hf2, hf3, hf4, View.ld_unit_zero (S := S5000x64) hz, View.ld_unit_zero (S := S64x64) hz, View.ld_unit_zero (S := S1x64) hz, hf8]
  isplitl [H7]
  · iexists _; isplitr
    swap; · iexact H7
    ipureintro
    refine (read_store_whole (S := S1x64) _ _ hz _ _ _).trans ?_
    refine (View.readCov_unit_zero (S := S1x64) _ hz _ _).trans ?_
    simp only [View.readAt_eq_ld, hf1, hf2, hf3, hf4, View.ld_unit_zero (S := S5000x64) hz, View.ld_unit_zero (S := S64x64) hz, View.ld_unit_zero (S := S1x64) hz, hf9]
  isplitl [H8]
  · iexists _; isplitr
    swap; · iexact H8
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, hf8]
  · iexists _; isplitr
    swap; · iexact H9
    ipureintro
    refine (read_store_whole (S := S1x64) _ _ hz _ _ _).trans ?_
    simp only [View.readAt_eq_ld, hf1, hf2, hf3, hf4, View.ld_unit_zero (S := S5000x64) hz, View.ld_unit_zero (S := S64x64) hz, View.ld_unit_zero (S := S1x64) hz, hf9]

/-! ## The running sums, point by point -/

/-- At the first point the running sums start from the zero rows. -/
theorem acc_first (c : Dev nD) (t : Fin cfg0.N) (h0 : t.val = 0) :
    acc V c t.val t.isLt = (k0_pay4 (iblk0 V c 0 t) (iblk0 V c 1 t) (iblk0 V c 2 t) (iblk0 V c 3 t) (k0_pay1 (F := F)), k0_pay5 (iblk0 V c 0 t) (iblk0 V c 1 t) (iblk0 V c 2 t) (iblk0 V c 3 t) (k0_pay2 (F := F))) := by
  obtain ⟨n, hn⟩ := t
  cases n with
  | zero => rfl
  | succ n => exact absurd h0 (Nat.succ_ne_zero n)

/-- At a later point they continue from what the point before left. -/
theorem acc_later (c : Dev nD) (t : Fin cfg0.N) (h0 : t.val ≠ 0) :
    acc V c t.val t.isLt = (k0_pay4 (iblk0 V c 0 t) (iblk0 V c 1 t) (iblk0 V c 2 t) (iblk0 V c 3 t) (acc V c (t.val - 1) (Nat.lt_of_le_of_lt (Nat.sub_le _ _) t.isLt)).1, k0_pay5 (iblk0 V c 0 t) (iblk0 V c 1 t) (iblk0 V c 2 t) (iblk0 V c 3 t) (acc V c (t.val - 1) (Nat.lt_of_le_of_lt (Nat.sub_le _ _) t.isLt)).2) := by
  obtain ⟨n, hn⟩ := t
  cases n with
  | zero => exact absurd rfl h0
  | succ n => rfl

/-! ## The invariant, position by position -/

theorem PhiS_zero (c : Dev nD) (n : ℕ) (h : n ≤ cfg0.N) (hz : n = 0) : PhiS V c n h = Pipeline.ΦA spec0 c := by
  subst hz; rfl

/-- After point `n`: the two scratch rows at that point's running sums. -/
theorem PhiS_succ (c : Dev nD) (n : ℕ) (hn : n < cfg0.N) :
    PhiS V c (n + 1) hn = iprop(owns (c : Thread nD τ) scM0 fullShare (acc V c n hn).1 ∗ owns (c : Thread nD τ) scM1 fullShare (acc V c n hn).2
      ∗ restS (F := F) c ∗ (∃ r, prngReg c r)) := rfl

/-- Before a point that is not the first: the two scratch rows at what the point before left. -/
theorem PhiS_pos (c : Dev nD) (n : ℕ) (h : n ≤ cfg0.N) (hz : n ≠ 0) :
    PhiS V c n h = iprop(owns (c : Thread nD τ) scM0 fullShare (acc V c (n - 1) (by omega)).1 ∗ owns (c : Thread nD τ) scM1 fullShare (acc V c (n - 1) (by omega)).2
      ∗ restS (F := F) c ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- What the launch hands the region, with the two scratch rows as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ restS (F := F) c) ∗ (∃ r, prngReg c r)) := by
  unfold Pipeline.ΦA restS; rw [scopedRest0_eq]; simp only [scM0, scM1, owns_whole]; try rfl

/-! ## What the body finds in the input windows -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body obligation, at a generic point -/

/-- Each window's current staging memref at point `t`, at its literal shape, and its wholeness. -/
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The input windows hold their blocks; the point is the first, a middle one or the last. At the
    first the invariant hands over the two scratch rows at anything, afterwards at the running sums the point before left;
    the run of the point's case leaves them at this point's running sums, the block of h in its window, and the two row
    outputs untouched (idle) except at the last point, where they receive the running sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  unfold hblk
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 5 t (idleAt0_5 t hc1) (noFlush0_5 t hc1),
      Dat.leavesExact_idle (dat0 V c) 6 t (idleAt0_6 t hc1) (noFlush0_6 t hc1)]
    rw [acc_first V c t h0]; dsimp only
    rw [PhiS_castSucc V c t, PhiS_zero V c _ _ h0, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) hc0 hc1 (iblk0 V c 0 t) (iblk0 V c 1 t) (iblk0 V c 2 t) (iblk0 V c 3 t) ((dat0 V c).before 5 t d5) ((dat0 V c).before 6 t d6) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hc0 : ¬cond0_0 (grid0.coords t) := fun h => h0 ((hcond0_0 t).mp h)
    by_cases h1 : t.val = 19
    · have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_5]
      rw [show (dat0 V c).leavesExact 6 t = owns (c : Thread nD τ) (ms0_6 t) fullShare ((dat0 V c).after 6 t) from by
        unfold Dat.leavesExact; rw [liveAt0_6 t hc1], after0_6]
      rw [acc_later V c t h0]; dsimp only
      rw [PhiS_castSucc V c t, PhiS_pos V c _ _ h0]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) hc0 hc1 (iblk0 V c 0 t) (iblk0 V c 1 t) (iblk0 V c 2 t) (iblk0 V c 3 t) (acc V c (t.val - 1) (Nat.lt_of_le_of_lt (Nat.sub_le _ _) t.isLt)).1 (acc V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond0_1 (grid0.coords t) := fun h => h1 ((hcond0_1 t).mp h)
      rw [Dat.leavesExact_idle (dat0 V c) 5 t (idleAt0_5 t hc1) (noFlush0_5 t hc1),
        Dat.leavesExact_idle (dat0 V c) 6 t (idleAt0_6 t hc1) (noFlush0_6 t hc1)]
      rw [acc_later V c t h0]; dsimp only
      rw [PhiS_castSucc V c t, PhiS_pos V c _ _ h0]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _) hc0 hc1 (iblk0 V c 0 t) (iblk0 V c 1 t) (iblk0 V c 2 t) (iblk0 V c 3 t) ((dat0 V c).before 5 t d5) ((dat0 V c).before 6 t d6) (acc V c (t.val - 1) (Nat.lt_of_le_of_lt (Nat.sub_le _ _) t.isLt)).1 (acc V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation of the first region, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest and the generator register back, the scratch rows' contents forgotten. -/
theorem hout0 (c : Dev nD) : (dat0 V c).Φ (Fin.last cfg0.N) ⊢ Pipeline.ΦA spec0 c := by
  have hN : (Fin.last cfg0.N).val ≠ 0 := by rw [Fin.val_last]; have : cfg0.N = 20 := N_0; omega
  rw [show (dat0 V c).Φ (Fin.last cfg0.N) = PhiS V c (Fin.last cfg0.N).val (Nat.le_of_lt_succ (Fin.last cfg0.N).isLt) from rfl,
    PhiS_pos V c _ _ hN, PhiA0_eq]
  iintro ⟨HS0, HS1, Hr, Hg⟩
  isplitr [Hg]
  · isplitl [HS0]; · iexists _; iexact HS0
    isplitl [HS1]; · iexists _; iexact HS1
    iexact Hr
  iexact Hg

end Cert.KernelIdeal.Reg0

end
-- ==== Proof.KIReg1.lean ====
/-
  The second kernel region: at each of the 20 grid points a block of 5000 rows of h is normalised with the
  mean and variance rows, scaled and shifted, clipped at zero, multiplied by W2, shifted by b2 and clipped
  again; the result block is written whole.  This module states what the region's windows hold at each point
  and that the kernel body, run on them, leaves the output window's buffer at that block.
-/
import proofs.«108197_j55783035240590_1_alg».proof.Proof.Gen.KernelIdeal.Launch
import proofs.«108197_j55783035240590_1_alg».proof.Proof.Gen.KernelIdeal.Skeleton
import proofs.«108197_j55783035240590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBig : Rect S5000x64 := Rect.unit (s := S5000x64) ![0, 0] S5000x64.size inb_S5000x64_S5000x64_0_0
abbrev rRow : Rect S1x64 := Rect.unit (s := S1x64) ![0, 0] S1x64.size inb_S1x64_S1x64_0_0
abbrev rMat : Rect S64x64 := Rect.unit (s := S64x64) ![0, 0] S64x64.size inb_S64x64_S64x64_0_0

/-- The output window's staging buffer after the body, from the seven input blocks (h, γ, β, mean, var, W2, b2 in
    window order): its one store, of the whole block. -/
def out1_7 (x0 : Vec F S5000x64 .f32) (x1 x2 x3 x4 : Vec F S1x64 .f32) (x5 : Vec F S64x64 .f32) (x6 : Vec F S1x64 .f32) : Vec F S5000x64 .f32 :=
  View.canon [⟨rBig, k1_pay1 (View.ld x0 rBig) (View.ld x4 rRow) (View.ld x3 rRow) (View.ld x1 rRow) (View.ld x2 rRow) (View.ld x5 rMat) (View.ld x6 rRow)⟩]

/-- The proof data of the second region on core `c`: the arrays as the region finds them; after the body at point `t`
    each input's buffer at its block and the output's at `out1_7` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

/-! ## What the body finds in each input window's buffer -/

/-- Input window 0's current staging buffer holds its block at every point, fetched there or not: an input
    window that is uncut and never idle, whose body leaves the block in place, keeps the block whose index has
    not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: an input
    window that is uncut and never idle, whose body leaves the block in place, keeps the block whose index has
    not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: an input
    window that is uncut and never idle, whose body leaves the block in place, keeps the block whose index has
    not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not: an input
    window that is uncut and never idle, whose body leaves the block in place, keeps the block whose index has
    not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, fetched there or not: an input
    window that is uncut and never idle, whose body leaves the block in place, keeps the block whose index has
    not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_4 (c : Dev nD) (t : Fin cfg1.N) (d) : (dat1 V c).before 4 t d = iblk1 V c 4 t :=
  before1_4_of V (dat1 V c) (A_eq1 V c 4) (after1_4 V c) t d

/-- Input window 5's current staging buffer holds its block at every point, fetched there or not: an input
    window that is uncut and never idle, whose body leaves the block in place, keeps the block whose index has
    not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_5 (c : Dev nD) (t : Fin cfg1.N) (d) : (dat1 V c).before 5 t d = iblk1 V c 5 t :=
  before1_5_of V (dat1 V c) (A_eq1 V c 5) (after1_5 V c) t d

/-- Input window 6's current staging buffer holds its block at every point, fetched there or not: an input
    window that is uncut and never idle, whose body leaves the block in place, keeps the block whose index has
    not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_6 (c : Dev nD) (t : Fin cfg1.N) (d) : (dat1 V c).before 6 t d = iblk1 V c 6 t :=
  before1_6_of V (dat1 V c) (A_eq1 V c 6) (after1_6 V c) t d

/-! ## The body's one store covers the output buffer -/

/-- The one store is of the whole block, so it covers the buffer. -/
theorem cover1_7 (p0 : Vec F S5000x64 .f32) (y : S5000x64.Idx) :
    ∃ pc ∈ ([⟨rBig, p0⟩] : List (View.Piece (Elt F) S5000x64 .f32)), y ∈ pc.1.set :=
  View.cover_of_tiled [⟨rBig, p0⟩] S5000x64.size (by rfl) y

/-! ## The body's triple -/

set_option maxHeartbeats 1000000 in
/-- The kernel body on whole staging memrefs, the inputs' at read contents `x0 … x6` and the output's at anything, runs
    to the continuation holding the inputs' as they were and the output's at `out1_7` of the inputs'. -/
theorem sound_kernel1 (c : Dev nD) (E : Set ℕ) (i : grid1.Coords)
    (arg0 : Memref sig .tc .vmem S5000x64 .f32) (harg0 : arg0.IsWhole)
    (arg1 : Memref sig .tc .vmem S1x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S1x64 .f32) (harg6 : arg6.IsWhole)
    (arg7 : Memref sig .tc .vmem S5000x64 .f32) (harg7 : arg7.IsWhole)
    (x0 : Vec F S5000x64 .f32) (x1 x2 x3 x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out1_7 x0 x1 x2 x3 x4 x5 x6)) -∗ K ⟨⟩))
      ⊢ wp frame (wpE (defs₀ (F := F)) Variants.none c none) E
          (cc1__stage2_kernel i arg0 harg0 arg1 harg1 arg2 harg2 arg3 harg3 arg4 harg4 arg5 harg5 arg6 harg6 arg7 harg7) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's tally pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the second region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg1

end
-- ==== Proof.KIRun.lean ====
/-
  The whole kernel program as a run: host operations (the neighbour sums and four reshapes), the first kernel region,
  eight host operations (mean and variance from the two sums), the second kernel region.  This module names the
  contents of every unscoped buffer at each of the four boundaries — a fold from the launch memory, a region's
  arrays at what its write-backs leave — and proves that every weakly fair execution of @main terminates with
  every unscoped buffer at the last boundary's contents; the arguments among them are as launched.
-/
import proofs.«108197_j55783035240590_1_alg».proof.Proof.KIReg0
import proofs.«108197_j55783035240590_1_alg».proof.Proof.KIReg1
import proofs.«108197_j55783035240590_1_alg».proof.Proof.Gen.KernelIdeal.Regions

set_option maxRecDepth 16384

noncomputable section

namespace Cert.KernelIdeal.Run

open Cert.KernelIdeal Cert.KernelIdeal.Gen Cert.KernelIdeal.Reg0 Cert.KernelIdeal.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (r := main_arg2) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := (W4_arr m c 5).trans (((dat1 (V3 m) c).arrAt_in 5 rfl _).trans (A_eq1 (V3 m) c 5))
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine BIBase.Entails.trans (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [show (pdats m 1 c).Φ (Fin.last _) = Pipeline.ΦA spec1 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c)⟩) (run_all m ρ)

end Cert.KernelIdeal.Run

end
-- ==== Proof.LibStage.lean ====
/-
  Stage equations of a straight line of host operations in single-assignment form.

  A line of operations is STAGED along a ranking `rk` of the device's buffers when its k-th operation writes
  only buffers of rank `lo + k`, touches besides them only buffers of smaller rank, and computes what it writes
  from the buffers it does not write. Then no operation overwrites a buffer an earlier one wrote or read, so in
  the contents `after ops V` the line ends at, EVERY operation's equation holds at once:
  `after ops V b = op.result (after ops V) b` for each written `b` (`Staged.after_eq`), and a buffer ranked
  below the first stage keeps what it held (`Staged.after_of_lt`). The builders of Lib/StableHlo.lean are
  stages as soon as their operands rank below their result (`unary_stageAt` …); with the builder's
  `‹kind›_result` the equation reads `after ops V y = f (after ops V x)`.
-/
import Idealize.ShloMosaic.Lib.StableHlo.Run

namespace Idealize.ShloMosaic.StableHlo

variable {τ : Topo} {sig : RefSig} {Val : EltTy → Type}

/-- `op` is a stage at rank `lo`: every buffer it writes has rank `lo`, every buffer it touches without writing
    has a smaller rank, and what it writes is decided by the contents of the buffers it does not write. -/
structure StageAt (rk : DevRef τ sig → ℕ) (lo : ℕ) (op : HloOp τ sig Val) : Prop where
  reads_lt : ∀ b ∈ op.bufs, b ∉ op.writes → rk b < lo
  writes_eq : ∀ b ∈ op.writes, rk b = lo
  indep : ∀ F G : Valuation τ sig Val, (∀ b ∈ op.bufs, b ∉ op.writes → F b = G b) →
    ∀ b ∈ op.writes, op.result F b = op.result G b

/-- A line of operations staged from rank `lo` up to `hi`: the first a stage at `lo`, the next at `lo + 1`, …,
    and `hi` the rank after the last. -/
def Staged (rk : DevRef τ sig → ℕ) : ℕ → List (HloOp τ sig Val) → ℕ → Prop
  | lo, [], hi => lo = hi
  | lo, op :: post, hi => StageAt rk lo op ∧ Staged rk (lo + 1) post hi

namespace Staged

variable {rk : DevRef τ sig → ℕ}

theorem nil (lo : ℕ) : Staged rk lo ([] : List (HloOp τ sig Val)) lo := rfl

theorem cons {lo hi : ℕ} {op : HloOp τ sig Val} {post : List (HloOp τ sig Val)} (h : StageAt rk lo op)
    (hp : Staged rk (lo + 1) post hi) : Staged rk lo (op :: post) hi := ⟨h, hp⟩

/-- Two staged lines, the second from where the first ends, are one staged line. -/
theorem append {l₁ l₂ : List (HloOp τ sig Val)} {hi : ℕ} :
    ∀ {lo mid : ℕ}, Staged rk lo l₁ mid → Staged rk mid l₂ hi → Staged rk lo (l₁ ++ l₂) hi := by
  induction l₁ with
  | nil => intro lo mid h₁ h₂; cases (show lo = mid from h₁); exact h₂
  | cons op l ih => intro lo mid h₁ h₂; exact ⟨h₁.1, ih h₁.2 h₂⟩

/-- Every buffer a staged line writes has rank at least the line's first. -/
theorem le_rk_of_mem {l : List (HloOp τ sig Val)} {hi : ℕ} :
    ∀ {lo : ℕ}, Staged rk lo l hi → ∀ op ∈ l, ∀ b ∈ op.writes, lo ≤ rk b := by
  induction l with
  | nil => intro lo _ op hop; exact absurd hop List.not_mem_nil
  | cons o post ih =>
    intro lo h op hop b hb
    rcases List.mem_cons.mp hop with e | hop
    · exact Nat.le_of_eq ((e ▸ h.1).writes_eq b hb).symm
    · exact Nat.le_of_succ_le (ih h.2 op hop b hb)

/-- A buffer ranked below a staged line's first stage keeps its contents. -/
theorem after_of_lt {l : List (HloOp τ sig Val)} {lo hi : ℕ} (h : Staged rk lo l hi) (V : Valuation τ sig Val)
    {b : DevRef τ sig} (hb : rk b < lo) : after l V b = V b :=
  after_of_forall_not_mem l V fun op hop hw => absurd (h.le_rk_of_mem op hop b hw) (Nat.not_le.mpr hb)

/-- In the contents a staged line ends at, every operation's written buffers hold the operation's value AT THOSE
    CONTENTS: nothing after it rewrites what it wrote or what it read. -/
theorem after_eq {l : List (HloOp τ sig Val)} {hi : ℕ} :
    ∀ {lo : ℕ}, Staged rk lo l hi → ∀ (V : Valuation τ sig Val) (op : HloOp τ sig Val), op ∈ l →
      ∀ b ∈ op.writes, after l V b = op.result (after l V) b := by
  induction l with
  | nil => intro lo _ V op hop; exact absurd hop List.not_mem_nil
  | cons o post ih =>
    intro lo h V op hop b hb
    rw [after_cons]
    rcases List.mem_cons.mp hop with e | hop
    · subst e
      have ho := h.1
      have hpost := h.2
      have hlt : rk b < lo + 1 := Nat.lt_succ_of_le (Nat.le_of_eq (ho.writes_eq b hb))
      rw [hpost.after_of_lt _ hlt]
      refine ho.indep _ _ (fun c hc hcw => ?_) b hb
      rw [hpost.after_of_lt _ (Nat.lt_succ_of_lt (ho.reads_lt c hc hcw)), HloOp.result_of_not_mem _ V hcw]
    · exact ih h.2 _ op hop b hb

end Staged

/-! ## The builders as stages -/

section Builders

variable {rk : DevRef τ sig → ℕ} {lo : ℕ}

private theorem not_mem_single {x y : Ref sig .tc} (h1 : rk (Proc.devRef (τ := τ) .tc x) < lo)
    (h2 : rk (Proc.devRef (τ := τ) .tc y) = lo) :
    (Proc.devRef (τ := τ) .tc x) ∉ ({Proc.devRef (τ := τ) .tc y} : Finset (DevRef τ sig)) := fun hm => by
  rw [Finset.mem_singleton.mp hm, h2] at h1; exact Nat.lt_irrefl _ h1

theorem nullary_stageAt (y : Ref sig .tc) (v : y.ty.Contents Val) (hy)
    (h : rk (Proc.devRef (τ := τ) .tc y) = lo) : StageAt rk lo (nullary (τ := τ) y v hy) where
  reads_lt b hb hw := absurd hb hw
  writes_eq b hb := by obtain rfl := Finset.mem_singleton.mp hb; exact h
  indep F G _ b hb := by
    obtain rfl := Finset.mem_singleton.mp hb
    exact (nullary_result y v hy F).trans (nullary_result y v hy G).symm

theorem unary_stageAt (x y : Ref sig .tc) (f : x.ty.Contents Val → y.ty.Contents Val) (hx hy)
    (h1 : rk (Proc.devRef (τ := τ) .tc x) < lo) (h2 : rk (Proc.devRef (τ := τ) .tc y) = lo) :
    StageAt rk lo (unary (τ := τ) x y f hx hy) where
  reads_lt b hb hw := by
    rcases Finset.mem_insert.mp hb with rfl | hb
    · exact h1
    · exact absurd hb hw
  writes_eq b hb := by obtain rfl := Finset.mem_singleton.mp hb; exact h2
  indep F G h b hb := by
    obtain rfl := Finset.mem_singleton.mp hb
    rw [unary_result, unary_result, h _ (Finset.mem_insert_self _ _) (not_mem_single h1 h2)]

theorem reshape_stageAt (x y : Ref sig .tc) (he hn hx hy)
    (h1 : rk (Proc.devRef (τ := τ) .tc x) < lo) (h2 : rk (Proc.devRef (τ := τ) .tc y) = lo) :
    StageAt rk lo (reshape (τ := τ) (Val := Val) x y he hn hx hy) where
  reads_lt b hb hw := by
    rcases Finset.mem_insert.mp hb with rfl | hb
    · exact h1
    · exact absurd hb hw
  writes_eq b hb := by obtain rfl := Finset.mem_singleton.mp hb; exact h2
  indep F G h b hb := by
    obtain rfl := Finset.mem_singleton.mp hb
    rw [reshape_result, reshape_result, h _ (Finset.mem_insert_self _ _) (not_mem_single h1 h2)]

theorem binary_stageAt (a b y : Ref sig .tc) (f : a.ty.Contents Val → b.ty.Contents Val → y.ty.Contents Val) (ha hb hy)
    (h1 : rk (Proc.devRef (τ := τ) .tc a) < lo) (h2 : rk (Proc.devRef (τ := τ) .tc b) < lo)
    (h3 : rk (Proc.devRef (τ := τ) .tc y) = lo) : StageAt rk lo (binary (τ := τ) a b y f ha hb hy) where
  reads_lt c hc hw := by
    rcases Finset.mem_insert.mp hc with rfl | hc
    · exact h1
    rcases Finset.mem_insert.mp hc with rfl | hc
    · exact h2
    · exact absurd hc hw
  writes_eq c hc := by obtain rfl := Finset.mem_singleton.mp hc; exact h3
  indep F G h c hc := by
    obtain rfl := Finset.mem_singleton.mp hc
    have ea := h _ (Finset.mem_insert_self _ _) (not_mem_single h1 h3)
    have eb := h _ (Finset.mem_insert_of_mem (Finset.mem_insert_self _ _)) (not_mem_single h2 h3)
    exact (binary_result a b y f ha hb hy F).trans
      ((congrArg₂ f ea eb).trans (binary_result a b y f ha hb hy G).symm)

theorem ternary_stageAt (c a b y : Ref sig .tc)
    (f : c.ty.Contents Val → a.ty.Contents Val → b.ty.Contents Val → y.ty.Contents Val) (hc ha hb hy)
    (h0 : rk (Proc.devRef (τ := τ) .tc c) < lo) (h1 : rk (Proc.devRef (τ := τ) .tc a) < lo)
    (h2 : rk (Proc.devRef (τ := τ) .tc b) < lo) (h3 : rk (Proc.devRef (τ := τ) .tc y) = lo) :
    StageAt rk lo (ternary (τ := τ) c a b y f hc ha hb hy) where
  reads_lt d hd hw := by
    rcases Finset.mem_insert.mp hd with rfl | hd
    · exact h0
    rcases Finset.mem_insert.mp hd with rfl | hd
    · exact h1
    rcases Finset.mem_insert.mp hd with rfl | hd
    · exact h2
    · exact absurd hd hw
  writes_eq d hd := by obtain rfl := Finset.mem_singleton.mp hd; exact h3
  indep F G h d hd := by
    obtain rfl := Finset.mem_singleton.mp hd
    have ec := h _ (Finset.mem_insert_self _ _) (not_mem_single h0 h3)
    have ea := h _ (Finset.mem_insert_of_mem (Finset.mem_insert_self _ _)) (not_mem_single h1 h3)
    have eb := h _ (Finset.mem_insert_of_mem (Finset.mem_insert_of_mem (Finset.mem_insert_self _ _))) (not_mem_single h2 h3)
    refine (ternary_result c a b y f hc ha hb hy F).trans (Eq.trans ?_ (ternary_result c a b y f hc ha hb hy G).symm)
    rw [ec, ea, eb]

end Builders

end Idealize.ShloMosaic.StableHlo
-- ==== Proof.RefRun.lean ====
/-
  The run of the reference program: @main as one line of host operations, the three outlined functions it calls
  written out at their call sites over the calls' buffer records (the variance with its inner select, and the two
  rectifiers), and the contents every weakly fair execution ends with: each buffer at the fold of the operations
  over the launch contents, the eight arguments unchanged. The line is in single-assignment order (the k-th
  operation writes the buffer of index 8 + k and reads only buffers of smaller index), so in the final contents
  every operation's equation holds at once; they are stated one per buffer below.
-/
import proofs.«108197_j55783035240590_1_alg».proof.ReferenceIdeal
import proofs.«108197_j55783035240590_1_alg».proof.Proof.Gen.ReferenceIdeal
import proofs.«108197_j55783035240590_1_alg».proof.Proof.LibStage
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The first stretch of @main: the two index rows cut from the edge table, the wrap of negative source rows, the
    gather of the source rows, the scatter-add of them at the target rows, the sum with the input, the first product
    with its bias, and the column means (28 operations). -/
abbrev opsA : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_c (constantI S_ 32 0#32),
    unary main_c main_v4 (broadcastInDim S1200000 ![] bcast_S_S1200000 : (⟨S_, .i32⟩ : BufTy).Contents (Elt F) → (⟨S1200000, .i32⟩ : BufTy).Contents (Elt F)),
    binary main_v1 main_v4 main_v5 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v6 (broadcastInDim S1200000 ![] bcast_S_S1200000 : (⟨S_, .i32⟩ : BufTy).Contents (Elt F) → (⟨S1200000, .i32⟩ : BufTy).Contents (Elt F)),
    binary main_v1 main_v6 main_v7 (addi : (⟨S1200000, .i32⟩ : BufTy).Contents (Elt F) → (⟨S1200000, .i32⟩ : BufTy).Contents (Elt F) → (⟨S1200000, .i32⟩ : BufTy).Contents (Elt F)),
    ternary main_v5 main_v7 main_v1 main_v8 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v8 main_v9 (broadcastInDim S1200000x1 ![0] bcast_S1200000_S1200000x1_0 : (⟨S1200000, .i32⟩ : BufTy).Contents (Elt F) → (⟨S1200000x1, .i32⟩ : BufTy).Contents (Elt F)),
    binary main_arg0 main_v9 main_v10 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1200000x1 ![0] bcast_S1200000_S1200000x1_0 : (⟨S1200000, .i32⟩ : BufTy).Contents (Elt F) → (⟨S1200000x1, .i32⟩ : BufTy).Contents (Elt F)),
    ternary main_v11 main_v12 main_v10 main_v13 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v18 main_cst_1 main_v19 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)),
    nullary main_c_3 (constantI S_ 32 0#32) ]

/-- The variance function at its call, over the record of that call (19 operations), then the select it calls in
    turn, over that inner call's record (3): the column sums and their mean, the centred squares, the degrees of
    freedom as a float, the quotient, and the choice between the quotient and the not-a-number constant by the
    sign of the degrees of freedom. -/
abbrev opsB : List (HloOp τ sig (Elt F)) :=
  [ TRef.nullary main_call0.cst (constant S_ .f32 0x00000000#32),
    TRef.binary (.of main_v18 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v18 : TRef sig ⟨S100000x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

/-- The rest of @main: the normalisation by the column means and the reciprocal root of the variance plus the small
    constant, the scale and the shift, the first rectifier (its three operations over its call's record), the second
    product with its bias, and the second rectifier (26 operations). -/
abbrev opsC : List (HloOp τ sig (Elt F)) :=
  [ unary main_v21 main_v23 (broadcastInDim S1x64 ![1] bcast_S64_S1x64_1 : (⟨S64, .f32⟩ : BufTy).Contents (Elt F) → (⟨S1x64, .f32⟩ : BufTy).Contents (Elt F)),
    unary main_v23 main_v24 (broadcastInDim S100000x64 ![0, 1] bcast_S1x64_S100000x64_0_1 : (⟨S1x64, .f32⟩ : BufTy).Contents (Elt F) → (⟨S100000x64, .f32⟩ : BufTy).Contents (Elt F)),
    binary main_v18 main_v24 main_v25 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v26 (broadcastInDim S64 ![] bcast_S_S64 : (⟨S_, .f32⟩ : BufTy).Contents (Elt F) → (⟨S64, .f32⟩ : BufTy).Contents (Elt F)),
    binary main_v22 main_v26 main_v27 (addf : (⟨S64, .f32⟩ : BufTy).Contents (Elt F) → (⟨S64, .f32⟩ : BufTy).Contents (Elt F) → (⟨S64, .f32⟩ : BufTy).Contents (Elt F)),
    unary main_v27 main_v28 (Host.rsqrt : (⟨S64, .f32⟩ : BufTy).Contents (Elt F) → (⟨S64, .f32⟩ : BufTy).Contents (Elt F)),
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S100000x64 ![0, 1] bcast_S1x64_S100000x64_0_1 : (⟨S1x64, .f32⟩ : BufTy).Contents (Elt F) → (⟨S100000x64, .f32⟩ : BufTy).Contents (Elt F)),
    binary main_v25 main_v30 main_v31 (mulf : (⟨S100000x64, .f32⟩ : BufTy).Contents (Elt F) → (⟨S100000x64, .f32⟩ : BufTy).Contents (Elt F) → (⟨S100000x64, .f32⟩ : BufTy).Contents (Elt F)),
    unary main_arg4 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (mulf : (⟨S100000x64, .f32⟩ : BufTy).Contents (Elt F) → (⟨S100000x64, .f32⟩ : BufTy).Contents (Elt F) → (⟨S100000x64, .f32⟩ : BufTy).Contents (Elt F)),
    unary main_arg5 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v34 main_v36 main_v37 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v37 : TRef sig ⟨S100000x64, .f32⟩) main_call1.v0 main_call1.v1 maximumf,
    binary main_v38 main_arg6 main_v39 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v42 : TRef sig ⟨S100000x64, .f32⟩) main_call2.v0 main_call2.v1 maximumf ]

/-- @main's 76 operations in order, the calls written out. -/
abbrev ops : List (HloOp τ sig (Elt F)) := opsA ++ (opsB ++ opsC)

-- the printed @main unfolds, call by call, to the same chain of steps as the line: one step deep per statement
set_option maxRecDepth 8192 in
/-- @main is that straight line: the functions' bodies unfolded at their calls and the records at their fields,
    both sides are the same chain of steps, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: stretch by stretch. -/
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem ops_sub : (ops : List (HloOp τ sig (Elt F))).Forall fun op => op.bufs ⊆ tcRefs τ sig :=
  List.forall_append.mpr ⟨opsA_sub, List.forall_append.mpr ⟨opsB_sub, opsC_sub⟩⟩

/-- Every operation determines what it writes: stretch by stretch. -/
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  rcases List.mem_append.mp h with h | h
  · exact opsA_fresh op h
  rcases List.mem_append.mp h with h | h
  · exact opsB_fresh op h
  · exact opsC_fresh op h

/-- At the compiled mesh, for any float values, from any memory with zero counters: every weakly fair execution of
    @main on the TensorCores terminates, and every final state has each TensorCore buffer at the operations' fold
    over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The line is in single-assignment order -/

/-- The rank of a buffer: its index in its table. The k-th operation writes the buffer of rank 8 + k. -/
abbrev rk : DevRef τ sig → ℕ := fun b => b.idx.val

theorem stagedA : Staged rk 8 (opsA : List (HloOp τ sig (Elt F))) 36 :=
  ⟨unary_stageAt _ _ _ _ _ (by decide) rfl,
    reshape_stageAt _ _ _ _ _ _ (by decide) rfl,
    unary_stageAt _ _ _ _ _ (by decide) rfl,
    reshape_stageAt _ _ _ _ _ _ (by decide) rfl,
    nullary_stageAt _ _ _ rfl,
    unary_stageAt _ _ _ _ _ (by decide) rfl,
    binary_stageAt _ _ _ _ _ _ _ (by decide) (by decide) rfl,
    nullary_stageAt _ _ _ rfl,
    unary_stageAt _ _ _ _ _ (by decide) rfl,
    binary_stageAt _ _ _ _ _ _ _ (by decide) (by decide) rfl,
    ternary_stageAt _ _ _ _ _ _ _ _ _ (by decide) (by decide) (by decide) rfl,
    unary_stageAt _ _ _ _ _ (by decide) rfl,
    binary_stageAt _ _ _ _ _ _ _ (by decide) (by decide) rfl,
    nullary_stageAt _ _ _ rfl,
    unary_stageAt _ _ _ _ _ (by decide) rfl,
    unary_stageAt _ _ _ _ _ (by decide) rfl,
    ternary_stageAt _ _ _ _ _ _ _ _ _ (by decide) (by decide) (by decide) rfl,
    binary_stageAt _ _ _ _ _ _ _ (by decide) (by decide) rfl,
    binary_stageAt _ _ _ _ _ _ _ (by decide) (by decide) rfl,
    unary_stageAt _ _ _ _ _ (by decide) rfl,
    unary_stageAt _ _ _ _ _ (by decide) rfl,
    binary_stageAt _ _ _ _ _ _ _ (by decide) (by decide) rfl,
    nullary_stageAt _ _ _ rfl,
    binary_stageAt _ _ _ _ _ _ _ (by decide) (by decide) rfl,
    nullary_stageAt _ _ _ rfl,
    unary_stageAt _ _ _ _ _ (by decide) rfl,
    binary_stageAt _ _ _ _ _ _ _ (by decide) (by decide) rfl,
    nullary_stageAt _ _ _ rfl,
    rfl⟩

theorem stagedB : Staged rk 36 (opsB : List (HloOp τ sig (Elt F))) 58 :=
  ⟨nullary_stageAt _ _ _ rfl,
    binary_stageAt _ _ _ _ _ _ _ (by decide) (by decide) rfl,
    unary_stageAt _ _ _ _ _ (by decide) rfl,
    nullary_stageAt _ _ _ rfl,
    unary_stageAt _ _ _ _ _ (by decide) rfl,
    binary_stageAt _ _ _ _ _ _ _ (by decide) (by decide) rfl,
    unary_stageAt _ _ _ _ _ (by decide) rfl,
    binary_stageAt _ _ _ _ _ _ _ (by decide) (by decide) rfl,
    binary_stageAt _ _ _ _ _ _ _ (by decide) (by decide) rfl,
    unary_stageAt _ _ _ _ _ (by decide) rfl,
    nullary_stageAt _ _ _ rfl,
    binary_stageAt _ _ _ _ _ _ _ (by decide) (by decide) rfl,
    nullary_stageAt _ _ _ rfl,
    binary_stageAt _ _ _ _ _ _ _ (by decide) (by decide) rfl,
    unary_stageAt _ _ _ _ _ (by decide) rfl,
    binary_stageAt _ _ _ _ _ _ _ (by decide) (by decide) rfl,
    nullary_stageAt _ _ _ rfl,
    binary_stageAt _ _ _ _ _ _ _ (by decide) (by decide) rfl,
    nullary_stageAt _ _ _ rfl,
    unary_stageAt _ _ _ _ _ (by decide) rfl,
    unary_stageAt _ _ _ _ _ (by decide) rfl,
    ternary_stageAt _ _ _ _ _ _ _ _ _ (by decide) (by decide) (by decide) rfl,
    rfl⟩

theorem stagedC : Staged rk 58 (opsC : List (HloOp τ sig (Elt F))) 84 :=
  ⟨unary_stageAt _ _ _ _ _ (by decide) rfl,
    unary_stageAt _ _ _ _ _ (by decide) rfl,
    binary_stageAt _ _ _ _ _ _ _ (by decide) (by decide) rfl,
    nullary_stageAt _ _ _ rfl,
    unary_stageAt _ _ _ _ _ (by decide) rfl,
    binary_stageAt _ _ _ _ _ _ _ (by decide) (by decide) rfl,
    unary_stageAt _ _ _ _ _ (by decide) rfl,
    unary_stageAt _ _ _ _ _ (by decide) rfl,
    unary_stageAt _ _ _ _ _ (by decide) rfl,
    binary_stageAt _ _ _ _ _ _ _ (by decide) (by decide) rfl,
    unary_stageAt _ _ _ _ _ (by decide) rfl,
    unary_stageAt _ _ _ _ _ (by decide) rfl,
    binary_stageAt _ _ _ _ _ _ _ (by decide) (by decide) rfl,
    unary_stageAt _ _ _ _ _ (by decide) rfl,
    unary_stageAt _ _ _ _ _ (by decide) rfl,
    binary_stageAt _ _ _ _ _ _ _ (by decide) (by decide) rfl,
    nullary_stageAt _ _ _ rfl,
    unary_stageAt _ _ _ _ _ (by decide) rfl,
    binary_stageAt _ _ _ _ _ _ _ (by decide) (by decide) rfl,
    binary_stageAt _ _ _ _ _ _ _ (by decide) (by decide) rfl,
    unary_stageAt _ _ _ _ _ (by decide) rfl,
    unary_stageAt _ _ _ _ _ (by decide) rfl,
    binary_stageAt _ _ _ _ _ _ _ (by decide) (by decide) rfl,
    nullary_stageAt _ _ _ rfl,
    unary_stageAt _ _ _ _ _ (by decide) rfl,
    binary_stageAt _ _ _ _ _ _ _ (by decide) (by decide) rfl,
    rfl⟩

/-- The whole line is staged from rank 8 (the first buffer after the eight arguments) to rank 84. -/
theorem staged : Staged rk 8 (ops : List (HloOp τ sig (Elt F))) 84 :=
  stagedA.append (stagedB.append stagedC)

/-- A buffer of rank below 8 — an argument — keeps its contents through the line. -/
theorem arg_eq (V : Valuation τ sig (Elt F)) (r : Ref sig .tc) (h : rk (Proc.devRef (τ := τ) .tc r) < 8) :
    after (ops (F := F)) V (Proc.devRef .tc r) = V (Proc.devRef .tc r) :=
  staged.after_of_lt V h

/-- In the contents the line ends at, the k-th operation's buffers hold its value at those contents. -/
theorem stage_eq (V : Valuation τ sig (Elt F)) (k : ℕ) (hk : k < (ops (F := F)).length) (b : DevRef τ sig)
    (hb : b ∈ ((ops (F := F))[k]).writes) :
    after (ops (F := F)) V b = ((ops (F := F))[k]).result (after (ops (F := F)) V) b :=
  staged.after_eq V _ (List.getElem_mem hk) b hb

/-- The result of @main on device `c` from memory `m`: the contents of its last buffer after the 76 operations,
    from the launch contents. -/
def res (m : (ℓ : Loc nD τ sig) → Buf (Elt F) ℓ) (c : Dev nD) : Buf (Elt F) ((c.tc : Thread nD τ).loc main_v43) :=
  after (ops (F := F)) (launchContents m c) (Proc.devRef .tc main_v43)

/-- On every device, for any float values, from any memory with zero counters: every weakly fair execution of
    @main terminates with the result buffer at `res` and the eight arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v43) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun _ h c => ⟨h c main_v43,
      (h c main_arg0).trans (arg_eq _ main_arg0 (by decide)),
      (h c main_arg1).trans (arg_eq _ main_arg1 (by decide)),
      (h c main_arg2).trans (arg_eq _ main_arg2 (by decide)),
      (h c main_arg3).trans (arg_eq _ main_arg3 (by decide)),
      (h c main_arg4).trans (arg_eq _ main_arg4 (by decide)),
      (h c main_arg5).trans (arg_eq _ main_arg5 (by decide)),
      (h c main_arg6).trans (arg_eq _ main_arg6 (by decide)),
      (h c main_arg7).trans (arg_eq _ main_arg7 (by decide))⟩)
    (run_all m ρ)

end Cert.ReferenceIdeal.RefRun

end
-- ==== Proof.Spec.lean ====
/-
  The two programs compute one graph layer on 100000 nodes with 64 features:
  h = (x + agg) · W1 + b1 (agg the neighbour sums), the batch statistics of h over the nodes
  (mean and variance per feature), the normalised, scaled and shifted h clipped at zero,
  a second affine map, and a final clip at zero.  They differ only in how the variance is
  written: the kernel as E[h²] − E[h]², the reference as E[(h − E[h])²].  Everything here is
  stated on the extended reals, index by index.
-/
import Idealize.ShloMosaic.PureOps.Ideal
import Idealize.ShloMosaic.Lib.ValueIdx

noncomputable section

namespace Cert.Gin

open Idealize.ShloMosaic Idealize.ShloMosaic.ValueIdx

/-- The node-feature arrays, the two weight matrices, a row and a vector of features. -/
abbrev SN : Shape := ⟨2, ![100000, 64]⟩
abbrev SD : Shape := ⟨2, ![64, 64]⟩
abbrev SR : Shape := ⟨2, ![1, 64]⟩
abbrev SV : Shape := ⟨1, ![64]⟩

/-- The number of nodes as both programs write it, the literal 100000.0. -/
def cN : EReal := Ideal.ofBits .f32 0x47C35000#32
/-- The variance's regulariser as both programs write it (the same f32 literal). -/
def eps : EReal := Ideal.ofBits .f32 0x3727C5AC#32

/-- The first affine map: row i of x + agg against column j of W1, plus b1 j. -/
def hval (x agg : SN.Idx → EReal) (W1 : SD.Idx → EReal) (b1 : SV.Idx → EReal) (i : Fin 100000) (j : Fin 64) : EReal :=
  (∑ k : Fin 64, (x (ix2 i k) + agg (ix2 i k)) * W1 (ix2 k j)) + b1 (ix1 j)

/-- The mean of feature j over the nodes. -/
def meanOf (h : Fin 100000 → Fin 64 → EReal) (j : Fin 64) : EReal := Ideal.div (∑ i : Fin 100000, h i j) cN

/-- The kernel's variance: the mean of the squares less the square of the mean. -/
def varK (h : Fin 100000 → Fin 64 → EReal) (j : Fin 64) : EReal :=
  Ideal.div (∑ i : Fin 100000, h i j * h i j) cN - meanOf h j * meanOf h j

/-- The reference's variance: the mean of the squared deviations from the mean. -/
def varR (h : Fin 100000 → Fin 64 → EReal) (j : Fin 64) : EReal :=
  Ideal.div (∑ i : Fin 100000, (h i j - meanOf h j) * (h i j - meanOf h j)) cN

/-- Everything after the statistics: normalise, scale, shift, clip, the second affine map, clip. -/
def outOf (h : Fin 100000 → Fin 64 → EReal) (mean var : Fin 64 → EReal) (gamma beta : SV.Idx → EReal)
    (W2 : SD.Idx → EReal) (b2 : SV.Idx → EReal) (i : Fin 100000) (j : Fin 64) : EReal :=
  max ((∑ k : Fin 64, max ((h i k - mean k) * Ideal.rsqrt (var k + eps) * gamma (ix1 k) + beta (ix1 k)) 0 * W2 (ix2 k j)) + b2 (ix1 j)) 0

/-- The first affine map with the bias given as a row [1, 64] (the kernel's form). -/
def hRow (x agg : SN.Idx → EReal) (W1 : SD.Idx → EReal) (b1 : SR.Idx → EReal) (i : Fin 100000) (j : Fin 64) : EReal :=
  (∑ k : Fin 64, (x (ix2 i k) + agg (ix2 i k)) * W1 (ix2 k j)) + b1 (ix2 (0 : Fin 1) j)

/-- Everything after the statistics with h an array and the per-feature quantities rows [1, 64] (the kernel's form). -/
def outRow (h : SN.Idx → EReal) (gamma beta mean var : SR.Idx → EReal) (W2 : SD.Idx → EReal) (b2 : SR.Idx → EReal)
    (i : Fin 100000) (j : Fin 64) : EReal :=
  max ((∑ k : Fin 64, max ((h (ix2 i k) - mean (ix2 (0 : Fin 1) k)) * Ideal.rsqrt (var (ix2 (0 : Fin 1) k) + eps) * gamma (ix2 (0 : Fin 1) k)
    + beta (ix2 (0 : Fin 1) k)) 0 * W2 (ix2 k j)) + b2 (ix2 (0 : Fin 1) j)) 0

/-- A curried function of (node, feature) as an array. -/
def toArr (f : Fin 100000 → Fin 64 → EReal) : SN.Idx → EReal := fun idx => f (idx 0) (idx 1)

end Cert.Gin

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.KIVal0.lean ====
/-
  What the first kernel region leaves in its three output arrays, at the exact-real reading: the 20 blocks of 5000
  rows of h tile the 100000 rows, and the two scratch rows, accumulated block by block from zero, end at the column
  sums of h and of h squared over all 100000 rows.
-/
import proofs.«108197_j55783035240590_1_alg».proof.Proof.KIReg0
import proofs.«108197_j55783035240590_1_alg».proof.Proof.Spec
import proofs.«108197_j55783035240590_1_alg».proof.Proof.LibDotFormats
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Val0

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

open Cert.KernelIdeal.Reg0

/-- h as one function of the arrays the region finds (x, agg, W1 and the bias row). -/
abbrev hOf (c : Dev nD) : Fin 100000 → Fin 64 → EReal :=
  Cert.Gin.hRow (V c main_arg0) (V c main_v13) (V c main_arg2) (V c main_v14)

/-- The payload as one expression of its four blocks. -/
theorem pay3_eq (x a : Vec Ideal S5000x64 .f32) (w : Vec Ideal S64x64 .f32) (b : Vec Ideal S1x64 .f32) :
    k0_pay3 x a w b = addf (FloatOps.matmul (F := Ideal) dot_S5000x64_S64x64_S5000x64_1_0_0_1_n_n none
        (truncf .bf16 (addf x (shapeCast S5000x64 a shapeCasts_S5000x64_S5000x64)) bitsLt_bf16_f32)
        (truncf .bf16 w bitsLt_bf16_f32) (constant S5000x64 .f32 0x00000000#32))
      (broadcastTo S5000x64 (shapeCast S1x64 b shapeCasts_S1x64_S1x64) broadcasts_S1x64_S5000x64) := rfl

/-- The payload at row r and column j: row r of x + agg against column j of W1, plus the bias row at j. -/
theorem pay3_apply (x a : Vec Ideal S5000x64 .f32) (w : Vec Ideal S64x64 .f32) (b : Vec Ideal S1x64 .f32)
    (r : Fin 5000) (j : Fin 64) :
    k0_pay3 x a w b (ix2 r j) = (∑ k : Fin 64, (x (ix2 r k) + a (ix2 r k)) * w (ix2 k j)) + b (ix2 (0 : Fin 1) j) := by
  rw [pay3_eq, addf_apply, Cert.LibDotFormats.matmul_cols_zero_apply _ rfl rfl rfl rfl rfl rfl,
    shapeCast_self, shapeCast_self, broadcastTo_1b_ab_apply]
  rfl

/-- The index maps at every point of the grid: the blocks of x, agg and h at point t sit at block row t and
block column 0; W1 and the bias row are whole at every point. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of x at point t, read at (r, k), is x at row 5000·t + r. -/
theorem xblk_apply (c : Dev nD) (t : Fin cfg0.N) (r : Fin 5000) (k : Fin 64) (i : Fin 100000)
    (hi : i.val = 5000 * t.val + r.val) : iblk0 (F := Ideal) V c 0 t (ix2 r k) = V c main_arg0 (ix2 i k) := by
  show V c main_arg0 (((cfg0.win 0).blk t).view.emb (ix2 r k)) = V c main_arg0 (ix2 i k)
  obtain ⟨e0, e1, -⟩ := idx_facts0 t
  refine congrArg _ (funext fun a => Fin.ext ?_)
  match a with
  | ⟨0, _⟩ => show win0_0.index t (0 : Fin 2) * 5000 + 1 * r.val = i.val; omega
  | ⟨1, _⟩ => show win0_0.index t (1 : Fin 2) * 64 + 1 * k.val = k.val; omega

/-- The block of agg at point t, read at (r, k), is agg at row 5000·t + r. -/
theorem ablk_apply (c : Dev nD) (t : Fin cfg0.N) (r : Fin 5000) (k : Fin 64) (i : Fin 100000)
    (hi : i.val = 5000 * t.val + r.val) : iblk0 (F := Ideal) V c 1 t (ix2 r k) = V c main_v13 (ix2 i k) := by
  show V c main_v13 (((cfg0.win 1).blk t).view.emb (ix2 r k)) = V c main_v13 (ix2 i k)
  obtain ⟨-, -, e0, e1, -⟩ := idx_facts0 t
  refine congrArg _ (funext fun a => Fin.ext ?_)
  match a with
  | ⟨0, _⟩ => show win0_1.index t (0 : Fin 2) * 5000 + 1 * r.val = i.val; omega
  | ⟨1, _⟩ => show win0_1.index t (1 : Fin 2) * 64 + 1 * k.val = k.val; omega

/-- The block of W1 at any point is W1. -/
theorem wblk_apply (c : Dev nD) (t : Fin cfg0.N) (k : Fin 64) (j : Fin 64) :
    iblk0 (F := Ideal) V c 2 t (ix2 k j) = V c main_arg2 (ix2 k j) := by
  show V c main_arg2 (((cfg0.win 2).blk t).view.emb (ix2 k j)) = V c main_arg2 (ix2 k j)
  obtain ⟨-, -, -, -, e0, e1, -⟩ := idx_facts0 t
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega

/-- The block of the bias row at any point is the bias row. -/
theorem bblk_apply (c : Dev nD) (t : Fin cfg0.N) (z : Fin 1) (j : Fin 64) :
    iblk0 (F := Ideal) V c 3 t (ix2 z j) = V c main_v14 (ix2 z j) := by
  show V c main_v14 (((cfg0.win 3).blk t).view.emb (ix2 z j)) = V c main_v14 (ix2 z j)
  obtain ⟨-, -, -, -, -, -, e0, e1, -⟩ := idx_facts0 t
  refine congrArg _ (funext fun a => Fin.ext ?_)
  match a with
  | ⟨0, _⟩ => show win0_3.index t (0 : Fin 2) * 1 + 1 * z.val = z.val; omega
  | ⟨1, _⟩ => show win0_3.index t (1 : Fin 2) * 64 + 1 * j.val = j.val; omega

/-- The block of h stored at point t, read at row r and column j: row 5000·t + r of h. -/
theorem hblk_apply (c : Dev nD) (t : Fin cfg0.N) (r : Fin 5000) (j : Fin 64) (i : Fin 100000) (hi : i.val = 5000 * t.val + r.val) :
    hblk (F := Ideal) V c t (ix2 r j) = hOf V c i j := by
  unfold hblk
  rw [pay3_apply, bblk_apply]
  show _ = Cert.Gin.hRow (V c main_arg0) (V c main_v13) (V c main_arg2) (V c main_v14) i j
  unfold Cert.Gin.hRow
  congr 1
  refine Finset.sum_congr rfl fun k _ => ?_
  rw [xblk_apply V c t r k i hi, ablk_apply V c t r k i hi, wblk_apply]

/-- What point t writes back is block t of h. -/
theorem flushed4_eq (c : Dev nD) (t : Fin cfg0.N) :
    (dat0 (F := Ideal) V c).flushed 4 t
      = ((cfg0.win 4).blk t).view.read (Elt Ideal) (fun idx : S100000x64.Idx => hOf V c (idx 0) (idx 1)) := by
  show (cfg0.win 4).cut (grid0.coords t) ((dat0 V c).after 4 t) = _
  rw [after0_4]
  funext y
  obtain ⟨r, j, rfl⟩ : ∃ (r : Fin 5000) (j : Fin 64), y = ix2 r j := ⟨y 0, y 1, eq_ix2 y⟩
  obtain ⟨-, -, -, -, -, -, -, -, e0, e1⟩ := idx_facts0 t
  have h0 : ((((cfg0.win 4).blk t).view.emb (ix2 r j)) 0).val = 5000 * t.val + r.val := by
    show win0_4.index t (0 : Fin 2) * 5000 + 1 * r.val = _
    omega
  have h1 : (((cfg0.win 4).blk t).view.emb (ix2 r j)) 1 = j :=
    Fin.ext (by show win0_4.index t (1 : Fin 2) * 64 + 1 * j.val = j.val; omega)
  show hblk V c t (ix2 r j)
    = hOf V c ((((cfg0.win 4).blk t).view.emb (ix2 r j)) 0) ((((cfg0.win 4).blk t).view.emb (ix2 r j)) 1)
  rw [h1]
  exact hblk_apply V c t r j _ h0

/-- An index of the h array is in point t's block iff each coordinate is in the block's range on its axis. -/
theorem mem_blk4 (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v18_0).slice (win0_4.rect t)).set ↔ _
  rw [View.set_slice_whole, Rect.mem_set_unit]
  exact Iff.rfl

/-- Every index of the h array is in the block of the point its row falls in: row r in block r / 5000. -/
theorem cover4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, -, -, e0, e1⟩ := idx_facts0 ⟨(i 0).val / 5000, hlt⟩
  have e0' : win0_4.index ⟨(i 0).val / 5000, hlt⟩ (0 : Fin 2) = (i 0).val / 5000 := e0
  refine ⟨⟨(i 0).val / 5000, hlt⟩, flush0_4 _, ?_⟩
  rw [mem_blk4]
  intro a
  match a with
  | ⟨0, _⟩ =>
    show win0_4.index ⟨(i 0).val / 5000, hlt⟩ (0 : Fin 2) * 5000 ≤ (i 0).val
      ∧ (i 0).val < win0_4.index ⟨(i 0).val / 5000, hlt⟩ (0 : Fin 2) * 5000 + 5000
    omega
  | ⟨1, _⟩ =>
    show win0_4.index ⟨(i 0).val / 5000, hlt⟩ (1 : Fin 2) * 64 ≤ (i 1).val
      ∧ (i 1).val < win0_4.index ⟨(i 0).val / 5000, hlt⟩ (1 : Fin 2) * 64 + 64
    omega

/-- The h array after the region. -/
theorem arrAt4 (c : Dev nD) :
    (dat0 (F := Ideal) V c).arrAt 4 cfg0.N = fun idx => hOf V c (idx 0) (idx 1) :=
  (dat0 (F := Ideal) V c).arrAt_eq_of_cover 4 _ (fun t _ => flushed4_eq V c t) cover4

end Cert.KernelIdeal.Val0

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.KIVal0s.lean ====
/-
  The two scratch rows of the first kernel region, accumulated block by block from zero, end at the column sums of h
  and of h squared over all 100000 rows; the region writes them back once, after the last point.
-/
import proofs.«108197_j55783035240590_1_alg».proof.Proof.KIVal0
import proofs.«108197_j55783035240590_1_alg».proof.Proof.LibBlockSum
import proofs.«108197_j55783035240590_1_alg».proof.Proof.LibIdealReal
set_option maxRecDepth 16384

noncomputable section

namespace Cert.KernelIdeal.Val0s

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

open Cert.KernelIdeal.Reg0 Cert.KernelIdeal.Val0

/-! ## The payloads at an index -/

/-- A sum over axis 0 of a [5000, 64] block from the zero word, read at column j: the sum of the column. -/
theorem colsum_apply (X : FVec Ideal S5000x64 .f32) (hφ : FKind.Formats .f32)
    (hacc : (0x00000000#32 : BitVec 32) = 0x00000000#32) (j : Fin 64) :
    multiReduction (F := Ideal) .add [0] S64 X 0x00000000#32 reduces_S5000x64_S64 hφ hacc (ix1 j) = ∑ r : Fin 5000, X (ix2 r j) := by
  refine (Ideal.multiReduction_add_single X 0x00000000#32 reduces_S5000x64_S64 hφ hacc (ix1 j)).trans ?_
  refine Finset.sum_congr rfl fun r _ => congrArg X ?_
  funext a
  match a with
  | ⟨0, _⟩ => rfl
  | ⟨1, _⟩ => rfl

/-- The first scratch row after a point: what it held plus the column sums of the block of h. -/
theorem pay4_apply (v3 v4 : Vec Ideal S5000x64 .f32) (v8 : Vec Ideal S64x64 .f32) (v11 v16 : Vec Ideal S1x64 .f32) (u : Fin 1) (j : Fin 64) :
    k0_pay4 (F := Ideal) v3 v4 v8 v11 v16 (ix2 u j) = v16 (ix2 u j) + ∑ r : Fin 5000, k0_pay3 (F := Ideal) v3 v4 v8 v11 (ix2 r j) := by
  unfold k0_pay4
  rw [shapeCast_self, addf_apply, shapeCast_a_1a_apply]
  exact congrArg (v16 (ix2 u j) + ·) (colsum_apply _ _ _ j)

/-- The second scratch row after a point: what it held plus the column sums of the squares of the block of h. -/
theorem pay5_apply (v3 v4 : Vec Ideal S5000x64 .f32) (v8 : Vec Ideal S64x64 .f32) (v11 v23 : Vec Ideal S1x64 .f32) (u : Fin 1) (j : Fin 64) :
    k0_pay5 (F := Ideal) v3 v4 v8 v11 v23 (ix2 u j) = v23 (ix2 u j) + ∑ r : Fin 5000, k0_pay3 (F := Ideal) v3 v4 v8 v11 (ix2 r j) * k0_pay3 (F := Ideal) v3 v4 v8 v11 (ix2 r j) := by
  unfold k0_pay5
  rw [shapeCast_self, addf_apply, shapeCast_a_1a_apply]
  exact congrArg (v23 (ix2 u j) + ·) ((colsum_apply _ _ _ j).trans (Finset.sum_congr rfl fun r _ => mulf_apply _ _ _))

/-- The rows the first point resets the scratch to are zero. -/
theorem pay1_apply (i : S1x64.Idx) : k0_pay1 (F := Ideal) i = 0 := by
  unfold k0_pay1
  rw [shapeCast_self, broadcast_apply]
  exact Ideal.ofBits_zero_f32

theorem pay2_apply (i : S1x64.Idx) : k0_pay2 (F := Ideal) i = 0 := by
  unfold k0_pay2
  rw [shapeCast_self, broadcast_apply]
  exact Ideal.ofBits_zero_f32

/-! ## The running sums -/

/-- Column j of h at the natural-number row n, zero past the last row. -/
def hExt (c : Dev nD) (j : Fin 64) (n : ℕ) : EReal := if h : n < 100000 then hOf V c ⟨n, h⟩ j else 0

/-- The sum of column j of h over the t-th block of 5000 rows, and of its squares. -/
def blockSum (c : Dev nD) (j : Fin 64) (t : ℕ) : EReal := ∑ r : Fin 5000, hExt V c j (5000 * t + r.val)
def blockSq (c : Dev nD) (j : Fin 64) (t : ℕ) : EReal := ∑ r : Fin 5000, hExt V c j (5000 * t + r.val) * hExt V c j (5000 * t + r.val)

/-- The block of h stored at point t, at row r and column j, is row 5000·t + r of h. -/
theorem hblk_ext (c : Dev nD) (t : Fin cfg0.N) (r : Fin 5000) (j : Fin 64) :
    hblk (F := Ideal) V c t (ix2 r j) = hExt V c j (5000 * t.val + r.val) := by
  have ht : t.val < 20 := lt_of_lt_of_eq t.isLt N_0
  have hr : r.val < 5000 := r.isLt
  have hlt : 5000 * t.val + r.val < 100000 := by omega
  unfold hExt
  rw [dif_pos hlt]
  exact hblk_apply V c t r j ⟨_, hlt⟩ rfl

theorem acc_zero (c : Dev nD) (hn : 0 < cfg0.N) :
    acc (F := Ideal) V c 0 hn = (k0_pay4 (iblk0 V c 0 ⟨0, hn⟩) (iblk0 V c 1 ⟨0, hn⟩) (iblk0 V c 2 ⟨0, hn⟩) (iblk0 V c 3 ⟨0, hn⟩) (k0_pay1 (F := Ideal)),
      k0_pay5 (iblk0 V c 0 ⟨0, hn⟩) (iblk0 V c 1 ⟨0, hn⟩) (iblk0 V c 2 ⟨0, hn⟩) (iblk0 V c 3 ⟨0, hn⟩) (k0_pay2 (F := Ideal))) := rfl

theorem acc_succ (c : Dev nD) (n : ℕ) (hn : n + 1 < cfg0.N) :
    acc (F := Ideal) V c (n + 1) hn = (k0_pay4 (iblk0 V c 0 ⟨n + 1, hn⟩) (iblk0 V c 1 ⟨n + 1, hn⟩) (iblk0 V c 2 ⟨n + 1, hn⟩) (iblk0 V c 3 ⟨n + 1, hn⟩) (acc V c n (Nat.lt_of_succ_lt hn)).1,
      k0_pay5 (iblk0 V c 0 ⟨n + 1, hn⟩) (iblk0 V c 1 ⟨n + 1, hn⟩) (iblk0 V c 2 ⟨n + 1, hn⟩) (iblk0 V c 3 ⟨n + 1, hn⟩) (acc V c n (Nat.lt_of_succ_lt hn)).2) := rfl

/-- What a point adds to the first scratch row, and to the second. -/
theorem step1 (c : Dev nD) (t : Fin cfg0.N) (s : Vec Ideal S1x64 .f32) (u : Fin 1) (j : Fin 64) :
    k0_pay4 (F := Ideal) (iblk0 V c 0 t) (iblk0 V c 1 t) (iblk0 V c 2 t) (iblk0 V c 3 t) s (ix2 u j) = s (ix2 u j) + blockSum V c j t.val :=
  (pay4_apply _ _ _ _ s u j).trans (congrArg (s (ix2 u j) + ·) (Finset.sum_congr rfl fun r _ => hblk_ext V c t r j))

theorem step2 (c : Dev nD) (t : Fin cfg0.N) (s : Vec Ideal S1x64 .f32) (u : Fin 1) (j : Fin 64) :
    k0_pay5 (F := Ideal) (iblk0 V c 0 t) (iblk0 V c 1 t) (iblk0 V c 2 t) (iblk0 V c 3 t) s (ix2 u j) = s (ix2 u j) + blockSq V c j t.val :=
  (pay5_apply _ _ _ _ s u j).trans (congrArg (s (ix2 u j) + ·) (Finset.sum_congr rfl fun r _ => by
    rw [show k0_pay3 (F := Ideal) (iblk0 V c 0 t) (iblk0 V c 1 t) (iblk0 V c 2 t) (iblk0 V c 3 t) (ix2 r j) = hExt V c j (5000 * t.val + r.val) from hblk_ext V c t r j]))

/-- After point n the scratch rows hold the sums of the first n + 1 blocks. -/
theorem acc_closed (c : Dev nD) (u : Fin 1) (j : Fin 64) : ∀ (n : ℕ) (hn : n < cfg0.N),
    (acc (F := Ideal) V c n hn).1 (ix2 u j) = ∑ t ∈ Finset.range (n + 1), blockSum V c j t
      ∧ (acc (F := Ideal) V c n hn).2 (ix2 u j) = ∑ t ∈ Finset.range (n + 1), blockSq V c j t := by
  intro n
  induction n with
  | zero =>
    intro hn
    rw [acc_zero, Finset.sum_range_one, Finset.sum_range_one]
    exact ⟨(step1 V c ⟨0, hn⟩ _ u j).trans (by rw [pay1_apply, zero_add]),
      (step2 V c ⟨0, hn⟩ _ u j).trans (by rw [pay2_apply, zero_add])⟩
  | succ n ih =>
    intro hn
    obtain ⟨ih1, ih2⟩ := ih (Nat.lt_of_succ_lt hn)
    rw [acc_succ, Finset.sum_range_succ _ (n + 1), Finset.sum_range_succ _ (n + 1)]
    exact ⟨(step1 V c ⟨n + 1, hn⟩ _ u j).trans (by rw [ih1]), (step2 V c ⟨n + 1, hn⟩ _ u j).trans (by rw [ih2])⟩

/-- Twenty blocks of 5000 rows are the 100000 rows. -/
theorem sum_all (g : EReal → EReal) (c : Dev nD) (j : Fin 64) :
    ∑ t ∈ Finset.range 20, ∑ r : Fin 5000, g (hExt V c j (5000 * t + r.val)) = ∑ i : Fin 100000, g (hOf V c i j) := by
  rw [Finset.sum_range]
  refine Eq.trans ?_ (Cert.BlockSum.sum_blocks 20 5000 (fun n : Fin (20 * 5000) => g (hOf V c (⟨n.val, n.isLt⟩ : Fin 100000) j)))
  refine Finset.sum_congr rfl fun b _ => Finset.sum_congr rfl fun r _ => ?_
  have hb : b.val < 20 := b.isLt
  have hr : r.val < 5000 := r.isLt
  have hlt : 5000 * b.val + r.val < 100000 := by omega
  unfold hExt
  rw [dif_pos hlt]

/-- After the last point the scratch rows hold the column sums of h and of h squared over all the rows. -/
theorem acc_last (c : Dev nD) (u : Fin 1) (j : Fin 64) (n : ℕ) (hn : n < cfg0.N) (h19 : n = 19) :
    (acc (F := Ideal) V c n hn).1 (ix2 u j) = ∑ i : Fin 100000, hOf V c i j
      ∧ (acc (F := Ideal) V c n hn).2 (ix2 u j) = ∑ i : Fin 100000, hOf V c i j * hOf V c i j := by
  subst h19
  obtain ⟨h1, h2⟩ := acc_closed V c u j 19 hn
  exact ⟨h1.trans (sum_all V (fun e => e) c j), h2.trans (sum_all V (fun e => e * e) c j)⟩

/-! ## From the last point's write-back to the arrays -/

/-- The two row windows have the one block, at block index (0, 0). -/
theorem idx_facts : ∀ t : Fin cfg0.N, win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem last_lt : 19 < cfg0.N := lt_of_lt_of_eq (by decide : 19 < 20) N_0.symm

/-- The column sums of h, and of h squared, as row arrays. -/
abbrev G5 (c : Dev nD) : S1x64.Idx → EReal := fun idx => ∑ i : Fin 100000, hOf V c i (idx 1)
abbrev G6 (c : Dev nD) : S1x64.Idx → EReal := fun idx => ∑ i : Fin 100000, hOf V c i (idx 1) * hOf V c i (idx 1)

/-- The scratch rows after the last point, as row arrays. -/
theorem row_last (c : Dev nD) (n : ℕ) (hn : n < cfg0.N) (h19 : n = 19) (x : S1x64.Idx) :
    (acc (F := Ideal) V c n hn).1 x = G5 V c x ∧ (acc (F := Ideal) V c n hn).2 x = G6 V c x := by
  rw [eq_ix2 x]
  exact acc_last V c (x 0) (x 1) n hn h19

/-- The one block of each row window sits at the array's origin: a block coordinate is the array coordinate. -/
theorem emb5 (t : Fin cfg0.N) (x : S1x64.Idx) : (((cfg0.win 5).blk t).view.emb x : S1x64.Idx) = x := by
  obtain ⟨e0, e1, -, -⟩ := idx_facts t
  have h0 : (x 0).val < 1 := (x 0).isLt
  funext a; apply Fin.ext
  match a with
  | ⟨0, _⟩ => show win0_5.index t (0 : Fin 2) * 1 + 1 * (x 0).val = (x 0).val; omega
  | ⟨1, _⟩ => show win0_5.index t (1 : Fin 2) * 64 + 1 * (x 1).val = (x 1).val; omega

theorem emb6 (t : Fin cfg0.N) (x : S1x64.Idx) : (((cfg0.win 6).blk t).view.emb x : S1x64.Idx) = x := by
  obtain ⟨-, -, e0, e1⟩ := idx_facts t
  have h0 : (x 0).val < 1 := (x 0).isLt
  funext a; apply Fin.ext
  match a with
  | ⟨0, _⟩ => show win0_6.index t (0 : Fin 2) * 1 + 1 * (x 0).val = (x 0).val; omega
  | ⟨1, _⟩ => show win0_6.index t (1 : Fin 2) * 64 + 1 * (x 1).val = (x 1).val; omega

/-- What the last point writes back from window 5 is the block of the column sums of h. -/
theorem flushed5_eq (c : Dev nD) (t : Fin cfg0.N) (hf : (cfg0.win 5).flush t = true) :
    (dat0 (F := Ideal) V c).flushed 5 t = ((cfg0.win 5).blk t).view.read (Elt Ideal) (G5 V c) := by
  show (cfg0.win 5).cut (grid0.coords t) ((dat0 (F := Ideal) V c).after 5 t) = _
  rw [after0_5]
  have h19 : t.val = 19 := by
    have h1 := (flush0_5 t).mp hf
    have h2 : t.val < 20 := lt_of_lt_of_eq t.isLt N_0
    omega
  funext x
  rw [View.read_apply]
  show (acc (F := Ideal) V c t.val t.isLt).1 x = _
  refine Eq.trans ((row_last V c t.val t.isLt h19 x).1) ?_
  congr 1
  exact (emb5 t x).symm

/-- What the last point writes back from window 6 is the block of the column sums of h squared. -/
theorem flushed6_eq (c : Dev nD) (t : Fin cfg0.N) (hf : (cfg0.win 6).flush t = true) :
    (dat0 (F := Ideal) V c).flushed 6 t = ((cfg0.win 6).blk t).view.read (Elt Ideal) (G6 V c) := by
  show (cfg0.win 6).cut (grid0.coords t) ((dat0 (F := Ideal) V c).after 6 t) = _
  rw [after0_6]
  have h19 : t.val = 19 := by
    have h1 := (flush0_6 t).mp hf
    have h2 : t.val < 20 := lt_of_lt_of_eq t.isLt N_0
    omega
  funext x
  rw [View.read_apply]
  show (acc (F := Ideal) V c t.val t.isLt).2 x = _
  refine Eq.trans ((row_last V c t.val t.isLt h19 x).2) ?_
  congr 1
  exact (emb6 t x).symm

/-- An index of the row array is in point t's block iff each coordinate is in the block's range on its axis. -/
theorem mem_blk5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v18_1).slice (win0_5.rect t)).set ↔ _
  rw [View.set_slice_whole, Rect.mem_set_unit]
  exact Iff.rfl

theorem mem_blk6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v18_2).slice (win0_6.rect t)).set ↔ _
  rw [View.set_slice_whole, Rect.mem_set_unit]
  exact Iff.rfl

/-- The last point's block is the whole row array. -/
theorem cover5 (i : S1x64.Idx) : ∃ t : Fin cfg0.N, (cfg0.win 5).flush t = true ∧ i ∈ ((cfg0.win 5).blk t).view.set := by
  refine ⟨⟨19, last_lt⟩, (flush0_5 _).mpr rfl, ?_⟩
  rw [mem_blk5]
  obtain ⟨e0, e1, -, -⟩ := idx_facts ⟨19, last_lt⟩
  have h0 : (i 0).val < 1 := (i 0).isLt
  have h1 : (i 1).val < 64 := (i 1).isLt
  intro a
  match a with
  | ⟨0, _⟩ => show win0_5.index ⟨19, last_lt⟩ (0 : Fin 2) * 1 ≤ (i 0).val ∧ (i 0).val < win0_5.index ⟨19, last_lt⟩ (0 : Fin 2) * 1 + 1; omega
  | ⟨1, _⟩ => show win0_5.index ⟨19, last_lt⟩ (1 : Fin 2) * 64 ≤ (i 1).val ∧ (i 1).val < win0_5.index ⟨19, last_lt⟩ (1 : Fin 2) * 64 + 64; omega

theorem cover6 (i : S1x64.Idx) : ∃ t : Fin cfg0.N, (cfg0.win 6).flush t = true ∧ i ∈ ((cfg0.win 6).blk t).view.set := by
  refine ⟨⟨19, last_lt⟩, (flush0_6 _).mpr rfl, ?_⟩
  rw [mem_blk6]
  obtain ⟨-, -, e0, e1⟩ := idx_facts ⟨19, last_lt⟩
  have h0 : (i 0).val < 1 := (i 0).isLt
  have h1 : (i 1).val < 64 := (i 1).isLt
  intro a
  match a with
  | ⟨0, _⟩ => show win0_6.index ⟨19, last_lt⟩ (0 : Fin 2) * 1 ≤ (i 0).val ∧ (i 0).val < win0_6.index ⟨19, last_lt⟩ (0 : Fin 2) * 1 + 1; omega
  | ⟨1, _⟩ => show win0_6.index ⟨19, last_lt⟩ (1 : Fin 2) * 64 ≤ (i 1).val ∧ (i 1).val < win0_6.index ⟨19, last_lt⟩ (1 : Fin 2) * 64 + 64; omega

/-- The column sums of h after the region. -/
theorem arrAt5 (c : Dev nD) :
    (dat0 (F := Ideal) V c).arrAt 5 cfg0.N = fun idx => ∑ i : Fin 100000, hOf V c i (idx 1) :=
  (dat0 (F := Ideal) V c).arrAt_eq_of_cover 5 (G5 V c) (fun t hf => flushed5_eq V c t hf) cover5

/-- The column sums of h squared after the region. -/
theorem arrAt6 (c : Dev nD) :
    (dat0 (F := Ideal) V c).arrAt 6 cfg0.N = fun idx => ∑ i : Fin 100000, hOf V c i (idx 1) * hOf V c i (idx 1) :=
  (dat0 (F := Ideal) V c).arrAt_eq_of_cover 6 (G6 V c) (fun t hf => flushed6_eq V c t hf) cover6

end Cert.KernelIdeal.Val0s

end
-- ==== Proof.KIVal1.lean ====
/-
  What the second kernel region leaves in its output array, at the exact-real reading: the 20 blocks of 5000 rows
  tile the 100000 rows, and row i of the result is the clipped second affine map of the clipped, normalised row i of h.
-/
import proofs.«108197_j55783035240590_1_alg».proof.Proof.KIReg1
import proofs.«108197_j55783035240590_1_alg».proof.Proof.Spec
import proofs.«108197_j55783035240590_1_alg».proof.Proof.LibDotFormats
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Val1

open Cert.KernelIdeal Cert.KernelIdeal.Gen
open Idealize.ShloMosaic Idealize.ShloMosaic.TcCoe Idealize.ShloMosaic.ValueIdx
open Idealize.ShloMosaic.Pipeline (Dat Cfg Window)

open Cert.LibDotFormats in
/-- The block's payload at row r and feature j: the clipped second affine map of the clipped, normalised row. -/
theorem pay_apply (x0 : Vec Ideal S5000x64 .f32) (xvar xmean xg xb : Vec Ideal S1x64 .f32)
    (xW : Vec Ideal S64x64 .f32) (xc : Vec Ideal S1x64 .f32) (r : Fin 5000) (j : Fin 64) :
    k1_pay1 (F := Ideal) x0 xvar xmean xg xb xW xc (ix2 r j)
      = max ((∑ k : Fin 64, max ((x0 (ix2 r k) - xmean (ix2 (0 : Fin 1) k)) * Ideal.rsqrt (xvar (ix2 (0 : Fin 1) k) + Cert.Gin.eps)
          * xg (ix2 (0 : Fin 1) k) + xb (ix2 (0 : Fin 1) k)) 0 * xW (ix2 k j)) + xc (ix2 (0 : Fin 1) j)) 0 := by
  unfold k1_pay1
  simp only [Idealize.ShloMosaic.shapeCast_self]
  rw [maximumf_apply, addf_apply, broadcast_apply, broadcastTo_1b_ab_apply]
  unfold Idealize.ShloMosaic.matmul
  rw [matmul_cols_zero_apply (A := 5000) (K := 64) (B := 64) dot_S5000x64_S64x64_S5000x64_1_0_0_1_n_n rfl rfl rfl rfl rfl rfl]
  simp only [Ideal.ofBits_def, Ideal.ofBits_zero_f32]
  refine congrArg (fun s => max (s + xc (ix2 (0 : Fin 1) j)) 0) (Finset.sum_congr rfl fun k _ => ?_)
  rw [truncf_apply, truncf_apply, maximumf_apply, addf_apply, mulf_apply, mulf_apply, subf_apply, broadcast_apply,
    broadcastTo_1b_ab_apply, broadcastTo_1b_ab_apply, broadcastTo_1b_ab_apply, broadcastTo_1b_ab_apply]
  unfold Cert.Gin.eps
  rfl

variable (V : (c : Dev nD) → (b : Ref sig .tc) → Buf (Elt Ideal) ((c : Thread nD τ).loc b))

open Cert.KernelIdeal.Reg1

theorem hz : (![0, 0] : Fin 2 → Nat) = fun _ => 0 := funext fun a => by fin_cases a <;> rfl

/-- The windows' index maps over the 20 points: the h block and the output block sit at block row t, column block 0;
    every row window and the weight window sit at block (0, 0). -/
theorem idx_facts : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem t_lt (t : Fin cfg1.N) : t.val < 20 := N_1 ▸ t.isLt

/-- Row r of the h block at point t is row 5000 t + r of h. -/
theorem iblk_big (c : Dev nD) (t : Fin cfg1.N) (r : Fin 5000) (k : Fin 64) :
    iblk1 V c 0 t (ix2 r k) = V c main_v18_0 (ix2 (n0 := 100000) (n1 := 64) ⟨t.val * 5000 + r.val, by have := t_lt t; have := r.isLt; omega⟩ k) := by
  obtain ⟨e0, e1, -⟩ := idx_facts t
  unfold iblk1
  show V c main_v18_0 (((cfg1.win 0).blk t).view.emb (ix2 r k)) = _
  refine congrArg (V c main_v18_0) ?_
  funext a; apply Fin.ext
  match a with
  | ⟨0, _⟩ => show win1_0.index t (0 : Fin 2) * 5000 + 1 * r.val = t.val * 5000 + r.val; omega
  | ⟨1, _⟩ => show win1_0.index t (1 : Fin 2) * 64 + 1 * k.val = k.val; omega

/-- The scale window's block at any point is the whole row. -/
theorem iblk_row1 (c : Dev nD) (t : Fin cfg1.N) (k : Fin 64) :
    iblk1 V c 1 t (ix2 (0 : Fin 1) k) = V c main_v16 (ix2 (0 : Fin 1) k) := by
  obtain ⟨-, -, -, -, e0, e1, -⟩ := idx_facts t
  unfold iblk1
  show V c main_v16 (((cfg1.win 1).blk t).view.emb (ix2 (0 : Fin 1) k)) = _
  refine congrArg (V c main_v16) ?_
  funext a; apply Fin.ext
  match a with
  | ⟨0, _⟩ => show win1_1.index t (0 : Fin 2) * 1 + 1 * 0 = 0; omega
  | ⟨1, _⟩ => show win1_1.index t (1 : Fin 2) * 64 + 1 * k.val = k.val; omega

/-- The shift window's block at any point is the whole row. -/
theorem iblk_row2 (c : Dev nD) (t : Fin cfg1.N) (k : Fin 64) :
    iblk1 V c 2 t (ix2 (0 : Fin 1) k) = V c main_v17 (ix2 (0 : Fin 1) k) := by
  obtain ⟨-, -, -, -, -, -, e0, e1, -⟩ := idx_facts t
  unfold iblk1
  show V c main_v17 (((cfg1.win 2).blk t).view.emb (ix2 (0 : Fin 1) k)) = _
  refine congrArg (V c main_v17) ?_
  funext a; apply Fin.ext
  match a with
  | ⟨0, _⟩ => show win1_2.index t (0 : Fin 2) * 1 + 1 * 0 = 0; omega
  | ⟨1, _⟩ => show win1_2.index t (1 : Fin 2) * 64 + 1 * k.val = k.val; omega

/-- The mean window's block at any point is the whole row. -/
theorem iblk_row3 (c : Dev nD) (t : Fin cfg1.N) (k : Fin 64) :
    iblk1 V c 3 t (ix2 (0 : Fin 1) k) = V c main_v20 (ix2 (0 : Fin 1) k) := by
  obtain ⟨-, -, -, -, -, -, -, -, e0, e1, -⟩ := idx_facts t
  unfold iblk1
  show V c main_v20 (((cfg1.win 3).blk t).view.emb (ix2 (0 : Fin 1) k)) = _
  refine congrArg (V c main_v20) ?_
  funext a; apply Fin.ext
  match a with
  | ⟨0, _⟩ => show win1_3.index t (0 : Fin 2) * 1 + 1 * 0 = 0; omega
  | ⟨1, _⟩ => show win1_3.index t (1 : Fin 2) * 64 + 1 * k.val = k.val; omega

/-- The variance window's block at any point is the whole row. -/
theorem iblk_row4 (c : Dev nD) (t : Fin cfg1.N) (k : Fin 64) :
    iblk1 V c 4 t (ix2 (0 : Fin 1) k) = V c main_v24 (ix2 (0 : Fin 1) k) := by
  obtain ⟨-, -, -, -, -, -, -, -, -, -, e0, e1, -⟩ := idx_facts t
  unfold iblk1
  show V c main_v24 (((cfg1.win 4).blk t).view.emb (ix2 (0 : Fin 1) k)) = _
  refine congrArg (V c main_v24) ?_
  funext a; apply Fin.ext
  match a with
  | ⟨0, _⟩ => show win1_4.index t (0 : Fin 2) * 1 + 1 * 0 = 0; omega
  | ⟨1, _⟩ => show win1_4.index t (1 : Fin 2) * 64 + 1 * k.val = k.val; omega

/-- The second bias window's block at any point is the whole row. -/
theorem iblk_row6 (c : Dev nD) (t : Fin cfg1.N) (k : Fin 64) :
    iblk1 V c 6 t (ix2 (0 : Fin 1) k) = V c main_v15 (ix2 (0 : Fin 1) k) := by
  obtain ⟨-, -, -, -, -, -, -, -, -, -, -, -, -, -, e0, e1⟩ := idx_facts t
  unfold iblk1
  show V c main_v15 (((cfg1.win 6).blk t).view.emb (ix2 (0 : Fin 1) k)) = _
  refine congrArg (V c main_v15) ?_
  funext a; apply Fin.ext
  match a with
  | ⟨0, _⟩ => show win1_6.index t (0 : Fin 2) * 1 + 1 * 0 = 0; omega
  | ⟨1, _⟩ => show win1_6.index t (1 : Fin 2) * 64 + 1 * k.val = k.val; omega

/-- The second weight window's block at any point is the whole matrix. -/
theorem iblk_mat (c : Dev nD) (t : Fin cfg1.N) (k j : Fin 64) :
    iblk1 V c 5 t (ix2 k j) = V c main_arg6 (ix2 k j) := by
  obtain ⟨-, -, -, -, -, -, -, -, -, -, -, -, e0, e1, -⟩ := idx_facts t
  unfold iblk1
  show V c main_arg6 (((cfg1.win 5).blk t).view.emb (ix2 k j)) = _
  refine congrArg (V c main_arg6) ?_
  funext a; apply Fin.ext
  match a with
  | ⟨0, _⟩ => show win1_5.index t (0 : Fin 2) * 64 + 1 * k.val = k.val; omega
  | ⟨1, _⟩ => show win1_5.index t (1 : Fin 2) * 64 + 1 * j.val = j.val; omega

/-- What point t writes back is block t of the one function of the arrays the region finds. -/
theorem flushed_eq (c : Dev nD) (t : Fin cfg1.N) :
    (dat1 (F := Ideal) V c).flushed 7 t = ((cfg1.win 7).blk t).view.read (Elt Ideal)
      (fun idx => Cert.Gin.outRow (V c main_v18_0) (V c main_v16) (V c main_v17) (V c main_v20) (V c main_v24) (V c main_arg6) (V c main_v15) (idx 0) (idx 1)) := by
  show (cfg1.win 7).cut (grid1.coords t) ((dat1 V c).after 7 t) = _
  rw [after1_7]
  unfold out1_7
  rw [View.canon_unit_zero hz]
  simp only [View.ld_unit_zero (S := S5000x64) hz, View.ld_unit_zero (S := S1x64) hz, View.ld_unit_zero (S := S64x64) hz]
  funext y
  have hy0 : (y 0).val < 5000 := (y 0).isLt
  have hy1 : (y 1).val < 64 := (y 1).isLt
  have ht := t_lt t
  obtain ⟨-, -, e70, e71, -⟩ := idx_facts t
  have hx : (win1 7).xinj (grid1.coords t) y = ix2 (n0 := 5000) (n1 := 64) ⟨(y 0).val, hy0⟩ ⟨(y 1).val, hy1⟩ := by
    funext a
    match a with
    | ⟨0, _⟩ => rfl
    | ⟨1, _⟩ => rfl
  have he : ((cfg1.win 7).blk t).view.emb y
      = ix2 (n0 := 100000) (n1 := 64) ⟨t.val * 5000 + (y 0).val, by omega⟩ ⟨(y 1).val, hy1⟩ := by
    funext a; apply Fin.ext
    match a with
    | ⟨0, _⟩ => show win1_7.index t (0 : Fin 2) * 5000 + 1 * (y 0).val = t.val * 5000 + (y 0).val; omega
    | ⟨1, _⟩ => show win1_7.index t (1 : Fin 2) * 64 + 1 * (y 1).val = (y 1).val; omega
  show k1_pay1 (F := Ideal) _ _ _ _ _ _ _ ((win1 7).xinj (grid1.coords t) y)
    = (fun idx => Cert.Gin.outRow (V c main_v18_0) (V c main_v16) (V c main_v17) (V c main_v20) (V c main_v24) (V c main_arg6) (V c main_v15) (idx 0) (idx 1))
        (((cfg1.win 7).blk t).view.emb y)
  rw [hx, he, pay_apply]
  simp only [iblk_big, iblk_row1, iblk_row2, iblk_row3, iblk_row4, iblk_row6, iblk_mat]
  rfl

/-- An index of the array is in point t's block exactly when each coordinate is in the block's range on its axis. -/
theorem mem_blk (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v25).slice (win1_7.rect t)).set ↔ _
  rw [View.set_slice_whole, Rect.mem_set_unit]
  exact Iff.rfl

/-- The 20 blocks of 5000 rows tile the 100000 rows: row i is in the block of point i / 5000. -/
theorem cover (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hq : (i 0).val / 5000 < cfg1.N := by rw [show cfg1.N = 20 from N_1]; omega
  obtain ⟨-, -, e70, e71, -⟩ := idx_facts ⟨(i 0).val / 5000, hq⟩
  have e70' : win1_7.index ⟨(i 0).val / 5000, hq⟩ (0 : Fin 2) = (i 0).val / 5000 := e70
  refine ⟨⟨(i 0).val / 5000, hq⟩, flush1_7 _, ?_⟩
  rw [mem_blk]
  intro a
  match a with
  | ⟨0, _⟩ =>
    show win1_7.index ⟨(i 0).val / 5000, hq⟩ (0 : Fin 2) * 5000 ≤ (i 0).val
      ∧ (i 0).val < win1_7.index ⟨(i 0).val / 5000, hq⟩ (0 : Fin 2) * 5000 + 5000
    omega
  | ⟨1, _⟩ =>
    show win1_7.index ⟨(i 0).val / 5000, hq⟩ (1 : Fin 2) * 64 ≤ (i 1).val
      ∧ (i 1).val < win1_7.index ⟨(i 0).val / 5000, hq⟩ (1 : Fin 2) * 64 + 64
    omega

/-- The second region's output array after the region, as one function of the arrays the region finds. -/
theorem arrAt7 (c : Dev nD) :
    (dat1 (F := Ideal) V c).arrAt 7 cfg1.N
      = fun idx => Cert.Gin.outRow (V c main_v18_0) (V c main_v16) (V c main_v17) (V c main_v20) (V c main_v24) (V c main_arg6) (V c main_v15) (idx 0) (idx 1) :=
  (dat1 (F := Ideal) V c).arrAt_eq_of_cover 7 _ (fun t _ => flushed_eq V c t) (fun i => cover i)

end Cert.KernelIdeal.Val1

end
-- ==== Proof.LibFinite.lean ====
/-
  "Every entry is finite", read back from the printed test, for an array of any shape.

  The precondition tests an array by `all (|x| < +inf)`: the absolute value entry by entry, compared with the
  pattern of plus infinity, and the one-bit answers folded by `and` into a single bit. If that bit is one, every
  entry's comparison came out one, so `max x (-x)` is below the top element: `x` is neither infinity, that is, `x`
  is a coerced real.
-/
import Idealize.ShloMosaic.PureOps.Ideal
import Idealize.ShloMosaic.Lib.ValueIdx
import Idealize.ShloMosaic.Lib.ReduceAll

noncomputable section

namespace Cert.LibFinite

open Idealize.ShloMosaic Idealize.ShloMosaic.ValueIdx

/-- The pattern `0x7F800000` denotes the top element. -/
theorem ofBits_inf : Ideal.ofBits .f32 0x7F800000#32 = (⊤ : EReal) := by
  simp [Ideal.ofBits, Ideal.ieee]

/-- An extended real whose absolute value compares below plus infinity is a coerced real. -/
theorem real_of_abs_lt_inf (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton (⟨0, ![]⟩ : Shape).Idx := ⟨fun a b => funext fun d => d.elim0⟩

/-- If the test `all (|x| < +inf)` of an array answers one, every entry of the array is a coerced real. -/
theorem real_of_all {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] bc (constant ⟨0, ![]⟩ .f32 0x7F800000#32)))
      (constantI ⟨0, ![]⟩ 1 1#1) h hu ix0 = 1#1) (i : s.Idx) : ∃ r : ℝ, x i = (r : EReal) :=
  real_of_abs_lt_inf (x i) (Host.reduce_andi_all _ _ h hu ix0 e i)

end Cert.LibFinite

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.Finite.lean ====
/-
  Finiteness of the float inputs, and of the neighbour sums built from them.

  The precondition tests each float input by all (|x| < +inf) and joins the one-bit answers by "and". When the
  joined bit is one, each array's own test answered one, so every entry of that array is a coerced real. A table
  whose entries are coerced reals, into which rows gathered from an array of coerced reals are added, again has
  coerced-real entries: each entry is its old value plus a finite sum of gathered entries, and a finite sum of
  coerced reals is a coerced real.
-/
import proofs.«108197_j55783035240590_1_alg».proof.Pre_finite_inputs
import proofs.«108197_j55783035240590_1_alg».proof.Proof.Gen.Pre_finite_inputs
import proofs.«108197_j55783035240590_1_alg».proof.Proof.Spec
import proofs.«108197_j55783035240590_1_alg».proof.Proof.LibFinite
import proofs.«108197_j55783035240590_1_alg».proof.Proof.LibScatterGather2
import proofs.«108197_j55783035240590_1_alg».proof.Proof.LibIdealReal
import Idealize.ShloMosaic.Lib.ReduceAll

noncomputable section

namespace Cert.Gin.Finite

open Idealize.ShloMosaic Idealize.ShloMosaic.ValueIdx
open Cert.LibFinite Cert.LibScatterGather2 Cert.LibIdealReal

/-- x (argument 0), W1 (argument 2) and b1 (argument 3) have coerced-real entries when the precondition answers one. -/
theorem reals_of_pre [Cert.Pre_finite_inputs.Facts]
    (x : FVec Ideal Cert.Pre_finite_inputs.S100000x64 .f32) (ei : IVec Cert.Pre_finite_inputs.S2x1200000 32)
    (W1 : FVec Ideal Cert.Pre_finite_inputs.S64x64 .f32) (b1 ga be : FVec Ideal Cert.Pre_finite_inputs.S64 .f32)
    (W2 : FVec Ideal Cert.Pre_finite_inputs.S64x64 .f32) (b2 : FVec Ideal Cert.Pre_finite_inputs.S64 .f32)
    (h : Cert.Pre_finite_inputs.fn (F := Ideal) x ei W1 b1 ga be W2 b2 = fun _ => 1#1) :
    (∀ i, ∃ r : ℝ, x i = (r : EReal)) ∧ (∀ i, ∃ r : ℝ, W1 i = (r : EReal)) ∧ (∀ i, ∃ r : ℝ, b1 i = (r : EReal)) := by
  have h0 := congrFun h ValueIdx.ix0
  dsimp only [Cert.Pre_finite_inputs.fn, Cert.Pre_finite_inputs.fn_part1, andi] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, hb1⟩ := IntOp.andi_eq_one.1 h4
  obtain ⟨hx, hW1⟩ := IntOp.andi_eq_one.1 h5
  exact ⟨real_of_all x _ _ _ hx, real_of_all W1 _ _ _ hW1, real_of_all b1 _ _ _ hb1⟩

/-- Rows of a real array gathered by any index words and added into an all-real table give an all-real table. -/
theorem scatter_gather_real {M : ℕ} (gd : GatherDims ⟨2, ![100000, 64]⟩ ⟨2, ![M, 1]⟩ ⟨2, ![M, 64]⟩)
    (sd : ScatterDims ⟨2, ![100000, 64]⟩ ⟨2, ![M, 1]⟩ ⟨2, ![M, 64]⟩)
    (hoff : gd.offsetDims = [1]) (hcoll : gd.collapsedSliceDims = [0]) (hob : gd.operandBatchingDims = [])
    (hsim : gd.startIndexMap = [0]) (hgi : gd.indexVectorDim = 1)
    (huw : sd.updateWindowDims = [1]) (hiw : sd.insertedWindowDims = [0]) (hsd : sd.scatterDimsToOperandDims = [0])
    (hsi : sd.indexVectorDim = 1)
    (x z : FVec Ideal ⟨2, ![100000, 64]⟩ .f32) (i1 i2 : IVec ⟨2, ![M, 1]⟩ 32)
    (hx : ∀ i, ∃ r : ℝ, x i = (r : EReal)) (hz : ∀ i, ∃ r : ℝ, z i = (r : EReal)) :
    ∀ i, ∃ r : ℝ, Host.scatterAdd (F := Ideal) sd z i2 (Host.gather gd x i1) i = (r : EReal) := by
  intro i
  obtain ⟨u, j, rfl⟩ : ∃ (u : Fin 100000) (j : Fin 64), i = ix2 u j := ⟨i 0, i 1, eq_ix2 i⟩
  rw [scatterAdd_apply sd huw hiw hsd hsi z i2 (Host.gather gd x i1) u j]
  obtain ⟨rz, hrz⟩ := hz (ix2 u j)
  -- every gathered entry is an entry of x, at the row its word names once clamped
  have hg : ∀ e : Fin M, ∃ r : ℝ, Host.gather gd x i1 (ix2 e j) = (r : EReal) := by
    intro e
    rw [gather_apply_clamp gd hoff hcoll hob hsim hgi x i1 e j (by norm_num)]
    exact hx _
  choose f hf using hg
  refine ⟨rz + ∑ e ∈ Finset.univ.filter (fun e : Fin M => (i2 (ix2 e (0 : Fin 1))).toInt = (u.val : ℤ)), f e, ?_⟩
  rw [hrz, sum_of_eq _ _ f (fun e _ => hf e), add_coe]

end Cert.Gin.Finite

end
-- ==== Proof.LibBroadcastInDim.lean ====
/-
  `broadcast_in_dim` between vectors, columns, rows and matrices, read at an index (any sizes, any element type).

  * an `[a]` vector placed along axis 0 of `[a, 1]`: entry `(i, u)` is the vector's entry `i`;
  * an `[a, 1]` column spread to `[a, b]`: entry `(i, j)` is the column's entry `(i, 0)`;
  * a `[b]` vector placed along axis 1 of `[1, b]`: entry `(u, j)` is the vector's entry `j`;
  * a `[1, b]` row spread to `[a, b]`: entry `(i, j)` is the row's entry `(0, j)`;
  * a scalar spread to any shape: every entry is the scalar.
  In each case the operand index keeps the coordinates on the axes the operand has and is zero on a unit axis
  (an axis of extent one has only the coordinate zero, so the two readings of such an axis agree).
-/
import Idealize.ShloMosaic.Lib.ValueIdx
import Idealize.ShloMosaic.Lib.Pipeline.Value

namespace Cert.LibBroadcastInDim

open Idealize.ShloMosaic Idealize.ShloMosaic.ValueIdx

variable {α : Type}

/-- An `[a]` vector placed along axis 0 of `[a, 1]` reads, at `(i, u)`, the vector at `i`. -/
theorem vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column spread to `[a, b]` reads, at `(i, j)`, the column at `(i, 0)`. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A `[b]` vector placed along axis 1 of `[1, b]` reads, at `(u, j)`, the vector at `j`. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ (![1] : Fin 1 → Fin 2) h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A `[1, b]` row spread to `[a, b]` reads, at `(i, j)`, the row at `(0, j)`. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread to any shape reads the scalar at every index. -/
theorem scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply _ h x j k fun ax => ax.elim0

end Cert.LibBroadcastInDim
-- ==== Proof.KIValue.lean ====
/-
  The kernel program's result as one function of its eight arguments, at the exact-real reading.

  The first host stretch builds the neighbour sums (the source rows of x gathered along the edge list and added into
  a zero table at the target rows) and reshapes the four feature vectors to rows [1, 64]; the first region leaves h,
  its column sums and the column sums of its squares; the second host stretch divides the two rows of sums by the
  number of nodes and forms the variance row as the mean of the squares less the square of the mean; the second
  region leaves the result.  Reading each buffer at the boundary where it was last written, and each row at (0, k),
  gives the result as the clipped second affine map of the clipped, normalised h, with the kernel's variance.
-/
import proofs.«108197_j55783035240590_1_alg».proof.Proof.KIRun
import proofs.«108197_j55783035240590_1_alg».proof.Proof.KIVal0
import proofs.«108197_j55783035240590_1_alg».proof.Proof.KIVal0s
import proofs.«108197_j55783035240590_1_alg».proof.Proof.KIVal1
import proofs.«108197_j55783035240590_1_alg».proof.Proof.Spec
import proofs.«108197_j55783035240590_1_alg».proof.Proof.Finite
import proofs.«108197_j55783035240590_1_alg».proof.Proof.LibBroadcastInDim
import proofs.«108197_j55783035240590_1_alg».proof.Proof.LibIdealReal
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Value

open Cert.KernelIdeal Cert.KernelIdeal.Gen
open Idealize.ShloMosaic Idealize.ShloMosaic.TcCoe Idealize.ShloMosaic.ValueIdx

/-- The neighbour sums as a function of x and the edge list: the composed term of operations main_v0 … main_v13.
    Row 0 of the edge list names the sources and row 1 the targets; a negative source word is wrapped by adding
    the number of nodes; the source rows of x are gathered and added into a zero table at the target rows. -/
def agg (x : FVec Ideal S100000x64 .f32) (ei : IVec S2x1200000 32) : FVec Ideal S100000x64 .f32 :=
  have v0 : IVec S1x1200000 32 := extractStridedSlice S1x1200000 ![0, 0] ei Facts₀.slices_S2x1200000_S1x1200000_0_0
  have v1 : IVec S1200000 32 := shapeCast S1200000 v0 Facts₀.shapeCasts_S1x1200000_S1200000
  have v2 : IVec S1x1200000 32 := extractStridedSlice S1x1200000 ![1, 0] ei Facts₀.slices_S2x1200000_S1x1200000_1_0
  have v3 : IVec S1200000 32 := shapeCast S1200000 v2 Facts₀.shapeCasts_S1x1200000_S1200000
  have c : IVec S_ 32 := constantI S_ 32 0#32
  have v4 : IVec S1200000 32 := broadcastInDim S1200000 ![] Facts₀.bcast_S_S1200000 c
  have v5 : IVec S1200000 1 := cmpi .slt v1 v4
  have c_0 : IVec S_ 32 := constantI S_ 32 100000#32
  have v6 : IVec S1200000 32 := broadcastInDim S1200000 ![] Facts₀.bcast_S_S1200000 c_0
  have v7 : IVec S1200000 32 := addi v1 v6
  have v8 : IVec S1200000 32 := select v5 v7 v1
  have v9 : IVec S1200000x1 32 := broadcastInDim S1200000x1 ![0] Facts₀.bcast_S1200000_S1200000x1_0 v8
  have v10 : FVec Ideal S1200000x64 .f32 := Host.gather gather_S100000x64_S1200000x1_S1200000x64_1_0_n_n_0_1_164 x v9
  have cst : FVec Ideal S_ .f32 := constant (F := Ideal) S_ .f32 0x00000000#32
  have v11 : FVec Ideal S100000x64 .f32 := broadcastInDim S100000x64 ![] Facts₀.bcast_S_S100000x64 cst
  have v12 : IVec S1200000x1 32 := broadcastInDim S1200000x1 ![0] Facts₀.bcast_S1200000_S1200000x1_0 v3
  Host.scatterAdd scatter_S100000x64_S1200000x1_S1200000x64_1_0_0_1 v11 v12 v10

/-- The neighbour sums of an array of coerced reals are coerced reals: the zero table's entries are the real zero,
    and rows of x gathered by any words and added into it stay real. -/
theorem agg_real (x : FVec Ideal S100000x64 .f32) (ei : IVec S2x1200000 32) (hx : ∀ i, ∃ r : ℝ, x i = (r : EReal)) :
    ∀ i, ∃ r : ℝ, agg x ei i = (r : EReal) := by
  unfold agg
  refine Cert.Gin.Finite.scatter_gather_real _ _ rfl rfl rfl rfl rfl rfl rfl rfl rfl x _ _ _ hx fun i => ⟨0, ?_⟩
  rw [Cert.LibBroadcastInDim.scalar_apply _ _ i ix0]
  exact Cert.LibIdealReal.ofBits_zero_coe

/-! ## The kernel's row forms against the plain forms -/

/-- The first affine map with the bias as a row [1, 64] whose entry (0, k) is the vector's entry k. -/
theorem hRow_of {x ag : Cert.Gin.SN.Idx → EReal} {W1 : Cert.Gin.SD.Idx → EReal} {b1r : Cert.Gin.SR.Idx → EReal}
    {b1 : Cert.Gin.SV.Idx → EReal} (hb : ∀ k, b1r (ix2 (0 : Fin 1) k) = b1 (ix1 k)) (i : Fin 100000) (j : Fin 64) :
    Cert.Gin.hRow x ag W1 b1r i j = Cert.Gin.hval x ag W1 b1 i j := by
  unfold Cert.Gin.hRow Cert.Gin.hval
  rw [hb]

/-- Everything after the statistics: h read as an array, and each per-feature row read at (0, k). -/
theorem outRow_of {h : Cert.Gin.SN.Idx → EReal} {ga be mean var b2 : Cert.Gin.SR.Idx → EReal} {W2 : Cert.Gin.SD.Idx → EReal}
    {H : Fin 100000 → Fin 64 → EReal} {M V : Fin 64 → EReal} {GA BE B2 : Cert.Gin.SV.Idx → EReal}
    (hh : ∀ i k, h (ix2 i k) = H i k) (hm : ∀ k, mean (ix2 (0 : Fin 1) k) = M k) (hv : ∀ k, var (ix2 (0 : Fin 1) k) = V k)
    (hga : ∀ k, ga (ix2 (0 : Fin 1) k) = GA (ix1 k)) (hbe : ∀ k, be (ix2 (0 : Fin 1) k) = BE (ix1 k))
    (hb2 : ∀ k, b2 (ix2 (0 : Fin 1) k) = B2 (ix1 k)) (i : Fin 100000) (j : Fin 64) :
    Cert.Gin.outRow h ga be mean var W2 b2 i j = Cert.Gin.outOf H M V GA BE W2 B2 i j := by
  unfold Cert.Gin.outRow Cert.Gin.outOf
  simp only [hh, hm, hv, hga, hbe, hb2]

/-! ## The buffers at the first region's entry -/

variable (m : (ℓ : Loc nD τ sig) → Buf (Elt Ideal) ℓ) (c : Dev nD)

/-- x and W1 are written by no host operation. -/
theorem V1_arg0 : Run.V1 (F := Ideal) m c main_arg0 = m ((c.tc : Thread nD τ).loc main_arg0) :=
  StableHlo.after_of_writes_sub hostOps0 _ hostOps0_writes (r := main_arg0) (by decide)
theorem V1_arg2 : Run.V1 (F := Ideal) m c main_arg2 = m ((c.tc : Thread nD τ).loc main_arg2) :=
  StableHlo.after_of_writes_sub hostOps0 _ hostOps0_writes (r := main_arg2) (by decide)

/-- The neighbour sums the first host stretch leaves. -/
theorem V1_v13 : (Run.V1 (F := Ideal) m c main_v13 : FVec Ideal S100000x64 .f32)
    = agg (m ((c.tc : Thread nD τ).loc main_arg0)) (m ((c.tc : Thread nD τ).loc main_arg1)) := by
  show StableHlo.after hostOps0 (Run.W0 m c) (Proc.devRef .tc main_v13) = _
  after_results
  rfl

/-- The four vectors of 64 features, each reshaped to a row [1, 64]. -/
theorem V1_v14 : (Run.V1 (F := Ideal) m c main_v14 : FVec Ideal S1x64 .f32)
    = shapeCast S1x64 (m ((c.tc : Thread nD τ).loc main_arg3) : FVec Ideal S64 .f32) Facts₀.shapeCasts_S64_S1x64 := by
  show StableHlo.after hostOps0 (Run.W0 m c) (Proc.devRef .tc main_v14) = _
  after_results
  rfl
theorem V1_v15 : (Run.V1 (F := Ideal) m c main_v15 : FVec Ideal S1x64 .f32)
    = shapeCast S1x64 (m ((c.tc : Thread nD τ).loc main_arg7) : FVec Ideal S64 .f32) Facts₀.shapeCasts_S64_S1x64 := by
  show StableHlo.after hostOps0 (Run.W0 m c) (Proc.devRef .tc main_v15) = _
  after_results
  rfl
theorem V1_v16 : (Run.V1 (F := Ideal) m c main_v16 : FVec Ideal S1x64 .f32)
    = shapeCast S1x64 (m ((c.tc : Thread nD τ).loc main_arg4) : FVec Ideal S64 .f32) Facts₀.shapeCasts_S64_S1x64 := by
  show StableHlo.after hostOps0 (Run.W0 m c) (Proc.devRef .tc main_v16) = _
  after_results
  rfl
theorem V1_v17 : (Run.V1 (F := Ideal) m c main_v17 : FVec Ideal S1x64 .f32)
    = shapeCast S1x64 (m ((c.tc : Thread nD τ).loc main_arg5) : FVec Ideal S64 .f32) Facts₀.shapeCasts_S64_S1x64 := by
  show StableHlo.after hostOps0 (Run.W0 m c) (Proc.devRef .tc main_v17) = _
  after_results
  rfl

/-! ## The buffers at the second region's entry -/

/-- What the second host stretch and the first region do not write is as at the first region's entry. -/
theorem V3_v15 : Run.V3 (F := Ideal) m c main_v15 = Run.V1 m c main_v15 :=
  (StableHlo.after_of_writes_sub hostOps1 _ hostOps1_writes (r := main_v15) (by decide)).trans (Run.W2_of_ne m c main_v15 (by decide))
theorem V3_v16 : Run.V3 (F := Ideal) m c main_v16 = Run.V1 m c main_v16 :=
  (StableHlo.after_of_writes_sub hostOps1 _ hostOps1_writes (r := main_v16) (by decide)).trans (Run.W2_of_ne m c main_v16 (by decide))
theorem V3_v17 : Run.V3 (F := Ideal) m c main_v17 = Run.V1 m c main_v17 :=
  (StableHlo.after_of_writes_sub hostOps1 _ hostOps1_writes (r := main_v17) (by decide)).trans (Run.W2_of_ne m c main_v17 (by decide))
/-- W2 is written by nothing before the second region. -/
theorem V3_arg6 : Run.V3 (F := Ideal) m c main_arg6 = m ((c.tc : Thread nD τ).loc main_arg6) :=
  (StableHlo.after_of_writes_sub hostOps1 _ hostOps1_writes (r := main_arg6) (by decide)).trans
    ((Run.W2_of_ne m c main_arg6 (by decide)).trans
      (StableHlo.after_of_writes_sub hostOps0 _ hostOps0_writes (r := main_arg6) (by decide)))

/-- h as the first region leaves it. -/
theorem V3_v18_0 : Run.V3 (F := Ideal) m c main_v18_0 = fun idx => Val0.hOf (Run.V1 m) c (idx 0) (idx 1) :=
  (StableHlo.after_of_writes_sub hostOps1 _ hostOps1_writes (r := main_v18_0) (by decide)).trans
    ((Run.W2_arr m c 4).trans (Val0.arrAt4 (Run.V1 m) c))
/-- The two rows of column sums as the first region leaves them. -/
theorem W2_v18_1 : Run.W2 (F := Ideal) m c (Proc.devRef .tc main_v18_1) = fun idx => ∑ i : Fin 100000, Val0.hOf (Run.V1 m) c i (idx 1) :=
  (Run.W2_arr m c 5).trans (Val0s.arrAt5 (Run.V1 m) c)
theorem W2_v18_2 : Run.W2 (F := Ideal) m c (Proc.devRef .tc main_v18_2)
    = fun idx => ∑ i : Fin 100000, Val0.hOf (Run.V1 m) c i (idx 1) * Val0.hOf (Run.V1 m) c i (idx 1) :=
  (Run.W2_arr m c 6).trans (Val0s.arrAt6 (Run.V1 m) c)

/-- The mean row: the column sums over the number of nodes. -/
theorem V3_v20 : (Run.V3 (F := Ideal) m c main_v20 : FVec Ideal S1x64 .f32)
    = Host.divf (Run.W2 (F := Ideal) m c (Proc.devRef .tc main_v18_1) : FVec Ideal S1x64 .f32)
        (broadcastInDim S1x64 ![] Facts₀.bcast_S_S1x64 (constant (F := Ideal) S_ .f32 0x47C35000#32)) := by
  show StableHlo.after hostOps1 (Run.W2 m c) (Proc.devRef .tc main_v20) = _
  after_results
/-- The variance row: the mean of the squares less the square of the mean. -/
theorem V3_v24 : (Run.V3 (F := Ideal) m c main_v24 : FVec Ideal S1x64 .f32)
    = subf (Host.divf (Run.W2 (F := Ideal) m c (Proc.devRef .tc main_v18_2) : FVec Ideal S1x64 .f32)
              (broadcastInDim S1x64 ![] Facts₀.bcast_S_S1x64 (constant (F := Ideal) S_ .f32 0x47C35000#32)))
        (mulf (Host.divf (Run.W2 (F := Ideal) m c (Proc.devRef .tc main_v18_1) : FVec Ideal S1x64 .f32)
                (broadcastInDim S1x64 ![] Facts₀.bcast_S_S1x64 (constant (F := Ideal) S_ .f32 0x47C35000#32)))
              (Host.divf (Run.W2 (F := Ideal) m c (Proc.devRef .tc main_v18_1) : FVec Ideal S1x64 .f32)
                (broadcastInDim S1x64 ![] Facts₀.bcast_S_S1x64 (constant (F := Ideal) S_ .f32 0x47C35000#32)))) := by
  show StableHlo.after hostOps1 (Run.W2 m c) (Proc.devRef .tc main_v24) = _
  after_results

/-! ## The statistics rows read at (0, k) -/

/-- The scalar 100000.0 spread to a row reads the literal at every index. -/
theorem cN_apply (idx : S1x64.Idx) :
    broadcastInDim S1x64 ![] Facts₀.bcast_S_S1x64 (constant (F := Ideal) S_ .f32 0x47C35000#32) idx = Cert.Gin.cN :=
  Cert.LibBroadcastInDim.scalar_apply _ _ idx ix0

/-- A row of column sums over the number of nodes reads, at (0, k), the mean of feature k. -/
theorem mean_of {s1 : FVec Ideal S1x64 .f32} {Hf : Fin 100000 → Fin 64 → EReal}
    (hs1 : ∀ k, s1 (ix2 (0 : Fin 1) k) = ∑ i : Fin 100000, Hf i k) (k : Fin 64) :
    Host.divf s1 (broadcastInDim S1x64 ![] Facts₀.bcast_S_S1x64 (constant (F := Ideal) S_ .f32 0x47C35000#32)) (ix2 (0 : Fin 1) k)
      = Cert.Gin.meanOf Hf k := by
  show Ideal.div (s1 (ix2 (0 : Fin 1) k))
      (broadcastInDim S1x64 ![] Facts₀.bcast_S_S1x64 (constant (F := Ideal) S_ .f32 0x47C35000#32) (ix2 (0 : Fin 1) k))
    = Ideal.div (∑ i : Fin 100000, Hf i k) Cert.Gin.cN
  rw [hs1, cN_apply]

/-- The row of column sums of squares over the number of nodes, less the square of the mean row, reads, at (0, k),
    the kernel's variance of feature k. -/
theorem var_of {s1 s2 : FVec Ideal S1x64 .f32} {Hf : Fin 100000 → Fin 64 → EReal}
    (hs1 : ∀ k, s1 (ix2 (0 : Fin 1) k) = ∑ i : Fin 100000, Hf i k)
    (hs2 : ∀ k, s2 (ix2 (0 : Fin 1) k) = ∑ i : Fin 100000, Hf i k * Hf i k) (k : Fin 64) :
    subf (Host.divf s2 (broadcastInDim S1x64 ![] Facts₀.bcast_S_S1x64 (constant (F := Ideal) S_ .f32 0x47C35000#32)))
        (mulf (Host.divf s1 (broadcastInDim S1x64 ![] Facts₀.bcast_S_S1x64 (constant (F := Ideal) S_ .f32 0x47C35000#32)))
              (Host.divf s1 (broadcastInDim S1x64 ![] Facts₀.bcast_S_S1x64 (constant (F := Ideal) S_ .f32 0x47C35000#32))))
        (ix2 (0 : Fin 1) k)
      = Cert.Gin.varK Hf k := by
  show Ideal.div (s2 (ix2 (0 : Fin 1) k))
        (broadcastInDim S1x64 ![] Facts₀.bcast_S_S1x64 (constant (F := Ideal) S_ .f32 0x47C35000#32) (ix2 (0 : Fin 1) k))
      - Ideal.div (s1 (ix2 (0 : Fin 1) k))
          (broadcastInDim S1x64 ![] Facts₀.bcast_S_S1x64 (constant (F := Ideal) S_ .f32 0x47C35000#32) (ix2 (0 : Fin 1) k))
        * Ideal.div (s1 (ix2 (0 : Fin 1) k))
          (broadcastInDim S1x64 ![] Facts₀.bcast_S_S1x64 (constant (F := Ideal) S_ .f32 0x47C35000#32) (ix2 (0 : Fin 1) k))
    = Ideal.div (∑ i : Fin 100000, Hf i k * Hf i k) Cert.Gin.cN
      - Ideal.div (∑ i : Fin 100000, Hf i k) Cert.Gin.cN * Ideal.div (∑ i : Fin 100000, Hf i k) Cert.Gin.cN
  rw [hs1, hs2, cN_apply]

/-! ## The result -/

/-- h, as the first region leaves it, is the first affine map of x plus the neighbour sums. -/
theorem hOf_eq : Val0.hOf (Run.V1 m) c
    = Cert.Gin.hval (m ((c.tc : Thread nD τ).loc main_arg0))
        (agg (m ((c.tc : Thread nD τ).loc main_arg0)) (m ((c.tc : Thread nD τ).loc main_arg1)))
        (m ((c.tc : Thread nD τ).loc main_arg2)) (m ((c.tc : Thread nD τ).loc main_arg3)) := by
  funext i k
  show Cert.Gin.hRow (Run.V1 m c main_arg0) (Run.V1 m c main_v13) (Run.V1 m c main_arg2) (Run.V1 m c main_v14) i k = _
  rw [V1_arg0 m c, V1_v13 m c, V1_arg2 m c, V1_v14 m c]
  exact hRow_of (fun k => shapeCast_a_1a_apply _ _ (0 : Fin 1) k) i k

/-- The result array at the program's end, as one function of the eight launched arguments. -/
theorem out_eq (m : (ℓ : Loc nD τ sig) → Buf (Elt Ideal) ℓ) (c : Dev nD) :
    Cert.KernelIdeal.Run.W4 (F := Ideal) m c (Proc.devRef .tc main_v25)
      = Cert.Gin.toArr (Cert.Gin.outOf
          (Cert.Gin.hval (m ((c.tc : Thread nD τ).loc main_arg0))
            (agg (m ((c.tc : Thread nD τ).loc main_arg0)) (m ((c.tc : Thread nD τ).loc main_arg1)))
            (m ((c.tc : Thread nD τ).loc main_arg2)) (m ((c.tc : Thread nD τ).loc main_arg3)))
          (Cert.Gin.meanOf (Cert.Gin.hval (m ((c.tc : Thread nD τ).loc main_arg0))
            (agg (m ((c.tc : Thread nD τ).loc main_arg0)) (m ((c.tc : Thread nD τ).loc main_arg1)))
            (m ((c.tc : Thread nD τ).loc main_arg2)) (m ((c.tc : Thread nD τ).loc main_arg3))))
          (Cert.Gin.varK (Cert.Gin.hval (m ((c.tc : Thread nD τ).loc main_arg0))
            (agg (m ((c.tc : Thread nD τ).loc main_arg0)) (m ((c.tc : Thread nD τ).loc main_arg1)))
            (m ((c.tc : Thread nD τ).loc main_arg2)) (m ((c.tc : Thread nD τ).loc main_arg3))))
          (m ((c.tc : Thread nD τ).loc main_arg4)) (m ((c.tc : Thread nD τ).loc main_arg5))
          (m ((c.tc : Thread nD τ).loc main_arg6)) (m ((c.tc : Thread nD τ).loc main_arg7))) := by
  refine ((Run.W4_arr m c 7).trans (Val1.arrAt7 (Run.V3 m) c)).trans ?_
  funext idx
  show Cert.Gin.outRow (Run.V3 m c main_v18_0) (Run.V3 m c main_v16) (Run.V3 m c main_v17) (Run.V3 m c main_v20)
      (Run.V3 m c main_v24) (Run.V3 m c main_arg6) (Run.V3 m c main_v15) (idx 0) (idx 1) = _
  rw [V3_arg6 m c]
  refine outRow_of (fun i k => ?_) (fun k => ?_) (fun k => ?_) (fun k => ?_) (fun k => ?_) (fun k => ?_) (idx 0) (idx 1)
  · exact (congrFun (V3_v18_0 m c) (ix2 i k)).trans (congrFun (congrFun (hOf_eq m c) i) k)
  · refine (congrFun (V3_v20 m c) (ix2 (0 : Fin 1) k)).trans (mean_of (fun k => ?_) k)
    rw [W2_v18_1 m c, hOf_eq m c]; rfl
  · refine (congrFun (V3_v24 m c) (ix2 (0 : Fin 1) k)).trans (var_of (fun k => ?_) (fun k => ?_) k)
    · rw [W2_v18_1 m c, hOf_eq m c]; rfl
    · rw [W2_v18_2 m c, hOf_eq m c]; rfl
  · exact (congrFun ((V3_v16 m c).trans (V1_v16 m c)) (ix2 (0 : Fin 1) k)).trans (shapeCast_a_1a_apply _ _ (0 : Fin 1) k)
  · exact (congrFun ((V3_v17 m c).trans (V1_v17 m c)) (ix2 (0 : Fin 1) k)).trans (shapeCast_a_1a_apply _ _ (0 : Fin 1) k)
  · exact (congrFun ((V3_v15 m c).trans (V1_v15 m c)) (ix2 (0 : Fin 1) k)).trans (shapeCast_a_1a_apply _ _ (0 : Fin 1) k)

end Cert.KernelIdeal.Value

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.RefValueA.lean ====
/-
  The reference program's first half read at the exact-real instance: the neighbour sums, h = (x + agg) · W1 + b1,
  the batch mean of h and the batch variance E[(h − E[h])²], each as a function of the argument arrays.
-/
import proofs.«108197_j55783035240590_1_alg».proof.Proof.RefRun
import proofs.«108197_j55783035240590_1_alg».proof.Proof.Spec
import proofs.«108197_j55783035240590_1_alg».proof.Proof.LibPlainDot
import proofs.«108197_j55783035240590_1_alg».proof.Proof.LibBroadcastInDim
import proofs.«108197_j55783035240590_1_alg».proof.Proof.LibIdealReal
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Idealize.ShloMosaic Idealize.ShloMosaic.TcCoe Idealize.SL.Sem Idealize.ShloMosaic.StableHlo
open Idealize.ShloMosaic.ValueIdx
open Facts₀ Facts

variable [Facts]

/-- The contents of buffer `b` on core `c` when the reference's operations have all run from the launch memory `m`. -/
abbrev A (m : (ℓ : Loc nD τ sig) → Buf (Elt Ideal) ℓ) (c : Dev nD) (b : Ref sig .tc) : Buf (Elt Ideal) ((c.tc : Thread nD τ).loc b) :=
  after (RefRun.ops (F := Ideal)) (launchContents m c) (Proc.devRef .tc b)

/-! ## Every operation's equation, in the contents the line ends at

One per buffer the line writes: its final contents are its operation's function of its operands' FINAL contents
(single assignment: nothing later rewrites an operand). Read from a buffer backwards they give its contents, stage by
stage, down to the arguments, which `RefRun.arg_eq` leaves at the launch contents. The fold itself is kept closed
here: no equation below looks inside it. -/

attribute [local irreducible] StableHlo.after

namespace Stage

open RefRun

variable {F : FTy → Type} [FloatOps F]

/-- In the contents the line ends at, every operation's buffers hold its value at those contents: stated over the
    whole line, then stretch by stretch. -/
theorem eqs (V : Valuation τ sig (Elt F)) :
    (ops (F := F)).Forall fun op => ∀ b ∈ op.writes, after (ops (F := F)) V b = op.result (after (ops (F := F)) V) b :=
  List.forall_iff_forall_mem.mpr (staged.after_eq V)
theorem eqsA (V : Valuation τ sig (Elt F)) :
    (opsA (F := F)).Forall fun op => ∀ b ∈ op.writes, after (ops (F := F)) V b = op.result (after (ops (F := F)) V) b :=
  (List.forall_append.mp (eqs V)).1
theorem eqsB (V : Valuation τ sig (Elt F)) :
    (opsB (F := F)).Forall fun op => ∀ b ∈ op.writes, after (ops (F := F)) V b = op.result (after (ops (F := F)) V) b :=
  (List.forall_append.mp (List.forall_append.mp (eqs V)).2).1
theorem eqsC (V : Valuation τ sig (Elt F)) :
    (opsC (F := F)).Forall fun op => ∀ b ∈ op.writes, after (ops (F := F)) V b = op.result (after (ops (F := F)) V) b :=
  (List.forall_append.mp (List.forall_append.mp (eqs V)).2).2

/-- From a property of every element of a list, the property of the head of one of its suffixes. -/
theorem head_of_drop {α : Type} {P : α → Prop} : ∀ {L : List α}, L.Forall P → ∀ (j : ℕ) {a : α} {l : List α}, L.drop j = a :: l → P a
  | [], _, j, a, l, e => by simp at e
  | x :: L, h, 0, a, l, e => by
    rw [List.drop_zero] at e
    obtain ⟨rfl, rfl⟩ := List.cons.inj e
    exact ((List.forall_cons _ _ _).mp h).1
  | x :: L, h, j + 1, a, l, e => head_of_drop ((List.forall_cons _ _ _).mp h).2 j (by simpa using e)

theorem after_v0 (V : Valuation τ sig (Elt F)) :
    after (ops (F := F)) V (Proc.devRef .tc main_v0) = extractStridedSlice S1x1200000 ![0, 0] (after ops V (Proc.devRef .tc main_arg1)) slices_S2x1200000_S1x1200000_0_0 :=
  by
  have h := head_of_drop (eqsA V) 0 rfl
  exact (h _ (Finset.mem_singleton_self _)).trans (unary_result main_arg1 main_v0 _ _ _ _)

theorem after_v1 (V : Valuation τ sig (Elt F)) :
    after (ops (F := F)) V (Proc.devRef .tc main_v1) = shapeCast S1200000 (after ops V (Proc.devRef .tc main_v0)) shapeCasts_S1x1200000_S1200000 :=
  by
  have h := head_of_drop (eqsA V) 1 rfl
  exact (h _ (Finset.mem_singleton_self _)).trans (reshape_result main_v0 main_v1 _ _ _ _ _)

theorem after_v2 (V : Valuation τ sig (Elt F)) :
    after (ops (F := F)) V (Proc.devRef .tc main_v2) = extractStridedSlice S1x1200000 ![1, 0] (after ops V (Proc.devRef .tc main_arg1)) slices_S2x1200000_S1x1200000_1_0 :=
  by
  have h := head_of_drop (eqsA V) 2 rfl
  exact (h _ (Finset.mem_singleton_self _)).trans (unary_result main_arg1 main_v2 _ _ _ _)

theorem after_v3 (V : Valuation τ sig (Elt F)) :
    after (ops (F := F)) V (Proc.devRef .tc main_v3) = shapeCast S1200000 (after ops V (Proc.devRef .tc main_v2)) shapeCasts_S1x1200000_S1200000 :=
  by
  have h := head_of_drop (eqsA V) 3 rfl
  exact (h _ (Finset.mem_singleton_self _)).trans (reshape_result main_v2 main_v3 _ _ _ _ _)

theorem after_c (V : Valuation τ sig (Elt F)) :
    after (ops (F := F)) V (Proc.devRef .tc main_c) = constantI S_ 32 0#32 :=
  by
  have h := head_of_drop (eqsA V) 4 rfl
  exact (h _ (Finset.mem_singleton_self _)).trans (nullary_result main_c _ _ _)

theorem after_v4 (V : Valuation τ sig (Elt F)) :
    after (ops (F := F)) V (Proc.devRef .tc main_v4) = broadcastInDim S1200000 ![] bcast_S_S1200000 (after ops V (Proc.devRef .tc main_c)) :=
  by
  have h := head_of_drop (eqsA V) 5 rfl
  exact (h _ (Finset.mem_singleton_self _)).trans (unary_result main_c main_v4 _ _ _ _)

theorem after_v5 (V : Valuation τ sig (Elt F)) :
    after (ops (F := F)) V (Proc.devRef .tc main_v5) = cmpi .slt (after ops V (Proc.devRef .tc main_v1)) (after ops V (Proc.devRef .tc main_v4)) :=
  by
  have h := head_of_drop (eqsA V) 6 rfl
  exact (h _ (Finset.mem_singleton_self _)).trans (binary_result main_v1 main_v4 main_v5 _ _ _ _ _)

theorem after_c_0 (V : Valuation τ sig (Elt F)) :
    after (ops (F := F)) V (Proc.devRef .tc main_c_0) = constantI S_ 32 100000#32 :=
  by
  have h := head_of_drop (eqsA V) 7 rfl
  exact (h _ (Finset.mem_singleton_self _)).trans (nullary_result main_c_0 _ _ _)

theorem after_v6 (V : Valuation τ sig (Elt F)) :
    after (ops (F := F)) V (Proc.devRef .tc main_v6) = broadcastInDim S1200000 ![] bcast_S_S1200000 (after ops V (Proc.devRef .tc main_c_0)) :=
  by
  have h := head_of_drop (eqsA V) 8 rfl
  exact (h _ (Finset.mem_singleton_self _)).trans (unary_result main_c_0 main_v6 _ _ _ _)

theorem after_v7 (V : Valuation τ sig (Elt F)) :
    after (ops (F := F)) V (Proc.devRef .tc main_v7) = addi (after ops V (Proc.devRef .tc main_v1)) (after ops V (Proc.devRef .tc main_v6)) :=
  by
  have h := head_of_drop (eqsA V) 9 rfl
  exact (h _ (Finset.mem_singleton_self _)).trans (binary_result main_v1 main_v6 main_v7 _ _ _ _ _)

theorem after_v8 (V : Valuation τ sig (Elt F)) :
    after (ops (F := F)) V (Proc.devRef .tc main_v8) = select (after ops V (Proc.devRef .tc main_v5)) (after ops V (Proc.devRef .tc main_v7)) (after ops V (Proc.devRef .tc main_v1)) :=
  by
  have h := head_of_drop (eqsA V) 10 rfl
  exact (h _ (Finset.mem_singleton_self _)).trans (ternary_result main_v5 main_v7 main_v1 main_v8 _ _ _ _ _ _)

theorem after_v9 (V : Valuation τ sig (Elt F)) :
    after (ops (F := F)) V (Proc.devRef .tc main_v9) = broadcastInDim S1200000x1 ![0] bcast_S1200000_S1200000x1_0 (after ops V (Proc.devRef .tc main_v8)) :=
  by
  have h := head_of_drop (eqsA V) 11 rfl
  exact (h _ (Finset.mem_singleton_self _)).trans (unary_result main_v8 main_v9 _ _ _ _)

theorem after_v10 (V : Valuation τ sig (Elt F)) :
    after (ops (F := F)) V (Proc.devRef .tc main_v10) = Host.gather gather_S100000x64_S1200000x1_S1200000x64_1_0_n_n_0_1_164 (after ops V (Proc.devRef .tc main_arg0)) (after ops V (Proc.devRef .tc main_v9)) :=
  by
  have h := head_of_drop (eqsA V) 12 rfl
  exact (h _ (Finset.mem_singleton_self _)).trans (binary_result main_arg0 main_v9 main_v10 _ _ _ _ _)

theorem after_cst (V : Valuation τ sig (Elt F)) :
    after (ops (F := F)) V (Proc.devRef .tc main_cst) = constant S_ .f32 0x00000000#32 :=
  by
  have h := head_of_drop (eqsA V) 13 rfl
  exact (h _ (Finset.mem_singleton_self _)).trans (nullary_result main_cst _ _ _)

theorem after_v11 (V : Valuation τ sig (Elt F)) :
    after (ops (F := F)) V (Proc.devRef .tc main_v11) = broadcastInDim S100000x64 ![] bcast_S_S100000x64 (after ops V (Proc.devRef .tc main_cst)) :=
  by
  have h := head_of_drop (eqsA V) 14 rfl
  exact (h _ (Finset.mem_singleton_self _)).trans (unary_result main_cst main_v11 _ _ _ _)

theorem after_v12 (V : Valuation τ sig (Elt F)) :
    after (ops (F := F)) V (Proc.devRef .tc main_v12) = broadcastInDim S1200000x1 ![0] bcast_S1200000_S1200000x1_0 (after ops V (Proc.devRef .tc main_v3)) :=
  by
  have h := head_of_drop (eqsA V) 15 rfl
  exact (h _ (Finset.mem_singleton_self _)).trans (unary_result main_v3 main_v12 _ _ _ _)

theorem after_v13 (V : Valuation τ sig (Elt F)) :
    after (ops (F := F)) V (Proc.devRef .tc main_v13) = Host.scatterAdd scatter_S100000x64_S1200000x1_S1200000x64_1_0_0_1 (after ops V (Proc.devRef .tc main_v11)) (after ops V (Proc.devRef .tc main_v12)) (after ops V (Proc.devRef .tc main_v10)) :=
  by
  have h := head_of_drop (eqsA V) 16 rfl
  exact (h _ (Finset.mem_singleton_self _)).trans (ternary_result main_v11 main_v12 main_v10 main_v13 _ _ _ _ _ _)

theorem after_v14 (V : Valuation τ sig (Elt F)) :
    after (ops (F := F)) V (Proc.devRef .tc main_v14) = addf (after ops V (Proc.devRef .tc main_arg0)) (after ops V (Proc.devRef .tc main_v13)) :=
  by
  have h := head_of_drop (eqsA V) 17 rfl
  exact (h _ (Finset.mem_singleton_self _)).trans (binary_result main_arg0 main_v13 main_v14 _ _ _ _ _)

theorem after_v15 (V : Valuation τ sig (Elt F)) :
    after (ops (F := F)) V (Proc.devRef .tc main_v15) = Host.dotGeneral dot_S100000x64_S64x64_S100000x64_1_0_0_1_n_n none (after ops V (Proc.devRef .tc main_v14)) (after ops V (Proc.devRef .tc main_arg2)) :=
  by
  have h := head_of_drop (eqsA V) 18 rfl
  exact (h _ (Finset.mem_singleton_self _)).trans (binary_result main_v14 main_arg2 main_v15 _ _ _ _ _)

theorem after_v16 (V : Valuation τ sig (Elt F)) :
    after (ops (F := F)) V (Proc.devRef .tc main_v16) = broadcastInDim S1x64 ![1] bcast_S64_S1x64_1 (after ops V (Proc.devRef .tc main_arg3)) :=
  by
  have h := head_of_drop (eqsA V) 19 rfl
  exact (h _ (Finset.mem_singleton_self _)).trans (unary_result main_arg3 main_v16 _ _ _ _)

theorem after_v17 (V : Valuation τ sig (Elt F)) :
    after (ops (F := F)) V (Proc.devRef .tc main_v17) = broadcastInDim S100000x64 ![0, 1] bcast_S1x64_S100000x64_0_1 (after ops V (Proc.devRef .tc main_v16)) :=
  by
  have h := head_of_drop (eqsA V) 20 rfl
  exact (h _ (Finset.mem_singleton_self _)).trans (unary_result main_v16 main_v17 _ _ _ _)

theorem after_v18 (V : Valuation τ sig (Elt F)) :
    after (ops (F := F)) V (Proc.devRef .tc main_v18) = addf (after ops V (Proc.devRef .tc main_v15)) (after ops V (Proc.devRef .tc main_v17)) :=
  by
  have h := head_of_drop (eqsA V) 21 rfl
  exact (h _ (Finset.mem_singleton_self _)).trans (binary_result main_v15 main_v17 main_v18 _ _ _ _ _)

theorem after_cst_1 (V : Valuation τ sig (Elt F)) :
    after (ops (F := F)) V (Proc.devRef .tc main_cst_1) = constant S_ .f32 0x00000000#32 :=
  by
  have h := head_of_drop (eqsA V) 22 rfl
  exact (h _ (Finset.mem_singleton_self _)).trans (nullary_result main_cst_1 _ _ _)

theorem after_v19 (V : Valuation τ sig (Elt F)) :
    after (ops (F := F)) V (Proc.devRef .tc main_v19) = Host.reduceAdd (after ops V (Proc.devRef .tc main_v18)) (after ops V (Proc.devRef .tc main_cst_1)) reducesTo_S100000x64_S64_d0 h_S_ :=
  by
  have h := head_of_drop (eqsA V) 23 rfl
  exact (h _ (Finset.mem_singleton_self _)).trans (binary_result main_v18 main_cst_1 main_v19 _ _ _ _ _)

theorem after_cst_2 (V : Valuation τ sig (Elt F)) :
    after (ops (F := F)) V (Proc.devRef .tc main_cst_2) = constant S_ .f32 0x47C35000#32 :=
  by
  have h := head_of_drop (eqsA V) 24 rfl
  exact (h _ (Finset.mem_singleton_self _)).trans (nullary_result main_cst_2 _ _ _)

theorem after_v20 (V : Valuation τ sig (Elt F)) :
    after (ops (F := F)) V (Proc.devRef .tc main_v20) = broadcastInDim S64 ![] bcast_S_S64 (after ops V (Proc.devRef .tc main_cst_2)) :=
  by
  have h := head_of_drop (eqsA V) 25 rfl
  exact (h _ (Finset.mem_singleton_self _)).trans (unary_result main_cst_2 main_v20 _ _ _ _)

theorem after_v21 (V : Valuation τ sig (Elt F)) :
    after (ops (F := F)) V (Proc.devRef .tc main_v21) = Host.divf (after ops V (Proc.devRef .tc main_v19)) (after ops V (Proc.devRef .tc main_v20)) :=
  by
  have h := head_of_drop (eqsA V) 26 rfl
  exact (h _ (Finset.mem_singleton_self _)).trans (binary_result main_v19 main_v20 main_v21 _ _ _ _ _)

theorem after_c_3 (V : Valuation τ sig (Elt F)) :
    after (ops (F := F)) V (Proc.devRef .tc main_c_3) = constantI S_ 32 0#32 :=
  by
  have h := head_of_drop (eqsA V) 27 rfl
  exact (h _ (Finset.mem_singleton_self _)).trans (nullary_result main_c_3 _ _ _)

theorem after_call0_cst (V : Valuation τ sig (Elt F)) :
    after (ops (F := F)) V (Proc.devRef .tc main_call0_cst) = constant S_ .f32 0x00000000#32 :=
  by
  have h := head_of_drop (eqsB V) 0 rfl
  exact (h _ (Finset.mem_singleton_self _)).trans (nullary_result main_call0_cst _ _ _)

theorem after_call0_v0 (V : Valuation τ sig (Elt F)) :
    after (ops (F := F)) V (Proc.devRef .tc main_call0_v0) = Host.reduceAdd (after ops V (Proc.devRef .tc main_v18)) (after ops V (Proc.devRef .tc main_call0_cst)) reducesTo_S100000x64_S64_d0 h_S_ :=
  by
  have h := head_of_drop (eqsB V) 1 rfl
  exact (h _ (Finset.mem_singleton_self _)).trans (binary_result main_v18 main_call0_cst main_call0_v0 _ _ _ _ _)

theorem after_call0_v1 (V : Valuation τ sig (Elt F)) :
    after (ops (F := F)) V (Proc.devRef .tc main_call0_v1) = broadcastInDim S1x64 ![1] bcast_S64_S1x64_1 (after ops V (Proc.devRef .tc main_call0_v0)) :=
  by
  have h := head_of_drop (eqsB V) 2 rfl
  exact (h _ (Finset.mem_singleton_self _)).trans (unary_result main_call0_v0 main_call0_v1 _ _ _ _)

theorem after_call0_cst_0 (V : Valuation τ sig (Elt F)) :
    after (ops (F := F)) V (Proc.devRef .tc main_call0_cst_0) = constant S_ .f32 0x47C35000#32 :=
  by
  have h := head_of_drop (eqsB V) 3 rfl
  exact (h _ (Finset.mem_singleton_self _)).trans (nullary_result main_call0_cst_0 _ _ _)

theorem after_call0_v2 (V : Valuation τ sig (Elt F)) :
    after (ops (F := F)) V (Proc.devRef .tc main_call0_v2) = broadcastInDim S1x64 ![] bcast_S_S1x64 (after ops V (Proc.devRef .tc main_call0_cst_0)) :=
  by
  have h := head_of_drop (eqsB V) 4 rfl
  exact (h _ (Finset.mem_singleton_self _)).trans (unary_result main_call0_cst_0 main_call0_v2 _ _ _ _)

theorem after_call0_v3 (V : Valuation τ sig (Elt F)) :
    after (ops (F := F)) V (Proc.devRef .tc main_call0_v3) = Host.divf (after ops V (Proc.devRef .tc main_call0_v1)) (after ops V (Proc.devRef .tc main_call0_v2)) :=
  by
  have h := head_of_drop (eqsB V) 5 rfl
  exact (h _ (Finset.mem_singleton_self _)).trans (binary_result main_call0_v1 main_call0_v2 main_call0_v3 _ _ _ _ _)

theorem after_call0_v4 (V : Valuation τ sig (Elt F)) :
    after (ops (F := F)) V (Proc.devRef .tc main_call0_v4) = broadcastInDim S100000x64 ![0, 1] bcast_S1x64_S100000x64_0_1 (after ops V (Proc.devRef .tc main_call0_v3)) :=
  by
  have h := head_of_drop (eqsB V) 6 rfl
  exact (h _ (Finset.mem_singleton_self _)).trans (unary_result main_call0_v3 main_call0_v4 _ _ _ _)

theorem after_call0_v5 (V : Valuation τ sig (Elt F)) :
    after (ops (F := F)) V (Proc.devRef .tc main_call0_v5) = subf (after ops V (Proc.devRef .tc main_v18)) (after ops V (Proc.devRef .tc main_call0_v4)) :=
  by
  have h := head_of_drop (eqsB V) 7 rfl
  exact (h _ (Finset.mem_singleton_self _)).trans (binary_result main_v18 main_call0_v4 main_call0_v5 _ _ _ _ _)

theorem after_call0_v6 (V : Valuation τ sig (Elt F)) :
    after (ops (F := F)) V (Proc.devRef .tc main_call0_v6) = mulf (after ops V (Proc.devRef .tc main_call0_v5)) (after ops V (Proc.devRef .tc main_call0_v5)) :=
  by
  have h := head_of_drop (eqsB V) 8 rfl
  exact (h _ (Finset.mem_singleton_self _)).trans (binary_result main_call0_v5 main_call0_v5 main_call0_v6 _ _ _ _ _)

theorem after_call0_v7 (V : Valuation τ sig (Elt F)) :
    after (ops (F := F)) V (Proc.devRef .tc main_call0_v7) = sitofp .f32 (after ops V (Proc.devRef .tc main_c_3)) :=
  by
  have h := head_of_drop (eqsB V) 9 rfl
  exact (h _ (Finset.mem_singleton_self _)).trans (unary_result main_c_3 main_call0_v7 _ _ _ _)

theorem after_call0_cst_1 (V : Valuation τ sig (Elt F)) :
    after (ops (F := F)) V (Proc.devRef .tc main_call0_cst_1) = constant S_ .f32 0x47C35000#32 :=
  by
  have h := head_of_drop (eqsB V) 10 rfl
  exact (h _ (Finset.mem_singleton_self _)).trans (nullary_result main_call0_cst_1 _ _ _)

theorem after_call0_v8 (V : Valuation τ sig (Elt F)) :
    after (ops (F := F)) V (Proc.devRef .tc main_call0_v8) = subf (after ops V (Proc.devRef .tc main_call0_cst_1)) (after ops V (Proc.devRef .tc main_call0_v7)) :=
  by
  have h := head_of_drop (eqsB V) 11 rfl
  exact (h _ (Finset.mem_singleton_self _)).trans (binary_result main_call0_cst_1 main_call0_v7 main_call0_v8 _ _ _ _ _)

theorem after_call0_cst_2 (V : Valuation τ sig (Elt F)) :
    after (ops (F := F)) V (Proc.devRef .tc main_call0_cst_2) = constant S_ .f32 0x00000000#32 :=
  by
  have h := head_of_drop (eqsB V) 12 rfl
  exact (h _ (Finset.mem_singleton_self _)).trans (nullary_result main_call0_cst_2 _ _ _)

theorem after_call0_v9 (V : Valuation τ sig (Elt F)) :
    after (ops (F := F)) V (Proc.devRef .tc main_call0_v9) = Host.reduceAdd (after ops V (Proc.devRef .tc main_call0_v6)) (after ops V (Proc.devRef .tc main_call0_cst_2)) reducesTo_S100000x64_S64_d0 h_S_ :=
  by
  have h := head_of_drop (eqsB V) 13 rfl
  exact (h _ (Finset.mem_singleton_self _)).trans (binary_result main_call0_v6 main_call0_cst_2 main_call0_v9 _ _ _ _ _)

theorem after_call0_v10 (V : Valuation τ sig (Elt F)) :
    after (ops (F := F)) V (Proc.devRef .tc main_call0_v10) = broadcastInDim S64 ![] bcast_S_S64 (after ops V (Proc.devRef .tc main_call0_v8)) :=
  by
  have h := head_of_drop (eqsB V) 14 rfl
  exact (h _ (Finset.mem_singleton_self _)).trans (unary_result main_call0_v8 main_call0_v10 _ _ _ _)

theorem after_call0_v11 (V : Valuation τ sig (Elt F)) :
    after (ops (F := F)) V (Proc.devRef .tc main_call0_v11) = Host.divf (after ops V (Proc.devRef .tc main_call0_v9)) (after ops V (Proc.devRef .tc main_call0_v10)) :=
  by
  have h := head_of_drop (eqsB V) 15 rfl
  exact (h _ (Finset.mem_singleton_self _)).trans (binary_result main_call0_v9 main_call0_v10 main_call0_v11 _ _ _ _ _)

theorem after_call0_cst_3 (V : Valuation τ sig (Elt F)) :
    after (ops (F := F)) V (Proc.devRef .tc main_call0_cst_3) = constant S_ .f32 0x00000000#32 :=
  by
  have h := head_of_drop (eqsB V) 16 rfl
  exact (h _ (Finset.mem_singleton_self _)).trans (nullary_result main_call0_cst_3 _ _ _)

theorem after_call0_v12 (V : Valuation τ sig (Elt F)) :
    after (ops (F := F)) V (Proc.devRef .tc main_call0_v12) = cmpf .ogt (after ops V (Proc.devRef .tc main_call0_v8)) (after ops V (Proc.devRef .tc main_call0_cst_3)) :=
  by
  have h := head_of_drop (eqsB V) 17 rfl
  exact (h _ (Finset.mem_singleton_self _)).trans (binary_result main_call0_v8 main_call0_cst_3 main_call0_v12 _ _ _ _ _)

theorem after_call0_cst_4 (V : Valuation τ sig (Elt F)) :
    after (ops (F := F)) V (Proc.devRef .tc main_call0_cst_4) = constant S_ .f32 0x7FC00000#32 :=
  by
  have h := head_of_drop (eqsB V) 18 rfl
  exact (h _ (Finset.mem_singleton_self _)).trans (nullary_result main_call0_cst_4 _ _ _)

theorem after_call0_call0_v0 (V : Valuation τ sig (Elt F)) :
    after (ops (F := F)) V (Proc.devRef .tc main_call0_call0_v0) = (after ops V (Proc.devRef .tc main_call0_cst_4)) :=
  by
  have h := head_of_drop (eqsB V) 19 rfl
  exact (h _ (Finset.mem_singleton_self _)).trans (unary_result main_call0_cst_4 main_call0_call0_v0 _ _ _ _)

theorem after_call0_call0_v1 (V : Valuation τ sig (Elt F)) :
    after (ops (F := F)) V (Proc.devRef .tc main_call0_call0_v1) = broadcastInDim S64 ![] bcast_S_S64 (after ops V (Proc.devRef .tc main_call0_call0_v0)) :=
  by
  have h := head_of_drop (eqsB V) 20 rfl
  exact (h _ (Finset.mem_singleton_self _)).trans (unary_result main_call0_call0_v0 main_call0_call0_v1 _ _ _ _)

theorem after_v22 (V : Valuation τ sig (Elt F)) :
    after (ops (F := F)) V (Proc.devRef .tc main_v22) = select (broadcastInDim S64 ![] bcast_S_S64 (after ops V (Proc.devRef .tc main_call0_v12))) (after ops V (Proc.devRef .tc main_call0_v11)) (after ops V (Proc.devRef .tc main_call0_call0_v1)) :=
  by
  have h := head_of_drop (eqsB V) 21 rfl
  exact (h _ (Finset.mem_singleton_self _)).trans (ternary_result main_call0_v12 main_call0_v11 main_call0_call0_v1 main_v22 _ _ _ _ _ _)

theorem after_v23 (V : Valuation τ sig (Elt F)) :
    after (ops (F := F)) V (Proc.devRef .tc main_v23) = broadcastInDim S1x64 ![1] bcast_S64_S1x64_1 (after ops V (Proc.devRef .tc main_v21)) :=
  by
  have h := head_of_drop (eqsC V) 0 rfl
  exact (h _ (Finset.mem_singleton_self _)).trans (unary_result main_v21 main_v23 _ _ _ _)

theorem after_v24 (V : Valuation τ sig (Elt F)) :
    after (ops (F := F)) V (Proc.devRef .tc main_v24) = broadcastInDim S100000x64 ![0, 1] bcast_S1x64_S100000x64_0_1 (after ops V (Proc.devRef .tc main_v23)) :=
  by
  have h := head_of_drop (eqsC V) 1 rfl
  exact (h _ (Finset.mem_singleton_self _)).trans (unary_result main_v23 main_v24 _ _ _ _)

theorem after_v25 (V : Valuation τ sig (Elt F)) :
    after (ops (F := F)) V (Proc.devRef .tc main_v25) = subf (after ops V (Proc.devRef .tc main_v18)) (after ops V (Proc.devRef .tc main_v24)) :=
  by
  have h := head_of_drop (eqsC V) 2 rfl
  exact (h _ (Finset.mem_singleton_self _)).trans (binary_result main_v18 main_v24 main_v25 _ _ _ _ _)

theorem after_cst_4 (V : Valuation τ sig (Elt F)) :
    after (ops (F := F)) V (Proc.devRef .tc main_cst_4) = constant S_ .f32 0x3727C5AC#32 :=
  by
  have h := head_of_drop (eqsC V) 3 rfl
  exact (h _ (Finset.mem_singleton_self _)).trans (nullary_result main_cst_4 _ _ _)

theorem after_v26 (V : Valuation τ sig (Elt F)) :
    after (ops (F := F)) V (Proc.devRef .tc main_v26) = broadcastInDim S64 ![] bcast_S_S64 (after ops V (Proc.devRef .tc main_cst_4)) :=
  by
  have h := head_of_drop (eqsC V) 4 rfl
  exact (h _ (Finset.mem_singleton_self _)).trans (unary_result main_cst_4 main_v26 _ _ _ _)

theorem after_v27 (V : Valuation τ sig (Elt F)) :
    after (ops (F := F)) V (Proc.devRef .tc main_v27) = addf (after ops V (Proc.devRef .tc main_v22)) (after ops V (Proc.devRef .tc main_v26)) :=
  by
  have h := head_of_drop (eqsC V) 5 rfl
  exact (h _ (Finset.mem_singleton_self _)).trans (binary_result main_v22 main_v26 main_v27 _ _ _ _ _)

theorem after_v28 (V : Valuation τ sig (Elt F)) :
    after (ops (F := F)) V (Proc.devRef .tc main_v28) = Host.rsqrt (after ops V (Proc.devRef .tc main_v27)) :=
  by
  have h := head_of_drop (eqsC V) 6 rfl
  exact (h _ (Finset.mem_singleton_self _)).trans (unary_result main_v27 main_v28 _ _ _ _)

theorem after_v29 (V : Valuation τ sig (Elt F)) :
    after (ops (F := F)) V (Proc.devRef .tc main_v29) = broadcastInDim S1x64 ![1] bcast_S64_S1x64_1 (after ops V (Proc.devRef .tc main_v28)) :=
  by
  have h := head_of_drop (eqsC V) 7 rfl
  exact (h _ (Finset.mem_singleton_self _)).trans (unary_result main_v28 main_v29 _ _ _ _)

theorem after_v30 (V : Valuation τ sig (Elt F)) :
    after (ops (F := F)) V (Proc.devRef .tc main_v30) = broadcastInDim S100000x64 ![0, 1] bcast_S1x64_S100000x64_0_1 (after ops V (Proc.devRef .tc main_v29)) :=
  by
  have h := head_of_drop (eqsC V) 8 rfl
  exact (h _ (Finset.mem_singleton_self _)).trans (unary_result main_v29 main_v30 _ _ _ _)

theorem after_v31 (V : Valuation τ sig (Elt F)) :
    after (ops (F := F)) V (Proc.devRef .tc main_v31) = mulf (after ops V (Proc.devRef .tc main_v25)) (after ops V (Proc.devRef .tc main_v30)) :=
  by
  have h := head_of_drop (eqsC V) 9 rfl
  exact (h _ (Finset.mem_singleton_self _)).trans (binary_result main_v25 main_v30 main_v31 _ _ _ _ _)

theorem after_v32 (V : Valuation τ sig (Elt F)) :
    after (ops (F := F)) V (Proc.devRef .tc main_v32) = broadcastInDim S1x64 ![1] bcast_S64_S1x64_1 (after ops V (Proc.devRef .tc main_arg4)) :=
  by
  have h := head_of_drop (eqsC V) 10 rfl
  exact (h _ (Finset.mem_singleton_self _)).trans (unary_result main_arg4 main_v32 _ _ _ _)

theorem after_v33 (V : Valuation τ sig (Elt F)) :
    after (ops (F := F)) V (Proc.devRef .tc main_v33) = broadcastInDim S100000x64 ![0, 1] bcast_S1x64_S100000x64_0_1 (after ops V (Proc.devRef .tc main_v32)) :=
  by
  have h := head_of_drop (eqsC V) 11 rfl
  exact (h _ (Finset.mem_singleton_self _)).trans (unary_result main_v32 main_v33 _ _ _ _)

theorem after_v34 (V : Valuation τ sig (Elt F)) :
    after (ops (F := F)) V (Proc.devRef .tc main_v34) = mulf (after ops V (Proc.devRef .tc main_v31)) (after ops V (Proc.devRef .tc main_v33)) :=
  by
  have h := head_of_drop (eqsC V) 12 rfl
  exact (h _ (Finset.mem_singleton_self _)).trans (binary_result main_v31 main_v33 main_v34 _ _ _ _ _)

theorem after_v35 (V : Valuation τ sig (Elt F)) :
    after (ops (F := F)) V (Proc.devRef .tc main_v35) = broadcastInDim S1x64 ![1] bcast_S64_S1x64_1 (after ops V (Proc.devRef .tc main_arg5)) :=
  by
  have h := head_of_drop (eqsC V) 13 rfl
  exact (h _ (Finset.mem_singleton_self _)).trans (unary_result main_arg5 main_v35 _ _ _ _)

theorem after_v36 (V : Valuation τ sig (Elt F)) :
    after (ops (F := F)) V (Proc.devRef .tc main_v36) = broadcastInDim S100000x64 ![0, 1] bcast_S1x64_S100000x64_0_1 (after ops V (Proc.devRef .tc main_v35)) :=
  by
  have h := head_of_drop (eqsC V) 14 rfl
  exact (h _ (Finset.mem_singleton_self _)).trans (unary_result main_v35 main_v36 _ _ _ _)

theorem after_v37 (V : Valuation τ sig (Elt F)) :
    after (ops (F := F)) V (Proc.devRef .tc main_v37) = addf (after ops V (Proc.devRef .tc main_v34)) (after ops V (Proc.devRef .tc main_v36)) :=
  by
  have h := head_of_drop (eqsC V) 15 rfl
  exact (h _ (Finset.mem_singleton_self _)).trans (binary_result main_v34 main_v36 main_v37 _ _ _ _ _)

theorem after_call1_cst (V : Valuation τ sig (Elt F)) :
    after (ops (F := F)) V (Proc.devRef .tc main_call1_cst) = constant S_ .f32 0x00000000#32 :=
  by
  have h := head_of_drop (eqsC V) 16 rfl
  exact (h _ (Finset.mem_singleton_self _)).trans (nullary_result main_call1_cst _ _ _)

theorem after_call1_v0 (V : Valuation τ sig (Elt F)) :
    after (ops (F := F)) V (Proc.devRef .tc main_call1_v0) = broadcastInDim S100000x64 ![] bcast_S_S100000x64 (after ops V (Proc.devRef .tc main_call1_cst)) :=
  by
  have h := head_of_drop (eqsC V) 17 rfl
  exact (h _ (Finset.mem_singleton_self _)).trans (unary_result main_call1_cst main_call1_v0 _ _ _ _)

theorem after_v38 (V : Valuation τ sig (Elt F)) :
    after (ops (F := F)) V (Proc.devRef .tc main_v38) = maximumf (after ops V (Proc.devRef .tc main_v37)) (after ops V (Proc.devRef .tc main_call1_v0)) :=
  by
  have h := head_of_drop (eqsC V) 18 rfl
  exact (h _ (Finset.mem_singleton_self _)).trans (binary_result main_v37 main_call1_v0 main_v38 _ _ _ _ _)

theorem after_v39 (V : Valuation τ sig (Elt F)) :
    after (ops (F := F)) V (Proc.devRef .tc main_v39) = Host.dotGeneral dot_S100000x64_S64x64_S100000x64_1_0_0_1_n_n none (after ops V (Proc.devRef .tc main_v38)) (after ops V (Proc.devRef .tc main_arg6)) :=
  by
  have h := head_of_drop (eqsC V) 19 rfl
  exact (h _ (Finset.mem_singleton_self _)).trans (binary_result main_v38 main_arg6 main_v39 _ _ _ _ _)

theorem after_v40 (V : Valuation τ sig (Elt F)) :
    after (ops (F := F)) V (Proc.devRef .tc main_v40) = broadcastInDim S1x64 ![1] bcast_S64_S1x64_1 (after ops V (Proc.devRef .tc main_arg7)) :=
  by
  have h := head_of_drop (eqsC V) 20 rfl
  exact (h _ (Finset.mem_singleton_self _)).trans (unary_result main_arg7 main_v40 _ _ _ _)

theorem after_v41 (V : Valuation τ sig (Elt F)) :
    after (ops (F := F)) V (Proc.devRef .tc main_v41) = broadcastInDim S100000x64 ![0, 1] bcast_S1x64_S100000x64_0_1 (after ops V (Proc.devRef .tc main_v40)) :=
  by
  have h := head_of_drop (eqsC V) 21 rfl
  exact (h _ (Finset.mem_singleton_self _)).trans (unary_result main_v40 main_v41 _ _ _ _)

theorem after_v42 (V : Valuation τ sig (Elt F)) :
    after (ops (F := F)) V (Proc.devRef .tc main_v42) = addf (after ops V (Proc.devRef .tc main_v39)) (after ops V (Proc.devRef .tc main_v41)) :=
  by
  have h := head_of_drop (eqsC V) 22 rfl
  exact (h _ (Finset.mem_singleton_self _)).trans (binary_result main_v39 main_v41 main_v42 _ _ _ _ _)

theorem after_call2_cst (V : Valuation τ sig (Elt F)) :
    after (ops (F := F)) V (Proc.devRef .tc main_call2_cst) = constant S_ .f32 0x00000000#32 :=
  by
  have h := head_of_drop (eqsC V) 23 rfl
  exact (h _ (Finset.mem_singleton_self _)).trans (nullary_result main_call2_cst _ _ _)

theorem after_call2_v0 (V : Valuation τ sig (Elt F)) :
    after (ops (F := F)) V (Proc.devRef .tc main_call2_v0) = broadcastInDim S100000x64 ![] bcast_S_S100000x64 (after ops V (Proc.devRef .tc main_call2_cst)) :=
  by
  have h := head_of_drop (eqsC V) 24 rfl
  exact (h _ (Finset.mem_singleton_self _)).trans (unary_result main_call2_cst main_call2_v0 _ _ _ _)

theorem after_v43 (V : Valuation τ sig (Elt F)) :
    after (ops (F := F)) V (Proc.devRef .tc main_v43) = maximumf (after ops V (Proc.devRef .tc main_v42)) (after ops V (Proc.devRef .tc main_call2_v0)) :=
  by
  have h := head_of_drop (eqsC V) 25 rfl
  exact (h _ (Finset.mem_singleton_self _)).trans (binary_result main_v42 main_call2_v0 main_v43 _ _ _ _ _)

end Stage

/-- The neighbour sums as a function of x and the edge list: the composed term of operations main_v0 … main_v13. -/
def agg (x : FVec Ideal S100000x64 .f32) (ei : IVec S2x1200000 32) : FVec Ideal S100000x64 .f32 :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0
      (shapeCast S1200000 (extractStridedSlice S1x1200000 ![1, 0] ei slices_S2x1200000_S1x1200000_1_0) shapeCasts_S1x1200000_S1200000))
    (Host.gather gather_S100000x64_S1200000x1_S1200000x64_1_0_n_n_0_1_164 x
      (broadcastInDim S1200000x1 ![0] bcast_S1200000_S1200000x1_0
        (select
          (cmpi .slt (shapeCast S1200000 (extractStridedSlice S1x1200000 ![0, 0] ei slices_S2x1200000_S1x1200000_0_0) shapeCasts_S1x1200000_S1200000)
            (broadcastInDim S1200000 ![] bcast_S_S1200000 (constantI S_ 32 0#32)))
          (addi (shapeCast S1200000 (extractStridedSlice S1x1200000 ![0, 0] ei slices_S2x1200000_S1x1200000_0_0) shapeCasts_S1x1200000_S1200000)
            (broadcastInDim S1200000 ![] bcast_S_S1200000 (constantI S_ 32 100000#32)))
          (shapeCast S1200000 (extractStridedSlice S1x1200000 ![0, 0] ei slices_S2x1200000_S1x1200000_0_0) shapeCasts_S1x1200000_S1200000))))

/-- h as a function of the launch memory's arguments. -/
abbrev Hof (m : (ℓ : Loc nD τ sig) → Buf (Elt Ideal) ℓ) (c : Dev nD) : Fin 100000 → Fin 64 → EReal :=
  Cert.Gin.hval (m ((c.tc : Thread nD τ).loc main_arg0)) (agg (m ((c.tc : Thread nD τ).loc main_arg0)) (m ((c.tc : Thread nD τ).loc main_arg1))) (m ((c.tc : Thread nD τ).loc main_arg2)) (m ((c.tc : Thread nD τ).loc main_arg3))

/-- The buffer of the neighbour sums holds `agg` of the two arguments it is computed from. -/
theorem v13_V (V : Valuation τ sig (Elt Ideal)) :
    after (RefRun.ops (F := Ideal)) V (Proc.devRef .tc main_v13)
      = agg (V (Proc.devRef .tc main_arg0)) (V (Proc.devRef .tc main_arg1)) := by
  rw [Stage.after_v13, Stage.after_v11, Stage.after_cst, Stage.after_v12, Stage.after_v3, Stage.after_v2, Stage.after_v10,
    Stage.after_v9, Stage.after_v8, Stage.after_v5, Stage.after_v7, Stage.after_v6, Stage.after_c_0, Stage.after_v4,
    Stage.after_c, Stage.after_v1, Stage.after_v0, RefRun.arg_eq V main_arg0 (by decide), RefRun.arg_eq V main_arg1 (by decide)]
  rfl

/-- h at (i, j), from any contents: row i of x + agg against column j of W1, plus b1 j. -/
theorem v18_V (V : Valuation τ sig (Elt Ideal)) (i : Fin 100000) (j : Fin 64) :
    after (RefRun.ops (F := Ideal)) V (Proc.devRef .tc main_v18) (ix2 i j)
      = Cert.Gin.hval (V (Proc.devRef .tc main_arg0)) (agg (V (Proc.devRef .tc main_arg0)) (V (Proc.devRef .tc main_arg1)))
          (V (Proc.devRef .tc main_arg2)) (V (Proc.devRef .tc main_arg3)) i j := by
  rw [Stage.after_v18, Stage.after_v15, Stage.after_v14, Stage.after_v17, Stage.after_v16, v13_V,
    RefRun.arg_eq V main_arg0 (by decide), RefRun.arg_eq V main_arg2 (by decide), RefRun.arg_eq V main_arg3 (by decide)]
  rw [addf_apply, Cert.LibBroadcastInDim.row_mat_apply, Cert.LibBroadcastInDim.vec_row_apply]
  show FloatOps.dotGeneral _ none .single _ _ (ix2 i j) + _ = _
  rw [Cert.LibPlainDot.dotGeneral_apply _ rfl rfl rfl rfl rfl rfl]
  rfl

theorem v18_eq (m : (ℓ : Loc nD τ sig) → Buf (Elt Ideal) ℓ) (c : Dev nD) : A m c main_v18 = Cert.Gin.toArr (Hof m c) := by
  funext idx
  obtain ⟨i, j, rfl⟩ : ∃ i j, idx = ix2 i j := ⟨idx 0, idx 1, eq_ix2 idx⟩
  exact v18_V (launchContents m c) i j

end Cert.ReferenceIdeal.RefValue

end
-- ==== Proof.Algebra.lean ====
/-
  Extended-real algebra for the batch statistics.  On coerced reals every sum, product, difference
  and quotient by the nonzero real 100000 is the coerced real operation, so the two ways of writing
  the variance agree: (Σ hᵢ²)/N − (Σ hᵢ/N)² = (Σ (hᵢ − Σh/N)²)/N in the reals.  Also: the literal
  both programs write for the number of nodes denotes the real 100000, and the first affine map
  sends coerced reals to coerced reals.
-/
import proofs.«108197_j55783035240590_1_alg».proof.Proof.Spec
import proofs.«108197_j55783035240590_1_alg».proof.Proof.LibIdealReal
import Mathlib.Data.Real.Basic
import Mathlib.Data.Fintype.Card
import Mathlib.Algebra.BigOperators.Ring.Finset
import Mathlib.Tactic.FieldSimp
import Mathlib.Tactic.Ring
import Mathlib.Tactic.NormNum

noncomputable section

namespace Cert.Gin

open Idealize.ShloMosaic Idealize.ShloMosaic.ValueIdx
open Cert.LibIdealReal
open scoped BigOperators

/-- The literal for the number of nodes denotes the coerced real 100000. -/
theorem cN_eq : cN = ((100000 : ℝ) : EReal) := by
  unfold cN
  simp [Ideal.ofBits, Ideal.ieee, -EReal.coe_mul]; norm_num

/-- The first affine map of coerced reals is a coerced real. -/
theorem hval_real (x agg : SN.Idx → EReal) (W1 : SD.Idx → EReal) (b1 : SV.Idx → EReal)
    (hx : ∀ i, ∃ r : ℝ, x i = (r : EReal)) (ha : ∀ i, ∃ r : ℝ, agg i = (r : EReal))
    (hW : ∀ i, ∃ r : ℝ, W1 i = (r : EReal)) (hb : ∀ i, ∃ r : ℝ, b1 i = (r : EReal)) :
    ∀ i j, ∃ r : ℝ, hval x agg W1 b1 i j = (r : EReal) := by
  intro i j
  choose xr hxr using hx
  choose ar har using ha
  choose wr hwr using hW
  choose br hbr using hb
  refine ⟨(∑ k : Fin 64, (xr (ix2 i k) + ar (ix2 i k)) * wr (ix2 k j)) + br (ix1 j), ?_⟩
  unfold hval
  rw [sum_of_eq Finset.univ _ (fun k : Fin 64 => (xr (ix2 i k) + ar (ix2 i k)) * wr (ix2 k j))
    (fun k _ => by rw [hxr, har, hwr, add_coe, mul_coe]), hbr, add_coe]

/-- In the reals, the mean of the squares less the square of the mean is the mean of the squared
deviations from the mean. -/
theorem real_var_eq (g : Fin 100000 → ℝ) :
    (∑ i, g i * g i) / 100000 - (∑ i, g i) / 100000 * ((∑ i, g i) / 100000)
      = (∑ i, (g i - (∑ i, g i) / 100000) * (g i - (∑ i, g i) / 100000)) / 100000 := by
  generalize hS : ∑ i, g i = S
  generalize hm : S / 100000 = m
  have hexp : ∑ i : Fin 100000, (g i - m) * (g i - m)
      = (∑ i, g i * g i) - 2 * m * S + 100000 * (m * m) := by
    have hterm : ∀ i : Fin 100000, (g i - m) * (g i - m) = g i * g i - 2 * m * g i + m * m :=
      fun i => by ring
    rw [Finset.sum_congr rfl (fun i _ => hterm i), Finset.sum_add_distrib, Finset.sum_sub_distrib,
      ← Finset.mul_sum, hS, Finset.sum_const, Finset.card_univ, Fintype.card_fin, nsmul_eq_mul]
    norm_num
  rw [hexp, ← hm]
  field_simp
  ring

/-- On coerced reals the two ways of writing the variance agree. -/
theorem varK_eq_varR (h : Fin 100000 → Fin 64 → EReal) (hr : ∀ i j, ∃ r : ℝ, h i j = (r : EReal)) :
    varK h = varR h := by
  choose g hg using hr
  funext j
  have hN : (100000 : ℝ) ≠ 0 := by norm_num
  have hmean : meanOf h j = (((∑ i, g i j) / 100000 : ℝ) : EReal) := by
    unfold meanOf
    rw [sum_of_eq Finset.univ (fun i => h i j) (fun i => g i j) (fun i _ => hg i j), cN_eq,
      div_coe _ hN]
  have hsq : ∑ i : Fin 100000, h i j * h i j = ((∑ i, g i j * g i j : ℝ) : EReal) := by
    refine sum_of_eq Finset.univ _ _ (fun i _ => ?_)
    rw [hg i j, mul_coe]
  have hdev : ∑ i : Fin 100000, (h i j - meanOf h j) * (h i j - meanOf h j)
      = ((∑ i, (g i j - (∑ i, g i j) / 100000) * (g i j - (∑ i, g i j) / 100000) : ℝ) : EReal) := by
    refine sum_of_eq Finset.univ _ _ (fun i _ => ?_)
    rw [hmean, hg i j, sub_coe, mul_coe]
  unfold varK varR
  rw [hsq, hdev, hmean, cN_eq, div_coe _ hN, div_coe _ hN, mul_coe, sub_coe,
    real_var_eq (fun i => g i j)]

end Cert.Gin

end
-- ==== Proof.RefValueA2.lean ====
/-
  The reference program's batch statistics read at the exact-real instance: the mean of h over the nodes and the variance
  E[(h − E[h])²] (the outlined variance function: its divisor 100000 − 0, its guard 100000 − 0 > 0 that always holds).
-/
import proofs.«108197_j55783035240590_1_alg».proof.Proof.RefValueA
import proofs.«108197_j55783035240590_1_alg».proof.Proof.Algebra
import proofs.«108197_j55783035240590_1_alg».proof.Proof.LibIdealReal
import proofs.«108197_j55783035240590_1_alg».proof.Proof.LibBroadcastInDim
import proofs.«108197_j55783035240590_1_alg».proof.Proof.LibPlainDot
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Idealize.ShloMosaic Idealize.ShloMosaic.TcCoe Idealize.SL.Sem Idealize.ShloMosaic.StableHlo
open Idealize.ShloMosaic.ValueIdx
open Facts₀ Facts

variable [Facts]

attribute [local irreducible] StableHlo.after

/-- A sum over the rows, from an initial scalar, read at column j: the scalar plus the plain sum down the column. -/
theorem colsum_apply (x : FVec Ideal S100000x64 .f32) (init : FVec Ideal S_ .f32) (j : Fin 64) :
    Host.reduceAdd x init reducesTo_S100000x64_S64_d0 h_S_ (ix1 j) = init ix0 + ∑ i : Fin 100000, x (ix2 i j) := by
  show Ideal.hostReduceAdd reducesTo_S100000x64_S64_d0 x (init (Shape.Idx.first h_S_)) (ix1 j) = _
  rw [Ideal.hostReduceAdd_single reducesTo_S100000x64_S64_d0 (by decide : S100000x64.Reduces [0] S64)]
  refine congrArg₂ (· + ·) (congrArg init (funext fun a => a.elim0)) ?_
  refine Finset.sum_congr rfl fun i _ => congrArg x ?_
  funext a
  apply Fin.ext
  match a with
  | ⟨0, _⟩ => rfl
  | ⟨1, _⟩ => rfl

/-- The column sum from the zero literal is the plain sum down the column. -/
theorem colsum_zero_apply (x : FVec Ideal S100000x64 .f32) (j : Fin 64) :
    Host.reduceAdd x (constant (F := Ideal) S_ .f32 0x00000000#32) reducesTo_S100000x64_S64_d0 h_S_ (ix1 j)
      = ∑ i : Fin 100000, x (ix2 i j) := by
  rw [colsum_apply, constant_apply, Ideal.ofBits_zero_f32, zero_add]

/-- The mean as the reference writes it, at column j. -/
theorem mean_fun (x : FVec Ideal S100000x64 .f32) (j : Fin 64) :
    Host.divf (Host.reduceAdd x (constant (F := Ideal) S_ .f32 0x00000000#32) reducesTo_S100000x64_S64_d0 h_S_)
        (broadcastInDim S64 ![] bcast_S_S64 (constant (F := Ideal) S_ .f32 0x47C35000#32)) (ix1 j)
      = Cert.Gin.meanOf (fun i j => x (ix2 i j)) j := by
  show Ideal.div (Host.reduceAdd x (constant (F := Ideal) S_ .f32 0x00000000#32) reducesTo_S100000x64_S64_d0 h_S_ (ix1 j))
    (broadcastInDim S64 ![] bcast_S_S64 (constant (F := Ideal) S_ .f32 0x47C35000#32) (ix1 j)) = _
  rw [colsum_zero_apply, Cert.LibBroadcastInDim.scalar_apply _ _ _ ix0, constant_apply]
  rfl

/-- The mean of h over the nodes, per feature. -/
theorem v21_eq (m : (ℓ : Loc nD τ sig) → Buf (Elt Ideal) ℓ) (c : Dev nD) : A m c main_v21 = fun idx => Cert.Gin.meanOf (Hof m c) (idx 0) := by
  have hH : (fun i j => A m c main_v18 (ix2 i j)) = Hof m c :=
    funext fun i => funext fun j => v18_V (launchContents m c) i j
  show after (RefRun.ops (F := Ideal)) (launchContents m c) (Proc.devRef .tc main_v21) = _
  rw [Stage.after_v21, Stage.after_v19, Stage.after_cst_1, Stage.after_v20, Stage.after_cst_2]
  funext idx
  obtain ⟨j, rfl⟩ : ∃ j : Fin 64, idx = ix1 j := ⟨idx 0, eq_ix1 idx⟩
  rw [mean_fun]
  exact congrArg (fun H => Cert.Gin.meanOf H j) hH

/-- The divisor of the variance as the reference computes it: 100000 less the converted integer zero. -/
theorem dof_eq :
    subf (constant (F := Ideal) S_ .f32 0x47C35000#32) (sitofp .f32 (constantI S_ 32 0#32)) ix0 = Cert.Gin.cN := by
  rw [subf_apply, constant_apply, sitofp_apply, constantI_apply,
    Cert.LibIdealReal.sitofp_of_toInt (0#32 : BitVec 32) 0 (by decide)]
  show Cert.Gin.cN - ((((0 : ℤ) : ℝ)) : EReal) = Cert.Gin.cN
  rw [Cert.Gin.cN_eq, Cert.LibIdealReal.sub_coe]
  norm_num

/-- The guard of the variance holds: 100000 is above zero. -/
theorem guard_eq : Ideal.cmp .ogt Cert.Gin.cN (Ideal.ofBits .f32 0x00000000#32) = 1#1 := by
  have h : (0 : EReal) < Cert.Gin.cN := by
    rw [Cert.Gin.cN_eq, Cert.LibIdealReal.zero_coe]
    exact EReal.coe_lt_coe_iff.mpr (by norm_num)
  rw [Ideal.ofBits_zero_f32]
  unfold Ideal.cmp
  simp [h]

/-- The row of means as the variance function writes it, spread over the nodes, at (i, j): the mean of column j. -/
theorem meanrow_apply (x : FVec Ideal S100000x64 .f32) (i : Fin 100000) (j : Fin 64) :
    broadcastInDim S100000x64 ![0, 1] bcast_S1x64_S100000x64_0_1
        (Host.divf (broadcastInDim S1x64 ![1] bcast_S64_S1x64_1
            (Host.reduceAdd x (constant (F := Ideal) S_ .f32 0x00000000#32) reducesTo_S100000x64_S64_d0 h_S_))
          (broadcastInDim S1x64 ![] bcast_S_S1x64 (constant (F := Ideal) S_ .f32 0x47C35000#32))) (ix2 i j)
      = Cert.Gin.meanOf (fun i j => x (ix2 i j)) j := by
  rw [Cert.LibBroadcastInDim.row_mat_apply]
  show Ideal.div (broadcastInDim S1x64 ![1] bcast_S64_S1x64_1
      (Host.reduceAdd x (constant (F := Ideal) S_ .f32 0x00000000#32) reducesTo_S100000x64_S64_d0 h_S_) (ix2 (0 : Fin 1) j))
    (broadcastInDim S1x64 ![] bcast_S_S1x64 (constant (F := Ideal) S_ .f32 0x47C35000#32) (ix2 (0 : Fin 1) j)) = _
  rw [Cert.LibBroadcastInDim.vec_row_apply, colsum_zero_apply, Cert.LibBroadcastInDim.scalar_apply _ _ _ ix0, constant_apply]
  rfl

/-- The guarded quotient of the summed squared deviations by a divisor that is 100000, at column j: the variance
of column j. -/
theorem var_core (x M : FVec Ideal S100000x64 .f32) (D : FVec Ideal S_ .f32) (nanv : FVec Ideal S64 .f32)
    (hD : D ix0 = Cert.Gin.cN) (hM : ∀ i j, M (ix2 i j) = Cert.Gin.meanOf (fun i j => x (ix2 i j)) j) (j : Fin 64) :
    select (broadcastInDim S64 ![] bcast_S_S64 (cmpf .ogt D (constant (F := Ideal) S_ .f32 0x00000000#32)))
        (Host.divf (Host.reduceAdd (mulf (subf x M) (subf x M)) (constant (F := Ideal) S_ .f32 0x00000000#32)
            reducesTo_S100000x64_S64_d0 h_S_)
          (broadcastInDim S64 ![] bcast_S_S64 D)) nanv (ix1 j)
      = Cert.Gin.varR (fun i j => x (ix2 i j)) j := by
  rw [select_apply, Cert.LibBroadcastInDim.scalar_apply _ _ _ ix0, cmpf_apply, constant_apply, hD]
  show Scalar.select (Ideal.cmp .ogt Cert.Gin.cN (Ideal.ofBits .f32 0x00000000#32)) _ _ = _
  rw [guard_eq, select_one]
  show Ideal.div (Host.reduceAdd (mulf (subf x M) (subf x M)) (constant (F := Ideal) S_ .f32 0x00000000#32)
      reducesTo_S100000x64_S64_d0 h_S_ (ix1 j)) (broadcastInDim S64 ![] bcast_S_S64 D (ix1 j)) = _
  rw [colsum_zero_apply, Cert.LibBroadcastInDim.scalar_apply _ _ _ ix0, hD]
  unfold Cert.Gin.varR
  refine congrArg (fun s => Ideal.div s Cert.Gin.cN) (Finset.sum_congr rfl fun i _ => ?_)
  rw [mulf_apply, subf_apply, hM]

/-- The variance of h over the nodes, per feature: the mean of the squared deviations from the mean. -/
theorem v22_eq (m : (ℓ : Loc nD τ sig) → Buf (Elt Ideal) ℓ) (c : Dev nD) : A m c main_v22 = fun idx => Cert.Gin.varR (Hof m c) (idx 0) := by
  have hH : (fun i j => A m c main_v18 (ix2 i j)) = Hof m c :=
    funext fun i => funext fun j => v18_V (launchContents m c) i j
  show after (RefRun.ops (F := Ideal)) (launchContents m c) (Proc.devRef .tc main_v22) = _
  rw [Stage.after_v22, Stage.after_call0_v12, Stage.after_call0_v11, Stage.after_call0_v10, Stage.after_call0_v9,
    Stage.after_call0_cst_2, Stage.after_call0_cst_3, Stage.after_call0_v8, Stage.after_call0_cst_1, Stage.after_call0_v7,
    Stage.after_c_3, Stage.after_call0_v6, Stage.after_call0_v5, Stage.after_call0_v4, Stage.after_call0_v3,
    Stage.after_call0_v2, Stage.after_call0_cst_0, Stage.after_call0_v1, Stage.after_call0_v0, Stage.after_call0_cst]
  funext idx
  obtain ⟨j, rfl⟩ : ∃ j : Fin 64, idx = ix1 j := ⟨idx 0, eq_ix1 idx⟩
  rw [var_core _ _ _ _ dof_eq (fun i j => meanrow_apply _ i j) j]
  exact congrArg (fun H => Cert.Gin.varR H j) hH

end Cert.ReferenceIdeal.RefValue

end
-- ==== Proof.RefValueB.lean ====
/-
  The reference program's second half read at the exact-real instance: from h, its mean and its variance to the result —
  normalise, scale, shift, clip at zero, the second affine map, clip at zero.
-/
import proofs.«108197_j55783035240590_1_alg».proof.Proof.RefValueA2
import proofs.«108197_j55783035240590_1_alg».proof.Proof.LibIdealReal
import proofs.«108197_j55783035240590_1_alg».proof.Proof.LibBroadcastInDim
import proofs.«108197_j55783035240590_1_alg».proof.Proof.LibPlainDot
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Idealize.ShloMosaic Idealize.ShloMosaic.TcCoe Idealize.SL.Sem Idealize.ShloMosaic.StableHlo
open Idealize.ShloMosaic.ValueIdx
open Facts₀ Facts

variable [Facts]

-- the operations' fold is never opened here: every step below is one of its stage equations
attribute [local irreducible] StableHlo.after

/-- A vector of 64 features laid as a row and spread to every node: entry (i, j) is the vector's entry j. -/
private theorem feat_rows (x : FVec Ideal S64 .f32) (i : Fin 100000) (j : Fin 64) :
    broadcastInDim S100000x64 ![0, 1] bcast_S1x64_S100000x64_0_1 (broadcastInDim S1x64 ![1] bcast_S64_S1x64_1 x) (ix2 i j) = x (ix1 j) :=
  (Cert.LibBroadcastInDim.row_mat_apply _ bcast_S1x64_S100000x64_0_1 i j).trans (Cert.LibBroadcastInDim.vec_row_apply x bcast_S64_S1x64_1 0 j)

/-- The zero literal spread to every node and feature is 0 everywhere. -/
private theorem zero_mat (i : Fin 100000) (j : Fin 64) :
    broadcastInDim S100000x64 ![] bcast_S_S100000x64 (constant (F := Ideal) S_ .f32 0x00000000#32) (ix2 i j) = 0 := by
  rw [Cert.LibBroadcastInDim.scalar_apply _ bcast_S_S100000x64 (ix2 i j) ix0, constant_apply, Ideal.ofBits_zero_f32]

/-- The reciprocal root of a feature vector plus the regulariser, at feature k. -/
private theorem rsqrt_eps (v : FVec Ideal S64 .f32) (k : Fin 64) :
    Host.rsqrt (addf v (broadcastInDim S64 ![] bcast_S_S64 (constant (F := Ideal) S_ .f32 0x3727C5AC#32))) (ix1 k)
      = Ideal.rsqrt (v (ix1 k) + Cert.Gin.eps) := by
  show Ideal.rsqrt (v (ix1 k) + broadcastInDim S64 ![] bcast_S_S64 (constant (F := Ideal) S_ .f32 0x3727C5AC#32) (ix1 k)) = _
  rw [Cert.LibBroadcastInDim.scalar_apply _ bcast_S_S64 (ix1 k) ix0, constant_apply]
  rfl

/-- The second product at (i, j): row i of the left operand against column j of the right one. -/
private theorem dot_at (l : FVec Ideal S100000x64 .f32) (r : FVec Ideal S64x64 .f32) (i : Fin 100000) (j : Fin 64) :
    Host.dotGeneral dot_S100000x64_S64x64_S100000x64_1_0_0_1_n_n none l r (ix2 i j) = ∑ k : Fin 64, l (ix2 i k) * r (ix2 k j) :=
  Cert.LibPlainDot.dotGeneral_apply _ rfl rfl rfl rfl rfl rfl none .single l r i j

/-- The result at (i, j) from any contents, given what the buffers of h, of its mean and of its variance hold: the
    normalised, scaled and shifted row i clipped at zero, against column j of W2, plus b2 j, clipped at zero. -/
theorem res_V (V : Valuation τ sig (Elt Ideal)) (H : Fin 100000 → Fin 64 → EReal) (mean var : Fin 64 → EReal)
    (h18 : ∀ (i : Fin 100000) (k : Fin 64), after (RefRun.ops (F := Ideal)) V (Proc.devRef .tc main_v18) (ix2 i k) = H i k)
    (h21 : ∀ k : Fin 64, after (RefRun.ops (F := Ideal)) V (Proc.devRef .tc main_v21) (ix1 k) = mean k)
    (h22 : ∀ k : Fin 64, after (RefRun.ops (F := Ideal)) V (Proc.devRef .tc main_v22) (ix1 k) = var k) (i : Fin 100000) (j : Fin 64) :
    after (RefRun.ops (F := Ideal)) V (Proc.devRef .tc main_v43) (ix2 i j)
      = Cert.Gin.outOf H mean var (V (Proc.devRef .tc main_arg4)) (V (Proc.devRef .tc main_arg5)) (V (Proc.devRef .tc main_arg6)) (V (Proc.devRef .tc main_arg7)) i j := by
  have p37 : ∀ (i : Fin 100000) (k : Fin 64), after (RefRun.ops (F := Ideal)) V (Proc.devRef .tc main_v37) (ix2 i k)
      = (H i k - mean k) * Ideal.rsqrt (var k + Cert.Gin.eps) * V (Proc.devRef .tc main_arg4) (ix1 k) + V (Proc.devRef .tc main_arg5) (ix1 k) := fun i k => by
    rw [Stage.after_v37, Stage.after_v34, Stage.after_v31, Stage.after_v25, Stage.after_v24, Stage.after_v23, Stage.after_v30, Stage.after_v29,
      Stage.after_v28, Stage.after_v27, Stage.after_v26, Stage.after_cst_4, Stage.after_v33, Stage.after_v32, Stage.after_v36, Stage.after_v35,
      RefRun.arg_eq V main_arg4 (by decide), RefRun.arg_eq V main_arg5 (by decide)]
    rw [addf_apply, mulf_apply, mulf_apply, subf_apply, feat_rows, feat_rows, feat_rows, feat_rows, rsqrt_eps, h18, h21, h22]
  have p38 : ∀ (i : Fin 100000) (k : Fin 64), after (RefRun.ops (F := Ideal)) V (Proc.devRef .tc main_v38) (ix2 i k)
      = max ((H i k - mean k) * Ideal.rsqrt (var k + Cert.Gin.eps) * V (Proc.devRef .tc main_arg4) (ix1 k) + V (Proc.devRef .tc main_arg5) (ix1 k)) 0 := fun i k => by
    rw [Stage.after_v38, Stage.after_call1_v0, Stage.after_call1_cst, maximumf_apply, zero_mat, p37]
  rw [Stage.after_v43, Stage.after_call2_v0, Stage.after_call2_cst, Stage.after_v42, Stage.after_v39, Stage.after_v41, Stage.after_v40,
    RefRun.arg_eq V main_arg6 (by decide), RefRun.arg_eq V main_arg7 (by decide)]
  rw [maximumf_apply, zero_mat, addf_apply, feat_rows]
  rw [dot_at]
  unfold Cert.Gin.outOf
  simp only [p38]

theorem res_eq (m : (ℓ : Loc nD τ sig) → Buf (Elt Ideal) ℓ) (c : Dev nD) :
    RefRun.res (F := Ideal) m c
      = Cert.Gin.toArr (Cert.Gin.outOf (Hof m c) (Cert.Gin.meanOf (Hof m c)) (Cert.Gin.varR (Hof m c)) (m ((c.tc : Thread nD τ).loc main_arg4)) (m ((c.tc : Thread nD τ).loc main_arg5)) (m ((c.tc : Thread nD τ).loc main_arg6)) (m ((c.tc : Thread nD τ).loc main_arg7))) := by
  funext idx
  obtain ⟨i, j, rfl⟩ : ∃ i j, idx = ix2 i j := ⟨idx 0, idx 1, eq_ix2 idx⟩
  exact res_V (launchContents m c) (Hof m c) (Cert.Gin.meanOf (Hof m c)) (Cert.Gin.varR (Hof m c))
    (fun i k => congrFun (v18_eq m c) (ix2 i k)) (fun k => congrFun (v21_eq m c) (ix1 k)) (fun k => congrFun (v22_eq m c) (ix1 k)) i j

end Cert.ReferenceIdeal.RefValue

end
-- ==== Proof.lean ====
/-
  The certificate of the graph-layer kernel against its reference.
  Both programs compute, for 100000 nodes with 64 features, h = (x + neighbour sums) · W1 + b1, normalise h by its
  batch mean and variance, scale and shift, clip at zero, apply a second affine map and clip again.  The kernel does it
  in two tiled passes (the first accumulating the column sums of h and h² in two scratch rows) and writes the variance
  as E[h²] − E[h]²; the reference writes it as E[(h − E[h])²].  With every float input finite every entry of h is a
  real number, the two variances are the same real, and everything after them is one function; so the two programs end
  with equal results.  The frames: each program runs to the end and leaves its arguments as launched.
-/
import proofs.«108197_j55783035240590_1_alg».proof.Defs
import proofs.«108197_j55783035240590_1_alg».proof.Proof.Gen.Kernel
import proofs.«108197_j55783035240590_1_alg».proof.Proof.Gen.KernelIdeal
import proofs.«108197_j55783035240590_1_alg».proof.Proof.Gen.ReferenceIdeal
import proofs.«108197_j55783035240590_1_alg».proof.Proof.Gen.Pre_finite_inputs
import proofs.«108197_j55783035240590_1_alg».proof.Proof.KRun
import proofs.«108197_j55783035240590_1_alg».proof.Proof.KIRun
import proofs.«108197_j55783035240590_1_alg».proof.Proof.RefRun
import proofs.«108197_j55783035240590_1_alg».proof.Proof.KIValue
import proofs.«108197_j55783035240590_1_alg».proof.Proof.RefValueB
import proofs.«108197_j55783035240590_1_alg».proof.Proof.Algebra
import proofs.«108197_j55783035240590_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing: the idealized kernel is the kernel's own text. -/
theorem preserves : Cert.preserves_Kernel_KernelIdeal := trivial

/-- The two programs' neighbour sums are one function of x and the edge list (the same host operations). -/
theorem agg_eq (x : FVec Ideal Cert.KernelIdeal.S100000x64 .f32) (ei : IVec Cert.KernelIdeal.S2x1200000 32) :
    Cert.ReferenceIdeal.RefValue.agg x ei = Cert.KernelIdeal.Value.agg x ei := rfl

/-- The array both programs end with on core `c`, as a function of the kernel's launch memory. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v25) :=
  Cert.Gin.toArr (Cert.Gin.outOf (Cert.Gin.hval (m ((c.tc : Thread Cert.KernelIdeal.nD Cert.KernelIdeal.τ).loc Cert.KernelIdeal.main_arg0)) (Cert.KernelIdeal.Value.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.Gin.meanOf (Cert.Gin.hval (m ((c.tc : Thread Cert.KernelIdeal.nD Cert.KernelIdeal.τ).loc Cert.KernelIdeal.main_arg0)) (Cert.KernelIdeal.Value.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))) (Cert.Gin.varK (Cert.Gin.hval (m ((c.tc : Thread Cert.KernelIdeal.nD Cert.KernelIdeal.τ).loc Cert.KernelIdeal.main_arg0)) (Cert.KernelIdeal.Value.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))

/-- The idealized kernel runs to the end with its result array at `result` and its arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v25) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c => ⟨(h c _ (Cert.KernelIdeal.Run.mem_uc Cert.KernelIdeal.main_v25 (by decide))).trans (Cert.KernelIdeal.Value.out_eq m c),
      (h c _ (Cert.KernelIdeal.Run.mem_uc Cert.KernelIdeal.main_arg0 (by decide))).trans (Cert.KernelIdeal.Run.W4_main_arg0 m c),
      (h c _ (Cert.KernelIdeal.Run.mem_uc Cert.KernelIdeal.main_arg1 (by decide))).trans (Cert.KernelIdeal.Run.W4_main_arg1 m c),
      (h c _ (Cert.KernelIdeal.Run.mem_uc Cert.KernelIdeal.main_arg2 (by decide))).trans (Cert.KernelIdeal.Run.W4_main_arg2 m c),
      (h c _ (Cert.KernelIdeal.Run.mem_uc Cert.KernelIdeal.main_arg3 (by decide))).trans (Cert.KernelIdeal.Run.W4_main_arg3 m c),
      (h c _ (Cert.KernelIdeal.Run.mem_uc Cert.KernelIdeal.main_arg4 (by decide))).trans (Cert.KernelIdeal.Run.W4_main_arg4 m c),
      (h c _ (Cert.KernelIdeal.Run.mem_uc Cert.KernelIdeal.main_arg5 (by decide))).trans (Cert.KernelIdeal.Run.W4_main_arg5 m c),
      (h c _ (Cert.KernelIdeal.Run.mem_uc Cert.KernelIdeal.main_arg6 (by decide))).trans (Cert.KernelIdeal.Run.W4_main_arg6 m c),
      (h c _ (Cert.KernelIdeal.Run.mem_uc Cert.KernelIdeal.main_arg7 (by decide))).trans (Cert.KernelIdeal.Run.W4_main_arg7 m c)⟩)
    (Cert.KernelIdeal.Run.run_all (F := Ideal) m ρ)

/-- From memories agreeing on the arguments both programs end with the same array: h is the same function on both sides,
    every entry of it a real number because x, the neighbour sums, W1 and b1 are finite, so the kernel's variance
    E[h²] − E[h]² is the reference's E[(h − E[h])²]; the rest is one function of h, the mean and the variance. -/
theorem algebraic : Cert.algebraic_KernelIdeal_ReferenceIdeal := by
  intro m ρ m' ρ' hpre hagree
  refine ⟨result m, kernel_run m ρ, ?_⟩
  refine (θ_run Cert.ReferenceIdeal.defs _ _).mono (fun r h c => ⟨(h c).1.trans ?_, (h c).2⟩)
    (Cert.ReferenceIdeal.RefRun.run (F := Ideal) m' ρ')
  obtain ⟨hx, hW, hb⟩ := Cert.Gin.Finite.reals_of_pre _ _ _ _ _ _ _ _ (hpre c)
  rw [Cert.ReferenceIdeal.RefValue.res_eq]
  unfold Cert.ReferenceIdeal.RefValue.Hof
  rw [(hagree c).1, (hagree c).2.1, (hagree c).2.2.1, (hagree c).2.2.2.1, (hagree c).2.2.2.2.1,
    (hagree c).2.2.2.2.2.1, (hagree c).2.2.2.2.2.2.1, (hagree c).2.2.2.2.2.2.2, agg_eq]
  unfold result
  rw [Cert.Gin.varK_eq_varR _ (Cert.Gin.hval_real _ _ _ _ hx (Cert.KernelIdeal.Value.agg_real _ _ hx) hW hb)]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
